-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S128x128 : Shape := ⟨2, ![128, 128]⟩
abbrev S128 : Shape := ⟨1, ![128]⟩
abbrev S384x128 : Shape := ⟨2, ![384, 128]⟩
abbrev S_ : Shape := ⟨0, ![]⟩
abbrev S10000 : Shape := ⟨1, ![10000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  reducesTo_S10000x10000_S10000_d1 : S10000x10000.ReducesTo [1] S10000
  bcast_S_S10000 : S_.BroadcastsInDim S10000 (![] : Fin 0 → Fin S10000.rank)
  reducesTo_S10000_S_d0 : S10000.ReducesTo [0] S_

variable [Facts]

def fn_part4 {F : FTy → Type} [FloatOps F] (main_v55 : IVec S_ 1) (main_v66 : IVec S_ 1) : IVec S_ 1 :=
  let main_v67 : IVec S_ 1 := andi main_v55 main_v66
  main_v67

def fn_part3 {F : FTy → Type} [FloatOps F] (main_arg2 : FVec F S10000x10000 .f32) (main_arg3 : FVec F S10000x10000 .f32) (main_v48 : IVec S_ 1) (main_v49 : FVec F S10000 .f32) (main_cst_19 : FVec F S_ .f32) : IVec S_ 1 :=
  let main_v50 : FVec F S10000 .f32 := broadcastInDim S10000 ![] bcast_S_S10000 main_cst_19
  let main_v51 : FVec F S10000 .f32 := addf main_v49 main_v50
  let main_cst_20 : FVec F S_ .f32 := constant S_ .f32 0x00000000#32
  let main_v52 : FVec F S10000 .f32 := broadcastInDim S10000 ![] bcast_S_S10000 main_cst_20
  let main_v53 : IVec S10000 1 := cmpf .une main_v51 main_v52
  let main_c_21 : IVec S_ 1 := constantI S_ 1 1#1
  let main_v54 : IVec S_ 1 := (fun x v => Host.reduce IntOp.andi x v reducesTo_S10000_S_d0 h_S_) main_v53 main_c_21
  let main_v55 : IVec S_ 1 := andi main_v48 main_v54
  let main_v56 : FVec F S10000x10000 .f32 := Host.negf main_arg2
  let main_v57 : FVec F S10000x10000 .f32 := Host.exp main_v56
  let main_cst_22 : FVec F S_ .f32 := constant S_ .f32 0x3F800000#32
  let main_v58 : FVec F S10000x10000 .f32 := broadcastInDim S10000x10000 ![] bcast_S_S10000x10000 main_cst_22
  let main_v59 : FVec F S10000x10000 .f32 := addf main_v58 main_arg3
  let main_v60 : FVec F S10000x10000 .f32 := mulf main_v57 main_v59
  let main_cst_23 : FVec F S_ .f32 := constant S_ .f32 0x00000000#32
  let main_v61 : FVec F S10000 .f32 := (fun x v => Host.reduceAdd x v reducesTo_S10000x10000_S10000_d1 h_S_) main_v60 main_cst_23
  let main_cst_24 : FVec F S_ .f32 := constant S_ .f32 0x358637BD#32
  let main_v62 : FVec F S10000 .f32 := broadcastInDim S10000 ![] bcast_S_S10000 main_cst_24
  let main_v63 : FVec F S10000 .f32 := addf main_v61 main_v62
  let main_cst_25 : FVec F S_ .f32 := constant S_ .f32 0x00000000#32
  let main_v64 : FVec F S10000 .f32 := broadcastInDim S10000 ![] bcast_S_S10000 main_cst_25
  let main_v65 : IVec S10000 1 := cmpf .une main_v63 main_v64
  let main_c_26 : IVec S_ 1 := constantI S_ 1 1#1
  let main_v66 : IVec S_ 1 := (fun x v => Host.reduce IntOp.andi x v reducesTo_S10000_S_d0 h_S_) main_v65 main_c_26
  fn_part4 (F := F) main_v55 main_v66

def fn_part2 {F : FTy → Type} [FloatOps F] (main_arg1 : FVec F S10000x10000 .f32) (main_arg2 : FVec F S10000x10000 .f32) (main_arg3 : FVec F S10000x10000 .f32) (main_arg7 : FVec F S128 .f32) (main_arg8 : FVec F S384x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x128 .f32 := Host.absf main_arg8
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_cst_18 : FVec F S_ .f32 := constant S_ .f32 0x00000000#32
  let main_v49 : FVec F S10000 .f32 := (fun x v => Host.reduceAdd x v reducesTo_S10000x10000_S10000_d1 h_S_) main_arg1 main_cst_18
  let main_cst_19 : FVec F S_ .f32 := constant S_ .f32 0x358637BD#32
  fn_part3 (F := F) main_arg2 main_arg3 main_v48 main_v49 main_cst_19

def fn_part1 {F : FTy → Type} [FloatOps F] (main_arg1 : FVec F S10000x10000 .f32) (main_arg2 : FVec F S10000x10000 .f32) (main_arg3 : FVec F S10000x10000 .f32) (main_arg4 : FVec F S128x256 .f32) (main_arg5 : FVec F S256 .f32) (main_arg6 : FVec F S128x128 .f32) (main_arg7 : FVec F S128 .f32) (main_arg8 : FVec F S384x128 .f32) (main_arg9 : FVec F S128 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg2 main_arg3 main_arg7 main_arg8 main_arg9 main_v33

def fn {F : FTy → Type} [FloatOps F] (main_arg0 : FVec F S10000x128 .f32) (main_arg1 : FVec F S10000x10000 .f32) (main_arg2 : FVec F S10000x10000 .f32) (main_arg3 : FVec F S10000x10000 .f32) (main_arg4 : FVec F S128x256 .f32) (main_arg5 : FVec F S256 .f32) (main_arg6 : FVec F S128x128 .f32) (main_arg7 : FVec F S128 .f32) (main_arg8 : FVec F S384x128 .f32) (main_arg9 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg1 main_arg2 main_arg3 main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S128x128 : Shape := ⟨2, ![128, 128]⟩
abbrev S128 : Shape := ⟨1, ![128]⟩
abbrev S384x128 : Shape := ⟨2, ![384, 128]⟩
abbrev S256x128 : Shape := ⟨2, ![256, 128]⟩
abbrev S1x256 : Shape := ⟨2, ![1, 256]⟩
abbrev S1x128 : Shape := ⟨2, ![1, 128]⟩
abbrev S10000x1 : Shape := ⟨2, ![10000, 1]⟩
abbrev S128x10000 : Shape := ⟨2, ![128, 10000]⟩
abbrev S128x1 : Shape := ⟨2, ![128, 1]⟩
abbrev S256x10000 : Shape := ⟨2, ![256, 10000]⟩
abbrev S256x1 : Shape := ⟨2, ![256, 1]⟩

abbrev nBuf : Space → Nat
  | .hbm => 18
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S10000x10000, .f32⟩
  | .hbm, ⟨4, _⟩ => ⟨S128x256, .f32⟩
  | .hbm, ⟨5, _⟩ => ⟨S256, .f32⟩
  | .hbm, ⟨6, _⟩ => ⟨S128x128, .f32⟩
  | .hbm, ⟨7, _⟩ => ⟨S128, .f32⟩
  | .hbm, ⟨8, _⟩ => ⟨S384x128, .f32⟩
  | .hbm, ⟨9, _⟩ => ⟨S128, .f32⟩
  | .hbm, ⟨10, _⟩ => ⟨S256x128, .f32⟩
  | .hbm, ⟨11, _⟩ => ⟨S128x128, .f32⟩
  | .hbm, ⟨12, _⟩ => ⟨S1x256, .f32⟩
  | .hbm, ⟨13, _⟩ => ⟨S1x128, .f32⟩
  | .hbm, ⟨14, _⟩ => ⟨S1x128, .f32⟩
  | .hbm, ⟨15, _⟩ => ⟨S10000x128, .f32⟩
  | .hbm, ⟨16, _⟩ => ⟨S10000x1, .f32⟩
  | .hbm, ⟨17, _⟩ => ⟨S10000x128, .f32⟩
  | .local _ .vmem, ⟨0, _⟩ => ⟨S128x10000, .f32⟩
  | .local _ .vmem, ⟨1, _⟩ => ⟨S128x10000, .f32⟩
  | .local _ .vmem, ⟨2, _⟩ => ⟨S128x10000, .f32⟩
  | .local _ .vmem, ⟨3, _⟩ => ⟨S128x10000, .f32⟩
  | .local _ .vmem, ⟨4, _⟩ => ⟨S128x10000, .f32⟩
  | .local _ .vmem, ⟨5, _⟩ => ⟨S128x10000, .f32⟩
  | .local _ .vmem, ⟨6, _⟩ => ⟨S10000x128, .f32⟩
  | .local _ .vmem, ⟨7, _⟩ => ⟨S128x256, .f32⟩
  | .local _ .vmem, ⟨8, _⟩ => ⟨S1x256, .f32⟩
  | .local _ .vmem, ⟨9, _⟩ => ⟨S128x128, .f32⟩
  | .local _ .vmem, ⟨10, _⟩ => ⟨S1x128, .f32⟩
  | .local _ .vmem, ⟨11, _⟩ => ⟨S256x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x1, .f32⟩
  | .local _ .vmem, ⟨16, _⟩ => ⟨S128x1, .f32⟩
  | .local _ .vmem, ⟨17, _⟩ => ⟨S256x10000, .f32⟩
  | .local _ .vmem, ⟨18, _⟩ => ⟨S256x10000, .f32⟩
  | .local _ .vmem, ⟨19, _⟩ => ⟨S10000x128, .f32⟩
  | .local _ .vmem, ⟨20, _⟩ => ⟨S256x1, .f32⟩
  | .local _ .vmem, ⟨21, _⟩ => ⟨S256x1, .f32⟩
  | .local _ .vmem, ⟨22, _⟩ => ⟨S1x128, .f32⟩
  | .local _ .vmem, ⟨23, _⟩ => ⟨S256x128, .f32⟩
  | .local _ .vmem, ⟨24, _⟩ => ⟨S256x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg4_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem4_1 : DmaSem sig := 24

abbrev nD : Nat := 1
abbrev τ : Topo := Topo.v7x

variable {F : FTy → Type} [FloatOps F]

abbrev grid0 : Pipeline.Grid := ⟨1, ![79], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S384x128_S256x128_0_0 : S384x128.Slices ![0, 0] S256x128
  slices_S384x128_S128x128_256_0 : S384x128.Slices ![256, 0] S128x128
  shapeCasts_S256_S1x256 : S256.ShapeCasts S1x256
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x10000_S128x10000_0_0 : ∀ a, (![0, 0] : Fin 2 → Nat) a + S128x10000.size a ≤ S128x10000.size a
  h_S128x10000 : 0 < S128x10000.numel
  reduces_S128x10000_S128 : S128x10000.Reduces [1] S128
  shapeCasts_S128_S128x1 : S128.ShapeCasts S128x1
  broadcasts_S128x1_S128x128 : S128x1.Broadcasts S128x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S128x128_S128x128 : S128x128.ShapeCasts S128x128
  inb_S128x1_S128x1_0_0 : ∀ a, (![0, 0] : Fin 2 → Nat) a + S128x1.size a ≤ S128x1.size a
  h_S128x1 : 0 < S128x1.numel
  inb_S256x10000_S256x10000_0_0 : ∀ a, (![0, 0] : Fin 2 → Nat) a + S256x10000.size a ≤ S256x10000.size a
  h_S256x10000 : 0 < S256x10000.numel
  shapeCasts_S10000x128_S10000x128 : S10000x128.ShapeCasts S10000x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  broadcasts_S1x128_S256x128 : S1x128.Broadcasts S256x128
  dot_S128x10000_S10000x128_S128x128_1_0_0_1_n_n_wf : DotDims.WF S128x10000 S10000x128 S128x128 [1] [0] [0] [1] [] []
  dot_S128x128_S128x256_S128x256_1_0_0_1_n_n_wf : DotDims.WF S128x128 S128x256 S128x256 [1] [0] [0] [1] [] []
  dot_S128x128_S128x128_S128x128_1_0_0_1_n_n_wf : DotDims.WF S128x128 S128x128 S128x128 [1] [0] [0] [1] [] []
  dot_S128x256_S256x128_S128x128_1_0_0_1_n_n_wf : DotDims.WF S128x256 S256x128 S128x128 [1] [0] [0] [1] [] []
  dot_S256x10000_S10000x128_S256x128_1_0_0_1_n_n_wf : DotDims.WF S256x10000 S10000x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S128x10000.size a < S10000x10000.size a
  hwx0_0 : ∀ i : grid0.Coords, EltTy.bits .f32 = 32 ∨ (Rect.unit (s := S10000x10000) (fun a => cc0_transform_0 i a * S128x10000.size a) (fun a => (Pipeline.Clip.of (cc0_transform_0 i a) (S128x10000.size a) (S10000x10000.size a)).extent (S128x10000.size a)) fun a => Pipeline.Clip.inb (Pipeline.Clip.ok_of (hstart0_0 i a))).WholeWords (EltTy.packing .f32)
  hwxs0_0 : ∀ i : grid0.Coords, EltTy.bits .f32 = 32 ∨ (Rect.unit (s := S128x10000) (fun _ => 0) (fun a => (Pipeline.Clip.of (cc0_transform_0 i a) (S128x10000.size a) (S10000x10000.size a)).extent (S128x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S128x10000.size a < S10000x10000.size a
  hwx0_1 : ∀ i : grid0.Coords, EltTy.bits .f32 = 32 ∨ (Rect.unit (s := S10000x10000) (fun a => cc0_transform_1 i a * S128x10000.size a) (fun a => (Pipeline.Clip.of (cc0_transform_1 i a) (S128x10000.size a) (S10000x10000.size a)).extent (S128x10000.size a)) fun a => Pipeline.Clip.inb (Pipeline.Clip.ok_of (hstart0_1 i a))).WholeWords (EltTy.packing .f32)
  hwxs0_1 : ∀ i : grid0.Coords, EltTy.bits .f32 = 32 ∨ (Rect.unit (s := S128x10000) (fun _ => 0) (fun a => (Pipeline.Clip.of (cc0_transform_1 i a) (S128x10000.size a) (S10000x10000.size a)).extent (S128x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S128x10000.size a < S10000x10000.size a
  hwx0_2 : ∀ i : grid0.Coords, EltTy.bits .f32 = 32 ∨ (Rect.unit (s := S10000x10000) (fun a => cc0_transform_2 i a * S128x10000.size a) (fun a => (Pipeline.Clip.of (cc0_transform_2 i a) (S128x10000.size a) (S10000x10000.size a)).extent (S128x10000.size a)) fun a => Pipeline.Clip.inb (Pipeline.Clip.ok_of (hstart0_2 i a))).WholeWords (EltTy.packing .f32)
  hwxs0_2 : ∀ i : grid0.Coords, EltTy.bits .f32 = 32 ∨ (Rect.unit (s := S128x10000) (fun _ => 0) (fun a => (Pipeline.Clip.of (cc0_transform_2 i a) (S128x10000.size a) (S10000x10000.size a)).extent (S128x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S10000x128.size a
  hwx0_3 : ∀ i : grid0.Coords, EltTy.bits .f32 = 32 ∨ (Rect.block (s := S10000x128) S10000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hstart0_10 : ∀ (i : grid0.Coords) a, cc0_transform_10 i a * S128x128.size a < S10000x128.size a
  hwx0_10 : ∀ i : grid0.Coords, EltTy.bits .f32 = 32 ∨ (Rect.unit (s := S10000x128) (fun a => cc0_transform_10 i a * S128x128.size a) (fun a => (Pipeline.Clip.of (cc0_transform_10 i a) (S128x128.size a) (S10000x128.size a)).extent (S128x128.size a)) fun a => Pipeline.Clip.inb (Pipeline.Clip.ok_of (hstart0_10 i a))).WholeWords (EltTy.packing .f32)
  hwxs0_10 : ∀ i : grid0.Coords, EltTy.bits .f32 = 32 ∨ (Rect.unit (s := S128x128) (fun _ => 0) (fun a => (Pipeline.Clip.of (cc0_transform_10 i a) (S128x128.size a) (S10000x128.size a)).extent (S128x128.size a)) fun a => (Nat.zero_add _).trans_le (Pipeline.Clip.extent_le (Pipeline.Clip.ok_of (hstart0_10 i a)))).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hstart0_11 : ∀ (i : grid0.Coords) a, cc0_transform_11 i a * S128x1.size a < S10000x1.size a
  hwx0_11 : ∀ i : grid0.Coords, EltTy.bits .f32 = 32 ∨ (Rect.unit (s := S10000x1) (fun a => cc0_transform_11 i a * S128x1.size a) (fun a => (Pipeline.Clip.of (cc0_transform_11 i a) (S128x1.size a) (S10000x1.size a)).extent (S128x1.size a)) fun a => Pipeline.Clip.inb (Pipeline.Clip.ok_of (hstart0_11 i a))).WholeWords (EltTy.packing .f32)
  hwxs0_11 : ∀ i : grid0.Coords, EltTy.bits .f32 = 32 ∨ (Rect.unit (s := S128x1) (fun _ => 0) (fun a => (Pipeline.Clip.of (cc0_transform_11 i a) (S128x1.size a) (S10000x1.size a)).extent (S128x1.size a)) fun a => (Nat.zero_add _).trans_le (Pipeline.Clip.extent_le (Pipeline.Clip.ok_of (hstart0_11 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S256x10000.size a < S10000x10000.size a
  hwx1_0 : ∀ i : grid1.Coords, EltTy.bits .f32 = 32 ∨ (Rect.unit (s := S10000x10000) (fun a => cc1_transform_0 i a * S256x10000.size a) (fun a => (Pipeline.Clip.of (cc1_transform_0 i a) (S256x10000.size a) (S10000x10000.size a)).extent (S256x10000.size a)) fun a => Pipeline.Clip.inb (Pipeline.Clip.ok_of (hstart1_0 i a))).WholeWords (EltTy.packing .f32)
  hwxs1_0 : ∀ i : grid1.Coords, EltTy.bits .f32 = 32 ∨ (Rect.unit (s := S256x10000) (fun _ => 0) (fun a => (Pipeline.Clip.of (cc1_transform_0 i a) (S256x10000.size a) (S10000x10000.size a)).extent (S256x10000.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S256x1.size a < S10000x1.size a
  hwx1_2 : ∀ i : grid1.Coords, EltTy.bits .f32 = 32 ∨ (Rect.unit (s := S10000x1) (fun a => cc1_transform_2 i a * S256x1.size a) (fun a => (Pipeline.Clip.of (cc1_transform_2 i a) (S256x1.size a) (S10000x1.size a)).extent (S256x1.size a)) fun a => Pipeline.Clip.inb (Pipeline.Clip.ok_of (hstart1_2 i a))).WholeWords (EltTy.packing .f32)
  hwxs1_2 : ∀ i : grid1.Coords, EltTy.bits .f32 = 32 ∨ (Rect.unit (s := S256x1) (fun _ => 0) (fun a => (Pipeline.Clip.of (cc1_transform_2 i a) (S256x1.size a) (S10000x1.size a)).extent (S256x1.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S256x128.size a < S10000x128.size a
  hwx1_4 : ∀ i : grid1.Coords, EltTy.bits .f32 = 32 ∨ (Rect.unit (s := S10000x128) (fun a => cc1_transform_4 i a * S256x128.size a) (fun a => (Pipeline.Clip.of (cc1_transform_4 i a) (S256x128.size a) (S10000x128.size a)).extent (S256x128.size a)) fun a => Pipeline.Clip.inb (Pipeline.Clip.ok_of (hstart1_4 i a))).WholeWords (EltTy.packing .f32)
  hwxs1_4 : ∀ i : grid1.Coords, EltTy.bits .f32 = 32 ∨ (Rect.unit (s := S256x128) (fun _ => 0) (fun a => (Pipeline.Clip.of (cc1_transform_4 i a) (S256x128.size a) (S10000x128.size a)).extent (S256x128.size a)) fun a => (Nat.zero_add _).trans_le (Pipeline.Clip.extent_le (Pipeline.Clip.ok_of (hstart1_4 i a)))).WholeWords (EltTy.packing .f32)

variable [Facts₀]

def dot_S128x10000_S10000x128_S128x128_1_0_0_1_n_n : DotDims S128x10000 S10000x128 S128x128 where
  lhsContracting := [1]
  rhsContracting := [0]
  lhsNonContracting := [0]
  rhsNonContracting := [1]
  lhsBatch := []
  rhsBatch := []
  wf := dot_S128x10000_S10000x128_S128x128_1_0_0_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf

abbrev win0_0 : Pipeline.Window sig grid0 :=
  Pipeline.Window.ofSpecClip (Memref.whole main_arg1) S128x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg2) S128x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg3) S128x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_arg0) S10000x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpecClip (Memref.whole main_v5_0) S128x128.size cc0_transform_10 reads0_10 true false 2 stage0_10 sem0_10
    hrank0 hreads0_10 hstart0_10 nbuf0_10 (Memref.isWhole_whole _) hwx0_10 hwxs0_10 hstage0_10

abbrev win0_11 : Pipeline.Window sig grid0 :=
  Pipeline.Window.ofSpecClip (Memref.whole main_v5_1) S128x1.size cc0_transform_11 reads0_11 true false 2 stage0_11 sem0_11
    hrank0 hreads0_11 hstart0_11 nbuf0_11 (Memref.isWhole_whole _) hwx0_11 hwxs0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpecClip (Memref.whole main_arg1) S256x10000.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v5_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpecClip (Memref.whole main_v5_1) S256x1.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_v4) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpecClip (Memref.whole main_v6) S256x128.size cc1_transform_4 reads1_4 true false 2 stage1_4 sem1_4
    hrank1 hreads1_4 hstart1_4 nbuf1_4 (Memref.isWhole_whole _) hwx1_4 hwxs1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S128x128 : Shape := ⟨2, ![128, 128]⟩
abbrev S128 : Shape := ⟨1, ![128]⟩
abbrev S384x128 : Shape := ⟨2, ![384, 128]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S1x256 : Shape := ⟨2, ![1, 256]⟩
abbrev S1x128 : Shape := ⟨2, ![1, 128]⟩
abbrev S10000x384 : Shape := ⟨2, ![10000, 384]⟩

abbrev nBuf : Space → Nat
  | .hbm => 59
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S10000x10000, .f32⟩
  | .hbm, ⟨4, _⟩ => ⟨S128x256, .f32⟩
  | .hbm, ⟨5, _⟩ => ⟨S256, .f32⟩
  | .hbm, ⟨6, _⟩ => ⟨S128x128, .f32⟩
  | .hbm, ⟨7, _⟩ => ⟨S128, .f32⟩
  | .hbm, ⟨8, _⟩ => ⟨S384x128, .f32⟩
  | .hbm, ⟨9, _⟩ => ⟨S128, .f32⟩
  | .hbm, ⟨10, _⟩ => ⟨S_, .f32⟩
  | .hbm, ⟨11, _⟩ => ⟨S10000, .f32⟩
  | .hbm, ⟨12, _⟩ => ⟨S10000x1, .f32⟩
  | .hbm, ⟨13, _⟩ => ⟨S_, .f32⟩
  | .hbm, ⟨14, _⟩ => ⟨S10000x1, .f32⟩
  | .hbm, ⟨15, _⟩ => ⟨S10000x1, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x256, .f32⟩
  | .hbm, ⟨20, _⟩ => ⟨S1x256, .f32⟩
  | .hbm, ⟨21, _⟩ => ⟨S10000x256, .f32⟩
  | .hbm, ⟨22, _⟩ => ⟨S10000x256, .f32⟩
  | .hbm, ⟨23, _⟩ => ⟨S10000x10000, .f32⟩
  | .hbm, ⟨24, _⟩ => ⟨S10000x10000, .f32⟩
  | .hbm, ⟨25, _⟩ => ⟨S_, .f32⟩
  | .hbm, ⟨26, _⟩ => ⟨S10000x10000, .f32⟩
  | .hbm, ⟨27, _⟩ => ⟨S10000x10000, .f32⟩
  | .hbm, ⟨28, _⟩ => ⟨S10000x10000, .f32⟩
  | .hbm, ⟨29, _⟩ => ⟨S_, .f32⟩
  | .hbm, ⟨30, _⟩ => ⟨S10000, .f32⟩
  | .hbm, ⟨31, _⟩ => ⟨S10000x1, .f32⟩
  | .hbm, ⟨32, _⟩ => ⟨S_, .f32⟩
  | .hbm, ⟨33, _⟩ => ⟨S10000x1, .f32⟩
  | .hbm, ⟨34, _⟩ => ⟨S10000x1, .f32⟩
  | .hbm, ⟨35, _⟩ => ⟨S10000x10000, .f32⟩
  | .hbm, ⟨36, _⟩ => ⟨S10000x10000, .f32⟩
  | .hbm, ⟨37, _⟩ => ⟨S10000x128, .f32⟩
  | .hbm, ⟨38, _⟩ => ⟨S10000x128, .f32⟩
  | .hbm, ⟨39, _⟩ => ⟨S1x128, .f32⟩
  | .hbm, ⟨40, _⟩ => ⟨S10000x128, .f32⟩
  | .hbm, ⟨41, _⟩ => ⟨S10000x128, .f32⟩
  | .hbm, ⟨42, _⟩ => ⟨S10000x384, .f32⟩
  | .hbm, ⟨43, _⟩ => ⟨S_, .f32⟩
  | .hbm, ⟨44, _⟩ => ⟨S10000x384, .f32⟩
  | .hbm, ⟨45, _⟩ => ⟨S10000x384, .f32⟩
  | .hbm, ⟨46, _⟩ => ⟨S_, .f32⟩
  | .hbm, ⟨47, _⟩ => ⟨S10000, .f32⟩
  | .hbm, ⟨48, _⟩ => ⟨S10000x1, .f32⟩
  | .hbm, ⟨49, _⟩ => ⟨S_, .f32⟩
  | .hbm, ⟨50, _⟩ => ⟨S10000x1, .f32⟩
  | .hbm, ⟨51, _⟩ => ⟨S10000x1, .f32⟩
  | .hbm, ⟨52, _⟩ => ⟨S10000x384, .f32⟩
  | .hbm, ⟨53, _⟩ => ⟨S10000x384, .f32⟩
  | .hbm, ⟨54, _⟩ => ⟨S10000x384, .f32⟩
  | .hbm, ⟨55, _⟩ => ⟨S10000x128, .f32⟩
  | .hbm, ⟨56, _⟩ => ⟨S1x128, .f32⟩
  | .hbm, ⟨57, _⟩ => ⟨S10000x128, .f32⟩
  | .hbm, ⟨58, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x10000 : S_.BroadcastsInDim S10000x10000 (![] : Fin 0 → Fin S10000x10000.rank)
  bcast_S10000x1_S10000x10000_0_1 : S10000x1.BroadcastsInDim S10000x10000 (![0, 1] : Fin 2 → Fin S10000x10000.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  concatenates_S10000x256_S10000x128_S10000x384_d1 : Shape.Concatenates [S10000x256, S10000x128] S10000x384 1
  bcast_S_S10000x384 : S_.BroadcastsInDim S10000x384 (![] : Fin 0 → Fin S10000x384.rank)
  bcast_S10000x1_S10000x384_0_1 : S10000x1.BroadcastsInDim S10000x384 (![0, 1] : Fin 2 → Fin S10000x384.rank)
  dot_S10000x10000_S10000x128_S10000x128_1_0_0_1_n_n_wf : DotDims.WF S10000x10000 S10000x128 S10000x128 [1] [0] [0] [1] [] []
  dot_S10000x128_S128x256_S10000x256_1_0_0_1_n_n_wf : DotDims.WF S10000x128 S128x256 S10000x256 [1] [0] [0] [1] [] []
  dot_S10000x128_S128x128_S10000x128_1_0_0_1_n_n_wf : DotDims.WF S10000x128 S128x128 S10000x128 [1] [0] [0] [1] [] []
  dot_S10000x10000_S10000x384_S10000x384_1_0_0_1_n_n_wf : DotDims.WF S10000x10000 S10000x384 S10000x384 [1] [0] [0] [1] [] []
  dot_S10000x384_S384x128_S10000x128_1_0_0_1_n_n_wf : DotDims.WF S10000x384 S384x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x384_S10000x384_1_0_0_1_n_n : DotDims S10000x10000 S10000x384 S10000x384 where
  lhsContracting := [1]
  rhsContracting := [0]
  lhsNonContracting := [0]
  rhsNonContracting := [1]
  lhsBatch := []
  rhsBatch := []
  wf := dot_S10000x10000_S10000x384_S10000x384_1_0_0_1_n_n_wf
def dot_S10000x384_S384x128_S10000x128_1_0_0_1_n_n : DotDims S10000x384 S384x128 S10000x128 where
  lhsContracting := [1]
  rhsContracting := [0]
  lhsNonContracting := [0]
  rhsNonContracting := [1]
  lhsBatch := []
  rhsBatch := []
  wf := dot_S10000x384_S384x128_S10000x128_1_0_0_1_n_n_wf

class Facts : Prop extends Facts₀ where

variable [Facts]
-- ==== Proof.K.Data.lean ====
/-
  Relational proof data of the word-level kernel's two pallas_calls: the arrays' contents at entry are named, what a
  body leaves in a staging buffer is not (both calls fetch row blocks whose last block overhangs the arrays, and what a
  staging buffer holds below the array's last rows is not determined).
-/
import proofs.«150123_g86629490360606_cont_9to1_m_121_2_alg».proof.Proof.Gen.Kernel.Launch
import proofs.«150123_g86629490360606_cont_9to1_m_121_2_alg».proof.Proof.Gen.Kernel.Skeleton
import proofs.«150123_g86629490360606_cont_9to1_m_121_2_alg».proof.Proof.Gen.Kernel.Points
import proofs.«150123_g86629490360606_cont_9to1_m_121_2_alg».proof.Proof.Gen.Kernel.Regions
import Idealize.ShloMosaic.Lib.Pipeline.FrameBody

set_option maxRecDepth 16384

noncomputable section

namespace Cert.Kernel.HF

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (RDat Cfg Window cellOf)

variable {F : FTy → Type} [FloatOps F]

/-- Two copies of the rounds algebra: the first funds the staging cells of the pipelines the launch enters itself, the
    second those of the pipeline entered from contents known only at its entry. -/
abbrev UU : Type := UR sig nD τ × UR sig nD τ

/-- A core's buffer contents by reference. -/
abbrev VT (c : Dev nD) : Type := (b : Ref sig .tc) → Buf (Elt F) ((c : Thread nD τ).loc b)

/-- The first pipeline's data on core `c` at entry contents `V`. -/
def rd0 (c : Dev nD) (V : VT (F := F) c) : RDat τ (Elt F) Unit ℕ UU ℕ cfg0 c where
  A w := V (Pipeline.arrRef spec0 w)
  after _ _ _ _ := True
  Φ _ := Pipeline.ΦA spec0 c
  q _ := fullShare
  owed _ := 0
/-- The second pipeline's. -/
def rd1 (c : Dev nD) (V : VT (F := F) c) : RDat τ (Elt F) Unit ℕ UU ℕ cfg1 c where
  A w := V (Pipeline.arrRef spec1 w)
  after _ _ _ _ := True
  Φ _ := Pipeline.ΦA spec1 c
  q _ := fullShare
  owed _ := 0

/-- The family of both pipelines' data at given entry contents. -/
def rdats (Va Vb : (c : Dev nD) → VT (F := F) c) : (p : Fin 2) → (c : Dev nD) → RDat τ (Elt F) Unit ℕ UU ℕ (Pipeline.pin (pcfgs (F := F)) adm p) c
  | ⟨0, _⟩ => fun c => rd0 c (Va c)
  | ⟨1, _⟩ => fun c => rd1 c (Vb c)

abbrev 𝒱₀ : Variants := Variants.none
abbrev L : GSem nD τ sig → Finset Unit := fun _ => ∅
abbrev lv : GSem nD τ sig → Unit → ℕ := fun _ _ => 0

end Cert.Kernel.HF
end
-- ==== Proof.K.Body.lean ====
/-
  The two kernel bodies of the word-level program execute on whatever their staging buffers hold: every load is of a
  whole buffer the core owns, every store is to a whole buffer the core owns, and each buffer is handed back at some
  contents. Nothing is claimed about any value.
-/
import proofs.«150123_g86629490360606_cont_9to1_m_121_2_alg».proof.Proof.K.Data
import Idealize.ShloMosaic.Lib.Pipeline.FrameBody
import Idealize.ShloMosaic.Lib.Pipeline.Kit
import Idealize.ShloMosaic.Lib.Tactic

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

/-! # The second body: five whole-buffer loads, one whole-buffer store -/

set_option maxHeartbeats 1000000 in
/-- The second body on whole memrefs held at any contents runs to the continuation, which receives the four inputs'
    memrefs at the contents they had and the output's at some contents. -/
theorem sound_kernel1 (c : Dev nD) (E : Set ℕ) (i : grid1.Coords)
    (arg1 : Memref sig .tc .vmem S256x10000 .f32) (harg1 : arg1.IsWhole) (arg2 : Memref sig .tc .vmem S10000x128 .f32) (harg2 : arg2.IsWhole)
    (arg3 : Memref sig .tc .vmem S256x1 .f32) (harg3 : arg3.IsWhole) (arg4 : Memref sig .tc .vmem S1x128 .f32) (harg4 : arg4.IsWhole)
    (arg5 : Memref sig .tc .vmem S256x128 .f32) (harg5 : arg5.IsWhole)
    (x1 : Vec F S256x10000 .f32) (x2 : Vec F S10000x128 .f32) (x3 : Vec F S256x1 .f32) (x4 : Vec F S1x128 .f32) (x5 : Vec F S256x128 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (iprop(owns (c : Thread nD τ) arg1 fullShare x1 ∗ owns (c : Thread nD τ) arg2 fullShare x2 ∗ owns (c : Thread nD τ) arg3 fullShare x3
            ∗ owns (c : Thread nD τ) arg4 fullShare x4 ∗ (∃ X, owns (c : Thread nD τ) arg5 fullShare X)) -∗ K ⟨⟩))
      ⊢ wp frame (wpE (defs₀ (F := F)) Variants.none c none) E (cc1__phase2 i arg1 harg1 arg2 harg2 arg3 harg3 arg4 harg4 arg5 harg5) K := by
  simp only [cc1__phase2_eq_skeleton]; unfold cc1__phase2_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; iexists _; isplitr
  swap; · iexact H5
  ipureintro; rfl

/-- The second body at any point of the grid, on the pipeline's current staging memrefs at any contents: the invariant
    and what the core owes pass through unread; each staging memref comes back at some contents. -/
theorem sound_body1 (c : Dev nD) (V : VT (F := F) c) (t : Fin cfg1.N)
    (Y : (w : Fin cfg1.W) → (cfg1.win w).block.Idx → Elt F (cfg1.win w).elt) :
    iprop((rd1 (F := F) c V).Φ t.castSucc ∗ (rd1 (F := F) c V).owesAt () t.castSucc
        ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3)
        ∗ owns (c : Thread nD τ) (st1_4 t) fullShare (Y 4))
      ⊢ wp frame (wpE (defs₀ (F := F)) Variants.none c none) Set.univ (bodyAt1 t) (fun _ =>
          iprop((rd1 (F := F) c V).Φ t.succ ∗ (rd1 (F := F) c V).owesAt () t.succ
            ∗ (∃ X, ⌜(rd1 (F := F) c V).after 0 t (Y 0) X⌝ ∗ owns (c : Thread nD τ) (st1_0 t) fullShare X)
            ∗ (∃ X, ⌜(rd1 (F := F) c V).after 1 t (Y 1) X⌝ ∗ owns (c : Thread nD τ) (st1_1 t) fullShare X)
            ∗ (∃ X, ⌜(rd1 (F := F) c V).after 2 t (Y 2) X⌝ ∗ owns (c : Thread nD τ) (st1_2 t) fullShare X)
            ∗ (∃ X, ⌜(rd1 (F := F) c V).after 3 t (Y 3) X⌝ ∗ owns (c : Thread nD τ) (st1_3 t) fullShare X)
            ∗ (∃ X, ⌜(rd1 (F := F) c V).after 4 t (Y 4) X⌝ ∗ owns (c : Thread nD τ) (st1_4 t) fullShare X))) := by
  unfold bodyAt1
  rw [show (rd1 (F := F) c V).Φ t.succ = (rd1 (F := F) c V).Φ t.castSucc from rfl,
    show (rd1 (F := F) c V).owesAt () t.succ = (rd1 (F := F) c V).owesAt () t.castSucc from rfl]
  iintro ⟨HΦ, Ho, H0, H1, H2, H3, H4⟩
  iapply (sound_kernel1 c Set.univ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  iintro ⟨H0, H1, H2, H3, ⟨%X4, H4⟩⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  iexists X4; isplitr; · ipureintro; trivial
  iexact H4

/-- The second pipeline's body obligation: the body runs at every point, on whatever the staging buffers hold. -/
theorem body1 (c : Dev nD) (V : VT (F := F) c) : (rd1 (F := F) c V).BodyObligation (defs₀ (F := F)) Variants.none () Set.univ :=
  fun t Y _ => by
    rw [bigSep_W1, bigSep_W1]
    exact sound_body1 c V t Y

/-! # The first body: eleven whole-buffer loads (seven of them in its first part), two whole-buffer stores -/

set_option maxHeartbeats 1000000 in
/-- The first body on whole memrefs held at any contents runs to the continuation, which receives the ten inputs'
    memrefs at the contents they had and each of the two outputs' at some contents. -/
theorem sound_kernel0 (c : Dev nD) (E : Set ℕ) (i : grid0.Coords)
    (arg1 : Memref sig .tc .vmem S128x10000 .f32) (harg1 : arg1.IsWhole)
    (arg2 : Memref sig .tc .vmem S128x10000 .f32) (harg2 : arg2.IsWhole)
    (arg3 : Memref sig .tc .vmem S128x10000 .f32) (harg3 : arg3.IsWhole)
    (arg4 : Memref sig .tc .vmem S10000x128 .f32) (harg4 : arg4.IsWhole)
    (arg5 : Memref sig .tc .vmem S128x256 .f32) (harg5 : arg5.IsWhole)
    (arg6 : Memref sig .tc .vmem S1x256 .f32) (harg6 : arg6.IsWhole)
    (arg7 : Memref sig .tc .vmem S128x128 .f32) (harg7 : arg7.IsWhole)
    (arg8 : Memref sig .tc .vmem S1x128 .f32) (harg8 : arg8.IsWhole)
    (arg9 : Memref sig .tc .vmem S256x128 .f32) (harg9 : arg9.IsWhole)
    (arg10 : Memref sig .tc .vmem S128x128 .f32) (harg10 : arg10.IsWhole)
    (arg11 : Memref sig .tc .vmem S128x128 .f32) (harg11 : arg11.IsWhole)
    (arg12 : Memref sig .tc .vmem S128x1 .f32) (harg12 : arg12.IsWhole)
    (x1 : Vec F S128x10000 .f32) (x2 : Vec F S128x10000 .f32) (x3 : Vec F S128x10000 .f32) (x4 : Vec F S10000x128 .f32) (x5 : Vec F S128x256 .f32) (x6 : Vec F S1x256 .f32) (x7 : Vec F S128x128 .f32) (x8 : Vec F S1x128 .f32) (x9 : Vec F S256x128 .f32) (x10 : Vec F S128x128 .f32) (x11 : Vec F S128x128 .f32) (x12 : Vec F S128x1 .f32)
    (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ X, owns (c : Thread nD τ) arg11 fullShare X)
            ∗ (∃ X, owns (c : Thread nD τ) arg12 fullShare X)) -∗ K ⟨⟩))
      ⊢ wp frame (wpE (defs₀ (F := F)) Variants.none c none) E (cc0__phase1 i arg1 harg1 arg2 harg2 arg3 harg3 arg4 harg4 arg5 harg5 arg6 harg6 arg7 harg7 arg8 harg8 arg9 harg9 arg10 harg10 arg11 harg11 arg12 harg12) K := by
  simp only [cc0__phase1_eq_skeleton, k0_part1_eq_skeleton]; unfold cc0__phase1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf1 hf2 hf3 hf4 hf5 hf6 hf7 hf8 hf9 hf10 hf11 hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; iexists _; isplitr
    swap; · iexact H11
    ipureintro; rfl
  iexists _; iexists _; isplitr
  swap; · iexact H12
  ipureintro; rfl

/-- The first body at any point of the grid, on the pipeline's current staging memrefs at any contents: the invariant
    and what the core owes pass through unread; each staging memref comes back at some contents. -/
theorem sound_body0 (c : Dev nD) (V : VT (F := F) c) (t : Fin cfg0.N)
    (Y : (w : Fin cfg0.W) → (cfg0.win w).block.Idx → Elt F (cfg0.win w).elt) :
    iprop((rd0 (F := F) c V).Φ t.castSucc ∗ (rd0 (F := F) c V).owesAt () t.castSucc
        ∗ owns (c : Thread nD τ) (st0_0 t) fullShare (Y 0)
        ∗ owns (c : Thread nD τ) (st0_1 t) fullShare (Y 1)
        ∗ owns (c : Thread nD τ) (st0_2 t) fullShare (Y 2)
        ∗ owns (c : Thread nD τ) (st0_3 t) fullShare (Y 3)
        ∗ owns (c : Thread nD τ) (st0_4 t) fullShare (Y 4)
        ∗ owns (c : Thread nD τ) (st0_5 t) fullShare (Y 5)
        ∗ owns (c : Thread nD τ) (st0_6 t) fullShare (Y 6)
        ∗ owns (c : Thread nD τ) (st0_7 t) fullShare (Y 7)
        ∗ owns (c : Thread nD τ) (st0_8 t) fullShare (Y 8)
        ∗ owns (c : Thread nD τ) (st0_9 t) fullShare (Y 9)
        ∗ owns (c : Thread nD τ) (st0_10 t) fullShare (Y 10)
        ∗ owns (c : Thread nD τ) (st0_11 t) fullShare (Y 11))
      ⊢ wp frame (wpE (defs₀ (F := F)) Variants.none c none) Set.univ (bodyAt0 t) (fun _ =>
          iprop((rd0 (F := F) c V).Φ t.succ ∗ (rd0 (F := F) c V).owesAt () t.succ
            ∗ (∃ X, ⌜(rd0 (F := F) c V).after 0 t (Y 0) X⌝ ∗ owns (c : Thread nD τ) (st0_0 t) fullShare X)
            ∗ (∃ X, ⌜(rd0 (F := F) c V).after 1 t (Y 1) X⌝ ∗ owns (c : Thread nD τ) (st0_1 t) fullShare X)
            ∗ (∃ X, ⌜(rd0 (F := F) c V).after 2 t (Y 2) X⌝ ∗ owns (c : Thread nD τ) (st0_2 t) fullShare X)
            ∗ (∃ X, ⌜(rd0 (F := F) c V).after 3 t (Y 3) X⌝ ∗ owns (c : Thread nD τ) (st0_3 t) fullShare X)
            ∗ (∃ X, ⌜(rd0 (F := F) c V).after 4 t (Y 4) X⌝ ∗ owns (c : Thread nD τ) (st0_4 t) fullShare X)
            ∗ (∃ X, ⌜(rd0 (F := F) c V).after 5 t (Y 5) X⌝ ∗ owns (c : Thread nD τ) (st0_5 t) fullShare X)
            ∗ (∃ X, ⌜(rd0 (F := F) c V).after 6 t (Y 6) X⌝ ∗ owns (c : Thread nD τ) (st0_6 t) fullShare X)
            ∗ (∃ X, ⌜(rd0 (F := F) c V).after 7 t (Y 7) X⌝ ∗ owns (c : Thread nD τ) (st0_7 t) fullShare X)
            ∗ (∃ X, ⌜(rd0 (F := F) c V).after 8 t (Y 8) X⌝ ∗ owns (c : Thread nD τ) (st0_8 t) fullShare X)
            ∗ (∃ X, ⌜(rd0 (F := F) c V).after 9 t (Y 9) X⌝ ∗ owns (c : Thread nD τ) (st0_9 t) fullShare X)
            ∗ (∃ X, ⌜(rd0 (F := F) c V).after 10 t (Y 10) X⌝ ∗ owns (c : Thread nD τ) (st0_10 t) fullShare X)
            ∗ (∃ X, ⌜(rd0 (F := F) c V).after 11 t (Y 11) X⌝ ∗ owns (c : Thread nD τ) (st0_11 t) fullShare X))) := by
  unfold bodyAt0
  rw [show (rd0 (F := F) c V).Φ t.succ = (rd0 (F := F) c V).Φ t.castSucc from rfl,
    show (rd0 (F := F) c V).owesAt () t.succ = (rd0 (F := F) c V).owesAt () t.castSucc from rfl]
  iintro ⟨HΦ, Ho, H0, H1, H2, H3, H4, H5, H6, H7, H8, H9, H10, H11⟩
  iapply (sound_kernel0 c Set.univ _ _ _ _ _ _ _ _ _ _ _ _ _ _ _ _ _ _ _ _ _ _ _ _ _ (Y 0) (Y 1) (Y 2) (Y 3) (Y 4) (Y 5) (Y 6) (Y 7) (Y 8) (Y 9) (Y 10) (Y 11) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, ⟨%X10, H10⟩, ⟨%X11, H11⟩⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  isplitl [H5]
  · iexists (Y 5); isplitr; · ipureintro; trivial
    iexact H5
  isplitl [H6]
  · iexists (Y 6); isplitr; · ipureintro; trivial
    iexact H6
  isplitl [H7]
  · iexists (Y 7); isplitr; · ipureintro; trivial
    iexact H7
  isplitl [H8]
  · iexists (Y 8); isplitr; · ipureintro; trivial
    iexact H8
  isplitl [H9]
  · iexists (Y 9); isplitr; · ipureintro; trivial
    iexact H9
  isplitl [H10]
  · iexists X10; isplitr; · ipureintro; trivial
    iexact H10
  iexists X11; isplitr; · ipureintro; trivial
  iexact H11

/-- The first pipeline's body obligation: the body runs at every point, on whatever the staging buffers hold. -/
theorem body0 (c : Dev nD) (V : VT (F := F) c) : (rd0 (F := F) c V).BodyObligation (defs₀ (F := F)) Variants.none () Set.univ :=
  fun t Y _ => by
    rw [bigSep_W0, bigSep_W0]
    exact sound_body0 c V t Y

end Cert.Kernel.HF
end
-- ==== Proof.K.Frame.lean ====
/-
  The word-level kernel runs, faults nowhere and leaves its arguments as it found them.

  Both pallas_calls fetch row blocks whose last block overhangs the arrays; what the staging buffers hold below the
  array's last rows is not determined, and the word-level row sum of a staged block is a function of the whole block.
  So what the first call leaves in its two results is not named here: the run carries the results' contents as an
  unknown from the first call's exit into the second call's entry, and the second call's proof data is chosen THERE,
  at whatever the first call left. Nothing about the results is claimed; every argument ends as it was.
-/
import proofs.«150123_g86629490360606_cont_9to1_m_121_2_alg».proof.Proof.K.Data
import Idealize.ShloMosaic.Lib.Pipeline.RegionsLoop
import Idealize.ShloMosaic.Lib.Pipeline.FrameSuffix
import Idealize.ShloMosaic.Lib.Tactic

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

abbrev EPa : Emb (UR sig nD τ) 𝕄 := embL
abbrev EPb : Emb (UR sig nD τ) 𝕄 := embR

variable (m : (ℓ : Loc nD τ sig) → Buf (Elt F) ℓ) (ρ : Dev nD → PrngReg)
-- the two bodies run on whatever their staging buffers hold (proved beside this module, at any float model)
variable (hb0 : ∀ (c : Dev nD) (V : VT (F := F) c), (rd0 (F := F) c V).BodyObligation (defs₀ (F := F)) Variants.none () Set.univ)
variable (hb1 : ∀ (c : Dev nD) (V : VT (F := F) c), (rd1 (F := F) c V).BodyObligation (defs₀ (F := F)) Variants.none () Set.univ)

/-! ## The buffers' contents between the items -/

/-- After the first call: the host stretch's contents, the two results at unknowns `o10`, `o11`. -/
abbrev Wb (c : Dev nD) (o10 : Buf (Elt F) ((c : Thread nD τ).loc main_v5_0)) (o11 : Buf (Elt F) ((c : Thread nD τ).loc main_v5_1)) : Valuation τ sig (Elt F) :=
  Function.update (Function.update (V1 m c) main_v5_0 o10) main_v5_1 o11
/-- After the second call: the final result at an unknown `o6` besides. -/
abbrev Wc (c : Dev nD) (o10 : Buf (Elt F) ((c : Thread nD τ).loc main_v5_0)) (o11 : Buf (Elt F) ((c : Thread nD τ).loc main_v5_1))
    (o6 : Buf (Elt F) ((c : Thread nD τ).loc main_v6)) : Valuation τ sig (Elt F) :=
  Function.update (Wb m c o10 o11) main_v6 o6

/-- The same read at the core's references. -/
abbrev U1 (c : Dev nD) : VT (F := F) c := fun b => V1 m c b
abbrev Ub (c : Dev nD) (o10 : Buf (Elt F) ((c : Thread nD τ).loc main_v5_0)) (o11 : Buf (Elt F) ((c : Thread nD τ).loc main_v5_1)) : VT (F := F) c :=
  fun b => Wb m c o10 o11 b
abbrev Uc (c : Dev nD) (o10 : Buf (Elt F) ((c : Thread nD τ).loc main_v5_0)) (o11 : Buf (Elt F) ((c : Thread nD τ).loc main_v5_1))
    (o6 : Buf (Elt F) ((c : Thread nD τ).loc main_v6)) : VT (F := F) c :=
  fun b => Wc m c o10 o11 o6 b

omit [FloatOps F] in
theorem upd_self (W : Valuation τ sig (Elt F)) (b : DevRef τ sig) (x : BufTy.Contents (Elt F) b.ty) : Function.update W b x b = x :=
  Function.update_self b x W
omit [FloatOps F] in
theorem upd_ne (W : Valuation τ sig (Elt F)) (a b : DevRef τ sig) (h : a ≠ b) (x : BufTy.Contents (Elt F) b.ty) : Function.update W b x a = W a :=
  Function.update_of_ne h x W

theorem Wb_of (c : Dev nD) (o10 o11) (r : Ref sig .tc) (h : r ∉ ([main_v5_0, main_v5_1] : List (Ref sig .tc))) : Wb m c o10 o11 r = V1 m c r := by
  simp only [Wb, Function.update_of_ne (StableHlo.devRef_ne_of_ne (List.ne_of_not_mem_cons h) : (Proc.devRef .tc r : DevRef τ sig) ≠ Proc.devRef .tc main_v5_0), Function.update_of_ne (StableHlo.devRef_ne_of_ne (List.ne_of_not_mem_cons (List.not_mem_of_not_mem_cons h)) : (Proc.devRef .tc r : DevRef τ sig) ≠ Proc.devRef .tc main_v5_1)]
theorem Wc_of (c : Dev nD) (o10 o11 o6) (r : Ref sig .tc) (h : r ∉ ([main_v6] : List (Ref sig .tc))) : Wc m c o10 o11 o6 r = Wb m c o10 o11 r := by
  simp only [Wc, Function.update_of_ne (StableHlo.devRef_ne_of_ne (List.ne_of_not_mem_cons h) : (Proc.devRef .tc r : DevRef τ sig) ≠ Proc.devRef .tc main_v6)]

/-- An argument reaches the end as launched. -/
theorem Wc_arg (c : Dev nD) (o10 o11 o6) (r : Ref sig .tc) (h6 : r ∉ ([main_v6] : List (Ref sig .tc))) (h5 : r ∉ ([main_v5_0, main_v5_1] : List (Ref sig .tc)))
    (h0 : r ∉ hostOps0_W) : Wc m c o10 o11 o6 r = m ((c : Thread nD τ).loc r) :=
  (Wc_of m c o10 o11 o6 r h6).trans <| (Wb_of m c o10 o11 r h5).trans <| (V1_of m c r h0).trans rfl

/-! ## The thread states -/

/-- What rides beside the buffers: the generator register at some state and the core owing nothing. -/
abbrev Rst (c : Dev nD) : sProp 𝕄 := iprop((∃ r, prngReg c r) ∗ ∃ W, owes (c : Thread nD τ) (0 : CellTallies nD τ sig Unit) W)
/-- The second pipeline's rounds ghost state in the second copy of the algebra. -/
abbrev G1 (c : Dev nD) : sProp 𝕄 := iprop(Pipeline.cellsGhost (Pipeline.pin (pcfgs (F := F)) adm) EPb 1 c ∗ Pipeline.toksInit (Pipeline.pin (pcfgs (F := F)) adm) EPb 1 c)

/-- The family the launch's own region is stated over: the first pipeline at what the host stretch leaves. -/
abbrev rdA : (p : Fin 2) → (c : Dev nD) → RDat τ (Elt F) Unit ℕ UU ℕ (Pipeline.pin (pcfgs (F := F)) adm p) c :=
  rdats (fun c => U1 m c) (fun c => U1 m c)

/-- The thread state between the two calls, and after the second. -/
abbrev Tmid (c : Dev nD) : sProp 𝕄 :=
  iprop(∃ (o10 : (c : Dev nD) → Buf (Elt F) ((c : Thread nD τ).loc main_v5_0)) (o11 : (c : Dev nD) → Buf (Elt F) ((c : Thread nD τ).loc main_v5_1)),
    StableHlo.held (c : Thread nD τ) (Pipeline.ucRefs τ sig) (Wb m c (o10 c) (o11 c)) ∗ Rst c ∗ G1 c)
abbrev Tend (c : Dev nD) : sProp 𝕄 :=
  iprop(∃ (o10 : (c : Dev nD) → Buf (Elt F) ((c : Thread nD τ).loc main_v5_0)) (o11 : (c : Dev nD) → Buf (Elt F) ((c : Thread nD τ).loc main_v5_1)) (o6 : Buf (Elt F) ((c : Thread nD τ).loc main_v6)),
    StableHlo.held (c : Thread nD τ) (Pipeline.ucRefs τ sig) (Wc m c (o10 c) (o11 c) o6) ∗ Rst c)

omit [FloatOps F] in
/-- A pipeline's arrays at contents `Fs` beside the unscoped rest at `V` are the core's unscoped buffers at any
    valuation that has the arrays at `Fs` and agrees with `V` off them (the exit of a region, over relational data). -/
theorem unscopedBufs_of_arraysR {p : Fin 2} (hw : Pipeline.WinFacts (Pipeline.pin (pcfgs (F := F)) adm p).spec)
    (harr : ∀ w, ((Pipeline.pin (pcfgs (F := F)) adm p).spec w).arr.IsWhole) (c : Dev nD)
    (rd : (p : Fin 2) → (c : Dev nD) → RDat τ (Elt F) Unit ℕ UU ℕ (Pipeline.pin (pcfgs (F := F)) adm p) c)
    (hshare : ∀ w, (rd p c).share w = fullShare) (V V' : VT (F := F) c)
    (Fs : (w : Fin (Pipeline.pin (pcfgs (F := F)) adm p).W) → Buf (Elt F) (((Pipeline.pin (pcfgs (F := F)) adm p).spec w).arr.view.loc (c : Thread nD τ)))
    (hF : ∀ w, Fs w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rd p c).arrays Fs ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V', Pipeline.RDat.arrays_eq (pcfgs (F := F)) adm rd p c harr hshare]
  refine sep_mono (Entails.of_eq (bigSep_congr fun w _ => by rw [hF])) (Entails.of_eq ?_)
  unfold Pipeline.unscopedRest
  exact bigSep_congr fun b hb => by rw [hrest b (Finset.mem_sdiff.mp hb).2]

set_option backward.isDefEq.respectTransparency.types false in
/-- At the first call's exit each array holds what the exit valuation has there: an input what it held, a result the unknown. -/
theorem hFs0 (c : Dev nD) (Fs : (w : Fin (Pipeline.pin (pcfgs (F := F)) adm 0).W) → Buf (Elt F) (((Pipeline.pin (pcfgs (F := F)) adm 0).spec w).arr.view.loc (c : Thread nD τ)))
    (hFs : ∀ w ∈ (Finset.univ : Finset (Fin (Pipeline.pin (pcfgs (F := F)) adm 0).W)), (rdA m 0 c).ArrAt w (Pipeline.pin (pcfgs (F := F)) adm 0).N (Fs w)) :
    ∀ w, Fs w = Ub m c (Fs 10) (Fs 11) (Pipeline.arrRef (Pipeline.pin (pcfgs (F := F)) adm 0).spec w) := by
  have hin : ∀ w, ((Pipeline.pin (pcfgs (F := F)) adm 0).win w).isOut = false → Fs w = U1 m c (Pipeline.arrRef (Pipeline.pin (pcfgs (F := F)) adm 0).spec w) := fun w hw => by
    have h := hFs w (Finset.mem_univ w)
    rw [(rdA m 0 c).ArrAt_in w hw] at h
    exact h
  have hne : ∀ w : Fin 12, (cfg0.win w).isOut = false → Pipeline.arrRef spec0 w ∉ ([main_v5_0, main_v5_1] : List (Ref sig .tc)) := by decide
  have hout : ∀ w : Fin 12, ¬ (cfg0.win w).isOut = false → w = 10 ∨ w = 11 := by decide
  intro w
  by_cases hw : (cfg0.win w).isOut = false
  · exact (hin w hw).trans (Wb_of m c _ _ _ (hne w hw)).symm
  · rcases hout w hw with rfl | rfl
    · show Fs 10 = Function.update (Function.update (V1 m c) main_v5_0 (Fs 10)) main_v5_1 (Fs 11) main_v5_0
      exact ((upd_ne (Function.update (V1 m c) main_v5_0 (Fs 10)) main_v5_0 main_v5_1 (StableHlo.devRef_ne_of_ne (show (main_v5_0 : Ref sig .tc) ≠ main_v5_1 by decide)) (Fs 11)).trans (upd_self (V1 m c) main_v5_0 (Fs 10))).symm
    · show Fs 11 = Function.update (Function.update (V1 m c) main_v5_0 (Fs 10)) main_v5_1 (Fs 11) main_v5_1
      exact (upd_self (Function.update (V1 m c) main_v5_0 (Fs 10)) main_v5_1 (Fs 11)).symm

theorem hrest0 (c : Dev nD) (o10 o11) :
    ∀ b, b ∉ Finset.univ.image (Pipeline.arrRef (Pipeline.pin (pcfgs (F := F)) adm 0).spec) → Ub m c o10 o11 b = U1 m c b := by
  intro b hb
  refine Wb_of m c o10 o11 b fun hmem => hb ?_
  rw [Finset.mem_image]
  rcases List.mem_cons.mp hmem with rfl | hmem
  · exact ⟨10, Finset.mem_univ _, rfl⟩
  · rcases List.mem_cons.mp hmem with rfl | hmem
    · exact ⟨11, Finset.mem_univ _, rfl⟩
    · exact absurd hmem List.not_mem_nil

set_option backward.isDefEq.respectTransparency.types false in
/-- The first pallas_call over the thread state: entered from the host stretch's contents, left at those with the two
    results at SOME contents. -/
def reg0 : Pipeline.RDat.RegionSeg (pcfgs (F := F)) adm (rdA m) () defs₀ 𝒱₀ L lv 0 where
  win := launch0.win.to₀
  block_pos := launch0.block_pos
  stage_whole := launch0.stage_whole
  K := PEmpty
  osem k := k.elim
  ho := Pipeline.OwnSemFacts.none _
  hbody c := hb0 c (U1 m c)
  hwaits := Pipeline.RDat.hwaits_of_owed_zero _ _ _ _ L lv 0 fun _ _ => rfl
  pre c := iprop(StableHlo.held (c : Thread nD τ) (Pipeline.ucRefs τ sig) (V1 m c) ∗ Rst c ∗ G1 c)
  post c := Tmid m c
  X c := iprop(∃ r, prngReg c r)
  Y c := iprop(∃ r, prngReg c r)
  Z c := iprop(Pipeline.unscopedRest (Ix := Unit) (Name := ℕ) (U := UU) (Lvl := ℕ) spec0 c (U1 m c) ∗ G1 c)
  hentry c := by
    rw [Pipeline.ownSems0_none]
    have hsplit := Pipeline.RDat.arrays_of_unscopedBufs (p := 0) (pcfgs (F := F)) adm (rdA m) launch0.win launch0.arr_whole c
      ((rdA m 0 c).share_full fun _ => rfl) (U1 m c) fun _ => rfl
    rw [Pipeline.unscopedBufs_held] at hsplit
    iintro ⟨⟨Hub, ⟨Hp, HO⟩, HG⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (rdA m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdA m 0 c).Φ (Fin.last _) = Pipeline.ΦA spec0 c from rfl]; unfold Pipeline.ΦA
    iintro ⟨Hr, Hp⟩
    isplitl [Hp]; · iexact Hp
    isplitr; · iempintro
    iexact Hr
  hexit c := by
    classical
    unfold Pipeline.RDat.arraysAt
    iintro ⟨Ha, HO, HY, Hrest, HG⟩
    ihave Ha' := (BI.bigSep_exists_pi Finset.univ (fun w G => iprop(⌜(rdA m 0 c).ArrAt w (Pipeline.pin (pcfgs (F := F)) adm 0).N G⌝
        ∗ ((Pipeline.pin (pcfgs (F := F)) adm 0).win w).arr.view.loc (c : Thread nD τ) ↦[((Pipeline.pin (pcfgs (F := F)) adm 0).win w).arr.view.set]{(rdA m 0 c).share w} G))) $$ Ha
    icases Ha' with ⟨%Fs, Ha⟩
    ihave Ha2 := (BI.bigSep_pure_sep Finset.univ (fun w => (rdA m 0 c).ArrAt w (Pipeline.pin (pcfgs (F := F)) adm 0).N (Fs w))
        (fun w => ((Pipeline.pin (pcfgs (F := F)) adm 0).win w).arr.view.loc (c : Thread nD τ) ↦[((Pipeline.pin (pcfgs (F := F)) adm 0).win w).arr.view.set]{(rdA m 0 c).share w} Fs w)) $$ Ha
    icases Ha2 with ⟨%hFs, Ha⟩
    imodintro
    iexists (Function.update (fun c' => (V1 m c' main_v5_0 : Buf (Elt F) ((c' : Thread nD τ).loc main_v5_0))) c (Fs 10)), (Function.update (fun c' => (V1 m c' main_v5_1 : Buf (Elt F) ((c' : Thread nD τ).loc main_v5_1))) c (Fs 11))
    simp only [Function.update_self]
    have hjoin := unscopedBufs_of_arraysR (F := F) (p := 0) launch0.win launch0.arr_whole c (rdA m) ((rdA m 0 c).share_full fun _ => rfl)
      (U1 m c) (Ub m c (Fs 10) (Fs 11)) Fs (hFs0 m c Fs hFs) (hrest0 m c (Fs 10) (Fs 11))
    rw [Pipeline.unscopedBufs_held] at hjoin
    isplitl [Ha Hrest]
    · iapply hjoin
      isplitl [Ha]
      · unfold Pipeline.RDat.arrays; iexact Ha
      iexact Hrest
    isplitl [HY HO]
    · isplitl [HY]; · iexact HY
      unfold Pipeline.RDat.owesAt Pipeline.owesWithin
      icases HO with ⟨%W, -, HO⟩; iexists W; iexact HO
    iexact HG

/-! ## The second call, entered from what the first left -/

/-- The family the second call is entered with: its pipeline at the first call's exit contents. -/
abbrev rdB (o10 : (c : Dev nD) → Buf (Elt F) ((c : Thread nD τ).loc main_v5_0)) (o11 : (c : Dev nD) → Buf (Elt F) ((c : Thread nD τ).loc main_v5_1)) :
    (p : Fin 2) → (c : Dev nD) → RDat τ (Elt F) Unit ℕ UU ℕ (Pipeline.pin (pcfgs (F := F)) adm p) c :=
  rdats (fun c => U1 m c) (fun c => Ub m c (o10 c) (o11 c))

set_option backward.isDefEq.respectTransparency.types false in
theorem hFs1 (o10 o11) (c : Dev nD) (Fs : (w : Fin (Pipeline.pin (pcfgs (F := F)) adm 1).W) → Buf (Elt F) (((Pipeline.pin (pcfgs (F := F)) adm 1).spec w).arr.view.loc (c : Thread nD τ)))
    (hFs : ∀ w ∈ (Finset.univ : Finset (Fin (Pipeline.pin (pcfgs (F := F)) adm 1).W)), (rdB m o10 o11 1 c).ArrAt w (Pipeline.pin (pcfgs (F := F)) adm 1).N (Fs w)) :
    ∀ w, Fs w = Uc m c (o10 c) (o11 c) (Fs 4) (Pipeline.arrRef (Pipeline.pin (pcfgs (F := F)) adm 1).spec w) := by
  have hin : ∀ w, ((Pipeline.pin (pcfgs (F := F)) adm 1).win w).isOut = false → Fs w = Ub m c (o10 c) (o11 c) (Pipeline.arrRef (Pipeline.pin (pcfgs (F := F)) adm 1).spec w) := fun w hw => by
    have h := hFs w (Finset.mem_univ w)
    rw [(rdB m o10 o11 1 c).ArrAt_in w hw] at h
    exact h
  have hne : ∀ w : Fin 5, (cfg1.win w).isOut = false → Pipeline.arrRef spec1 w ∉ ([main_v6] : List (Ref sig .tc)) := by decide
  have hout : ∀ w : Fin 5, ¬ (cfg1.win w).isOut = false → w = 4 := by decide
  intro w
  by_cases hw : (cfg1.win w).isOut = false
  · exact (hin w hw).trans (Wc_of m c _ _ _ _ (hne w hw)).symm
  · obtain rfl := hout w hw
    show Fs 4 = Function.update (Wb m c (o10 c) (o11 c)) main_v6 (Fs 4) main_v6
    exact (upd_self (Wb m c (o10 c) (o11 c)) main_v6 (Fs 4)).symm

theorem hrest1 (c : Dev nD) (o10 o11 o6) :
    ∀ b, b ∉ Finset.univ.image (Pipeline.arrRef (Pipeline.pin (pcfgs (F := F)) adm 1).spec) → Uc m c o10 o11 o6 b = Ub m c o10 o11 b := by
  intro b hb
  refine Wc_of m c o10 o11 o6 b fun hmem => hb ?_
  rw [Finset.mem_image]
  rcases List.mem_cons.mp hmem with rfl | hmem
  · exact ⟨4, Finset.mem_univ _, rfl⟩
  · exact absurd hmem List.not_mem_nil

set_option backward.isDefEq.respectTransparency.types false in
/-- The second pallas_call as a region record, at given exit contents of the first. -/
def reg1 (o10 : (c : Dev nD) → Buf (Elt F) ((c : Thread nD τ).loc main_v5_0)) (o11 : (c : Dev nD) → Buf (Elt F) ((c : Thread nD τ).loc main_v5_1)) :
    Pipeline.RDat.RegionSeg (pcfgs (F := F)) adm (rdB m o10 o11) () defs₀ 𝒱₀ L lv 1 where
  win := launch1.win.to₀
  block_pos := launch1.block_pos
  stage_whole := launch1.stage_whole
  K := PEmpty
  osem k := k.elim
  ho := Pipeline.OwnSemFacts.none _
  hbody c := hb1 c (Ub m c (o10 c) (o11 c))
  hwaits := Pipeline.RDat.hwaits_of_owed_zero _ _ _ _ L lv 1 fun _ _ => rfl
  pre c := iprop(StableHlo.held (c : Thread nD τ) (Pipeline.ucRefs τ sig) (Wb m c (o10 c) (o11 c)) ∗ Rst c)
  post c := iprop(∃ o6, StableHlo.held (c : Thread nD τ) (Pipeline.ucRefs τ sig) (Wc m c (o10 c) (o11 c) o6) ∗ Rst c)
  X c := iprop(∃ r, prngReg c r)
  Y c := iprop(∃ r, prngReg c r)
  Z c := Pipeline.unscopedRest (Ix := Unit) (Name := ℕ) (U := UU) (Lvl := ℕ) spec1 c (Ub m c (o10 c) (o11 c))
  hentry c := by
    rw [Pipeline.ownSems0_none]
    have hsplit := Pipeline.RDat.arrays_of_unscopedBufs (p := 1) (pcfgs (F := F)) adm (rdB m o10 o11) launch1.win launch1.arr_whole c
      ((rdB m o10 o11 1 c).share_full fun _ => rfl) (Ub m c (o10 c) (o11 c)) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdB m o10 o11 1 c).Φ 0 = Pipeline.ΦA spec1 c from rfl]; unfold Pipeline.ΦA
    iintro ⟨Hp, -, Hr⟩
    isplitl [Hr]; · iexact Hr
    iexact Hp
  hout c := by
    rw [Pipeline.ownSems0_none, show (rdB m o10 o11 1 c).Φ (Fin.last _) = Pipeline.ΦA spec1 c from rfl]; unfold Pipeline.ΦA
    iintro ⟨Hr, Hp⟩
    isplitl [Hp]; · iexact Hp
    isplitr; · iempintro
    iexact Hr
  hexit c := by
    classical
    unfold Pipeline.RDat.arraysAt
    iintro ⟨Ha, HO, HY, Hrest⟩
    ihave Ha' := (BI.bigSep_exists_pi Finset.univ (fun w G => iprop(⌜(rdB m o10 o11 1 c).ArrAt w (Pipeline.pin (pcfgs (F := F)) adm 1).N G⌝
        ∗ ((Pipeline.pin (pcfgs (F := F)) adm 1).win w).arr.view.loc (c : Thread nD τ) ↦[((Pipeline.pin (pcfgs (F := F)) adm 1).win w).arr.view.set]{(rdB m o10 o11 1 c).share w} G))) $$ Ha
    icases Ha' with ⟨%Fs, Ha⟩
    ihave Ha2 := (BI.bigSep_pure_sep Finset.univ (fun w => (rdB m o10 o11 1 c).ArrAt w (Pipeline.pin (pcfgs (F := F)) adm 1).N (Fs w))
        (fun w => ((Pipeline.pin (pcfgs (F := F)) adm 1).win w).arr.view.loc (c : Thread nD τ) ↦[((Pipeline.pin (pcfgs (F := F)) adm 1).win w).arr.view.set]{(rdB m o10 o11 1 c).share w} Fs w)) $$ Ha
    icases Ha2 with ⟨%hFs, Ha⟩
    imodintro
    iexists (Fs 4)
    have hjoin := unscopedBufs_of_arraysR (F := F) (p := 1) launch1.win launch1.arr_whole c (rdB m o10 o11) ((rdB m o10 o11 1 c).share_full fun _ => rfl)
      (Ub m c (o10 c) (o11 c)) (Uc m c (o10 c) (o11 c) (Fs 4)) Fs (hFs1 m o10 o11 c Fs hFs) (hrest1 m c (o10 c) (o11 c) (Fs 4))
    rw [Pipeline.unscopedBufs_held] at hjoin
    isplitl [Ha Hrest]
    · iapply hjoin
      isplitl [Ha]
      · unfold Pipeline.RDat.arrays; iexact Ha
      iexact Hrest
    isplitl [HY]; · iexact HY
    unfold Pipeline.RDat.owesAt Pipeline.owesWithin
    icases HO with ⟨%W, -, HO⟩; iexists W; iexact HO

set_option backward.isDefEq.respectTransparency.types false in
/-- The second pallas_call as a segment of its own: from the first call's exit state, whatever the two results hold,
    its region record is taken at those contents and entered with the second copy of its pipeline's ghost state. -/
def seg1 : Pipeline.HostSeg (Ix := Unit) (Name := ℕ) (U := UU) (Lvl := ℕ) (pcfgs (F := F)) defs₀ 𝒱₀ L lv where
  prog := Prog.lift (.customCall (Pipeline.entry 1) ())
  pre c := Tmid m c
  post c := Tend m c
  run c {β} k K := by
    iintro ⟨Hk, Hbd, ⟨%o10, %o11, Hh, HR, Hg, Ht⟩, #Hla⟩
    have hwp := Pipeline.RDat.RegionSeg.wp (pcfgs (F := F)) adm (rdB m o10 o11) () cellOf_inj EPb defs₀ 𝒱₀ L lv (reg1 m hb1 o10 o11) c none (fun u h => nomatch h) k K
    rw [show (reg1 m hb1 o10 o11).post c = iprop(∃ o6, StableHlo.held (c : Thread nD τ) (Pipeline.ucRefs τ sig) (Wc m c (o10 c) (o11 c) o6) ∗ Rst c) from rfl,
      show (reg1 m hb1 o10 o11).pre c = iprop(StableHlo.held (c : Thread nD τ) (Pipeline.ucRefs τ sig) (Wb m c (o10 c) (o11 c)) ∗ Rst c) from rfl] at hwp
    simp only [Prog.lift, Prog.bind_op, Prog.bind_ret]
    iapply hwp
    isplitl [Hk]
    · iintro ⟨Hbd, ⟨%o6, Hh, HR⟩⟩
      iapply Hk
      isplitl [Hbd]; · iexact Hbd
      iexists o10, o11, o6
      isplitl [Hh]; · iexact Hh
      iexact HR
    isplitl [Hbd]; · iexact Hbd
    isplitl [Hh HR]
    · isplitl [Hh]; · iexact Hh
      iexact HR
    isplitr; · iexact Hla
    isplitl [Hg]; · iexact Hg
    iexact Ht

/-! ## The run -/

/-- The host stretch as a segment, the generator register, the core's owing nothing and the second pipeline's ghost
    state riding along. -/
abbrev seg0' : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (fun c => iprop(Rst c ∗ G1 c))

abbrev segsR : List (Pipeline.RDat.Seg (pcfgs (F := F)) adm (rdA m) () defs₀ 𝒱₀ L lv) :=
  [ .host (seg0' m), .region (reg0 m hb0), .host (seg1 m hb1) ]

theorem main_runR (c : Dev nD) : main (F := F) c = Pipeline.RDat.Seg.run (segsR m hb0 hb1) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hb0 hb1 in
set_option backward.isDefEq.respectTransparency.types false in
/-- Every weakly fair execution of the word-level @main terminates, nothing faulting, and leaves each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.RDat.θ_run_regions_kit (pcfgs (F := F)) adm (rdA m) () cellOf_inj EPa defs₀ 𝒱₀ L lv m ρ main (segsR m hb0 hb1)
    (fun c Q => by rw [main_runR m hb0 hb1 c])
    (by simp only [segsR, Pipeline.RDat.Seg.pipes_host, Pipeline.RDat.Seg.pipes_region, Pipeline.RDat.Seg.pipes_nil]; decide)
    (O₀ := 0) (hL := fun _ _ => rfl) (G := fun c => G1 c)
    (u₀ := (initOf (Pipeline.cells cfgs cellOf_inj) (Pipeline.launchToks cfgs cellOf_inj), initOf (Pipeline.cells cfgs cellOf_inj) (Pipeline.launchToks cfgs cellOf_inj)))
    (hu₀ := by
      iintro Hu
      ihave Hp := (ownU_pair (initOf (Pipeline.cells cfgs cellOf_inj) (Pipeline.launchToks cfgs cellOf_inj)) (initOf (Pipeline.cells cfgs cellOf_inj) (Pipeline.launchToks cfgs cellOf_inj))) $$ Hu
      icases Hp with ⟨Ha, Hb⟩
      imod (Pipeline.fund_ghost (Pipeline.pin (pcfgs (F := F)) adm) EPb cellOf_inj) $$ Hb with ⟨Hg, Ht⟩
      imodintro
      isplitl [Ha]; · iexact Ha
      rw [bigSep_sep']
      isplitl [Hg]
      · iapply (show (bigSep Finset.univ fun c : Dev nD => bigSep Finset.univ fun p : Fin 2 => Pipeline.cellsGhost (Pipeline.pin (pcfgs (F := F)) adm) EPb p c : sProp 𝕄)
            ⊢ bigSep Finset.univ fun c : Dev nD => Pipeline.cellsGhost (Pipeline.pin (pcfgs (F := F)) adm) EPb 1 c
          from bigSep_mono fun c _ => BI.bigSep_elim (Finset.mem_univ (1 : Fin 2)))
        iexact Hg
      · iapply (show (bigSep Finset.univ fun c : Dev nD => bigSep Finset.univ fun p : Fin 2 => Pipeline.toksInit (Pipeline.pin (pcfgs (F := F)) adm) EPb p c : sProp 𝕄)
            ⊢ bigSep Finset.univ fun c : Dev nD => Pipeline.toksInit (Pipeline.pin (pcfgs (F := F)) adm) EPb 1 c
          from bigSep_mono fun c _ => BI.bigSep_elim (Finset.mem_univ (1 : Fin 2)))
        iexact Ht)
    (T₀ := fun c => iprop(StableHlo.held (c : Thread nD τ) (Pipeline.ucRefs τ sig) (V0 m c) ∗ Rst c ∗ G1 c))
    (Tₙ := fun c => iprop(∃ (o10 : (c : Dev nD) → Buf (Elt F) ((c : Thread nD τ).loc main_v5_0)) (o11 : (c : Dev nD) → Buf (Elt F) ((c : Thread nD τ).loc main_v5_1)) (o6 : Buf (Elt F) ((c : Thread nD τ).loc main_v6)),
        StableHlo.held (c : Thread nD τ) (Pipeline.ucRefs τ sig) (Wc m c (o10 c) (o11 c) o6) ∗ ∃ r, prngReg c r))
    (hch := ⟨fun _ => .rfl, fun _ => .rfl, fun _ => .rfl, fun c => by
      show Tend m c ⊢ _
      iintro ⟨%o10, %o11, %o6, Hh, Hp, HO⟩
      isplitr [HO]
      · iexists o10, o11, o6
        isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, HG⟩, -⟩
      imodintro
      isplitl [Hh]; · iexact Hh
      isplitl [Hp HO]
      · isplitl [Hp]; · iexists _; iexact Hp
        iexists ∅; iexact HO
      iexact HG)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => by
      iintro ⟨⟨%o10, %o11, %o6, Hh, -⟩, HSI⟩
      unfold StableHlo.held
      ihave Hr := (pointsTo_read_all (Pipeline.ucRefs τ sig) (fun b => ((c : Thread nD τ).1, b)) (Wc m c (o10 c) (o11 c) o6) s') $$ [Hh HSI]
      · isplitl [Hh] <;> iassumption
      icases Hr with ⟨%h, HSI⟩
      imodintro
      isplitr
      · ipureintro
        exact ⟨(h _ (mem_uc main_arg0 (by decide))).trans (Wc_arg m c _ _ _ main_arg0 (by decide) (by decide) (by decide)),
          (h _ (mem_uc main_arg1 (by decide))).trans (Wc_arg m c _ _ _ main_arg1 (by decide) (by decide) (by decide)),
          (h _ (mem_uc main_arg2 (by decide))).trans (Wc_arg m c _ _ _ main_arg2 (by decide) (by decide) (by decide)),
          (h _ (mem_uc main_arg3 (by decide))).trans (Wc_arg m c _ _ _ main_arg3 (by decide) (by decide) (by decide)),
          (h _ (mem_uc main_arg4 (by decide))).trans (Wc_arg m c _ _ _ main_arg4 (by decide) (by decide) (by decide)),
          (h _ (mem_uc main_arg5 (by decide))).trans (Wc_arg m c _ _ _ main_arg5 (by decide) (by decide) (by decide)),
          (h _ (mem_uc main_arg6 (by decide))).trans (Wc_arg m c _ _ _ main_arg6 (by decide) (by decide) (by decide)),
          (h _ (mem_uc main_arg7 (by decide))).trans (Wc_arg m c _ _ _ main_arg7 (by decide) (by decide) (by decide)),
          (h _ (mem_uc main_arg8 (by decide))).trans (Wc_arg m c _ _ _ main_arg8 (by decide) (by decide) (by decide)),
          (h _ (mem_uc main_arg9 (by decide))).trans (Wc_arg m c _ _ _ main_arg9 (by decide) (by decide) (by decide))⟩
      · iexact HSI)
    (hQ := fun _ h => h)

end Cert.Kernel.HF
end
-- ==== Proof.Spec.lean ====
/-
  The mathematics of the two programs, over the extended reals, with no program in sight.

  The inputs: features `f` [10000, 128], adjacency `a`, distance `d` and relative cosine `g` [10000, 10000],
  W1 [128, 256], b1 [256], Wa [128, 128], ba [128], W2 [384, 128], b2 [128].
  Row `i` of the graph has degree `deg a i = ∑ₖ a i k + ε` and edge weights `w d g i k = exp (-d i k) · (1 + g i k)`
  of total `wsum d g i = ∑ₖ w i k + ε` (ε the f32 word nearest 1e-6).
  Both programs compute the hidden rows `xc` (the degree-normalised aggregate through W1, b1, clamped at 0) and
  `xa` (the weight-normalised aggregate through Wa, ba, clamped at 0), and from them the result.
  The kernel normalises the weighted aggregate AFTER summing (`(∑ₖ w·f) / wsum`) and applies W2 BEFORE the second
  aggregation (`(∑ⱼ a·(x W2)) / deg`); the reference normalises each weight first (`∑ₖ (w / wsum)·f`) and applies W2
  last (`∑ₚ ((∑ⱼ a·x) / deg)·W2`). `kerOut` and `refOut` are the two results; `Bridge` shows them equal where
  every input is finite and no `deg`, `wsum` is zero.
-/
import Idealize.ShloMosaic.PureOps.Ideal

noncomputable section

namespace Cert.Spec

open Idealize.ShloMosaic

/-- The f32 word nearest 1e-6, both programs' ε. -/
def eps : EReal := Ideal.ofBits .f32 0x358637BD#32
/-- The f32 word of 1. -/
def one32 : EReal := Ideal.ofBits .f32 0x3F800000#32
/-- The f32 word of 0. -/
def zero32 : EReal := Ideal.ofBits .f32 0x00000000#32

/-- A row's degree: its adjacency entries summed, plus ε. -/
def degRow (a : Fin 10000 → EReal) : EReal := (∑ k : Fin 10000, a k) + eps
/-- A row's edge weights. -/
def wRow (d g : Fin 10000 → EReal) (k : Fin 10000) : EReal := Ideal.exp (-(d k)) * (one32 + g k)
/-- A row's total edge weight, plus ε. -/
def wsumRow (d g : Fin 10000 → EReal) : EReal := (∑ k : Fin 10000, wRow d g k) + eps

/-- The convolution branch of a hidden row, before the clamp, from the row's adjacency. -/
def convRow (f : Fin 10000 → Fin 128 → EReal) (W1 : Fin 128 → Fin 256 → EReal) (b1 : Fin 256 → EReal)
    (a : Fin 10000 → EReal) (p : Fin 256) : EReal :=
  (∑ q : Fin 128, Ideal.div (∑ k : Fin 10000, a k * f k q) (degRow a) * W1 q p) + b1 p
/-- The angle branch as the KERNEL computes it: the weighted aggregate divided by the total weight. -/
def angleRowK (f : Fin 10000 → Fin 128 → EReal) (Wa : Fin 128 → Fin 128 → EReal) (ba : Fin 128 → EReal)
    (d g : Fin 10000 → EReal) (p : Fin 128) : EReal :=
  (∑ q : Fin 128, Ideal.div (∑ k : Fin 10000, wRow d g k * f k q) (wsumRow d g) * Wa q p) + ba p
/-- The angle branch as the REFERENCE computes it: each weight divided by the total weight first. -/
def angleRowR (f : Fin 10000 → Fin 128 → EReal) (Wa : Fin 128 → Fin 128 → EReal) (ba : Fin 128 → EReal)
    (d g : Fin 10000 → EReal) (p : Fin 128) : EReal :=
  (∑ q : Fin 128, (∑ k : Fin 10000, Ideal.div (wRow d g k) (wsumRow d g) * f k q) * Wa q p) + ba p

/-- The kernel's intermediate row `y`: the clamped hidden row through W2, the two branches' parts of W2 apart. -/
def yRow (f : Fin 10000 → Fin 128 → EReal) (W1 : Fin 128 → Fin 256 → EReal) (b1 : Fin 256 → EReal)
    (Wa : Fin 128 → Fin 128 → EReal) (ba : Fin 128 → EReal) (W2a : Fin 256 → Fin 128 → EReal) (W2b : Fin 128 → Fin 128 → EReal)
    (a d g : Fin 10000 → EReal) (l : Fin 128) : EReal :=
  (∑ p : Fin 256, max (convRow f W1 b1 a p) zero32 * W2a p l) + (∑ p : Fin 128, max (angleRowK f Wa ba d g p) zero32 * W2b p l)

/-- The kernel's result row: the adjacency row against `y`, over the row's degree, plus b2. -/
def outRowK (y : Fin 10000 → Fin 128 → EReal) (b2 : Fin 128 → EReal) (a : Fin 10000 → EReal) (dg : EReal) (l : Fin 128) : EReal :=
  Ideal.div (∑ j : Fin 10000, a j * y j l) dg + b2 l

/-- The reference's hidden row of 384 entries: the convolution branch, then the angle branch, clamped at 0. -/
def xRowR (f : Fin 10000 → Fin 128 → EReal) (W1 : Fin 128 → Fin 256 → EReal) (b1 : Fin 256 → EReal)
    (Wa : Fin 128 → Fin 128 → EReal) (ba : Fin 128 → EReal) (a d g : Fin 10000 → EReal) (p : Fin 384) : EReal :=
  if h : p.val < 256 then max (convRow f W1 b1 a ⟨p.val, h⟩) zero32
  else max (angleRowR f Wa ba d g ⟨p.val - 256, by have := p.isLt; omega⟩) zero32

/-- The reference's result row: the aggregate over the degree, through all of W2, plus b2. -/
def outRowR (x : Fin 10000 → Fin 384 → EReal) (W2 : Fin 384 → Fin 128 → EReal) (b2 : Fin 128 → EReal)
    (a : Fin 10000 → EReal) (l : Fin 128) : EReal :=
  (∑ p : Fin 384, Ideal.div (∑ j : Fin 10000, a j * x j p) (degRow a) * W2 p l) + b2 l

/-- The kernel's result at (i, l), of the whole inputs. -/
def kerOut (f : Fin 10000 → Fin 128 → EReal) (a d g : Fin 10000 → Fin 10000 → EReal) (W1 : Fin 128 → Fin 256 → EReal) (b1 : Fin 256 → EReal)
    (Wa : Fin 128 → Fin 128 → EReal) (ba : Fin 128 → EReal) (W2 : Fin 384 → Fin 128 → EReal) (b2 : Fin 128 → EReal)
    (i : Fin 10000) (l : Fin 128) : EReal :=
  outRowK (fun j => yRow f W1 b1 Wa ba (fun p l => W2 ⟨p.val, by have := p.isLt; omega⟩ l) (fun p l => W2 ⟨256 + p.val, by have := p.isLt; omega⟩ l) (a j) (d j) (g j))
    b2 (a i) (degRow (a i)) l

/-- The reference's result at (i, l). -/
def refOut (f : Fin 10000 → Fin 128 → EReal) (a d g : Fin 10000 → Fin 10000 → EReal) (W1 : Fin 128 → Fin 256 → EReal) (b1 : Fin 256 → EReal)
    (Wa : Fin 128 → Fin 128 → EReal) (ba : Fin 128 → EReal) (W2 : Fin 384 → Fin 128 → EReal) (b2 : Fin 128 → EReal)
    (i : Fin 10000) (l : Fin 128) : EReal :=
  outRowR (fun j => xRowR f W1 b1 Wa ba (a j) (d j) (g j)) W2 b2 (a i) l

/-- Every entry is a real number. -/
def Fin1 {α : Type} (x : α → EReal) : Prop := ∀ i, x i ≠ ⊤ ∧ x i ≠ ⊥
def Fin2 {α β : Type} (x : α → β → EReal) : Prop := ∀ i j, x i j ≠ ⊤ ∧ x i j ≠ ⊥

end Cert.Spec

end
-- ==== Proof.Bridge.lean ====
/-
  The one algebraic law that joins the two programs: where every input is a real number and no degree or total
  weight is zero, the kernel's result and the reference's result are the same extended real.

  The two sides differ in two places. In the angle branch the kernel divides the weighted aggregate by the total
  weight, the reference divides each weight first. In the last layer the kernel applies W2 (its first 256 rows and
  its last 128 rows apart) before the second aggregation and divides last, the reference aggregates, divides, and
  applies all 384 rows of W2. Over the reals both are linearity of a finite sum and of division by a constant.
  On the extended reals distributivity fails at the infinities, so the proof first shows that every quantity in
  sight is the coercion of a real, and then moves each identity to the reals.
-/
import proofs.«150123_g86629490360606_cont_9to1_m_121_2_alg».proof.Proof.Spec
import Idealize.ShloMosaic.PureOps.Ideal
import Mathlib.Data.EReal.Basic
import Mathlib.Data.EReal.Operations
import Mathlib.Data.EReal.Inv
import Mathlib.Algebra.BigOperators.Fin
import Mathlib.Algebra.BigOperators.Field
import Mathlib.Tactic.Ring

noncomputable section

namespace Cert.Spec

open Idealize.ShloMosaic

/-! ## Extended reals that are real numbers -/

/-- An extended real that is the coercion of a real number. -/
def IsR (x : EReal) : Prop := ∃ r : ℝ, x = (r : EReal)

theorem isR_of_ne {x : EReal} (h : x ≠ ⊤ ∧ x ≠ ⊥) : IsR x :=
  ⟨x.toReal, (EReal.coe_toReal h.1 h.2).symm⟩

theorem IsR.add {x y : EReal} : IsR x → IsR y → IsR (x + y) := by
  rintro ⟨r, rfl⟩ ⟨s, rfl⟩; exact ⟨r + s, (EReal.coe_add r s).symm⟩

theorem IsR.mul {x y : EReal} : IsR x → IsR y → IsR (x * y) := by
  rintro ⟨r, rfl⟩ ⟨s, rfl⟩; exact ⟨r * s, (EReal.coe_mul r s).symm⟩

theorem IsR.neg {x : EReal} : IsR x → IsR (-x) := by
  rintro ⟨r, rfl⟩; exact ⟨-r, (EReal.coe_neg r).symm⟩

theorem IsR.exp {x : EReal} : IsR x → IsR (Ideal.exp x) := by
  rintro ⟨r, rfl⟩; exact ⟨Real.exp r, rfl⟩

theorem IsR.max {x y : EReal} (hx : IsR x) (hy : IsR y) : IsR (max x y) := by
  rcases max_choice x y with h | h <;> rw [h] <;> assumption

/-- The quotient of two coerced reals, the divisor not zero, is the coerced quotient. -/
theorem div_coe_coe (x : ℝ) {y : ℝ} (hy : y ≠ 0) : Ideal.div (x : EReal) (y : EReal) = ((x / y : ℝ) : EReal) := by
  rw [Ideal.div_coe hy, ← EReal.coe_mul, one_div, div_eq_mul_inv]

theorem IsR.div {x y : EReal} : IsR x → IsR y → y ≠ 0 → IsR (Ideal.div x y) := by
  rintro ⟨r, rfl⟩ ⟨s, rfl⟩ hs
  have hs' : s ≠ 0 := EReal.coe_ne_zero.mp hs
  exact ⟨r / s, div_coe_coe r hs'⟩

/-- A finite sum of coerced reals is the coerced sum. -/
theorem coe_sum {ι : Type} (s : Finset ι) (r : ι → ℝ) : (∑ k ∈ s, (r k : EReal)) = ((∑ k ∈ s, r k : ℝ) : EReal) := by
  classical
  induction s using Finset.induction_on with
  | empty => simp
  | insert k s hk ih => rw [Finset.sum_insert hk, Finset.sum_insert hk, ih, EReal.coe_add]

theorem IsR.sum {ι : Type} (s : Finset ι) (x : ι → EReal) (h : ∀ k, IsR (x k)) : IsR (∑ k ∈ s, x k) := by
  choose r hr using h
  exact ⟨∑ k ∈ s, r k, by rw [← coe_sum]; exact Finset.sum_congr rfl fun k _ => hr k⟩

/-! ## The constants -/

theorem zero32_eq : zero32 = 0 := by simp [zero32, Ideal.ofBits, Ideal.ieee]

theorem isR_zero32 : IsR zero32 := ⟨0, zero32_eq⟩

theorem isR_eps : IsR eps := by
  apply isR_of_ne
  simp [eps, Ideal.ofBits, Ideal.ieee, -EReal.coe_mul]

theorem isR_one32 : IsR one32 := by
  apply isR_of_ne
  simp [one32, Ideal.ofBits, Ideal.ieee, -EReal.coe_mul]

/-! ## Every quantity of the two programs is a real number -/

section Finite

variable {f : Fin 10000 → Fin 128 → EReal} {W1 : Fin 128 → Fin 256 → EReal} {b1 : Fin 256 → EReal}
  {Wa : Fin 128 → Fin 128 → EReal} {ba : Fin 128 → EReal} {a d g : Fin 10000 → EReal}

theorem isR_degRow (ha : ∀ k, IsR (a k)) : IsR (degRow a) :=
  (IsR.sum _ _ ha).add isR_eps

theorem isR_wRow (hd : ∀ k, IsR (d k)) (hg : ∀ k, IsR (g k)) (k : Fin 10000) : IsR (wRow d g k) :=
  (hd k).neg.exp.mul (isR_one32.add (hg k))

theorem isR_wsumRow (hd : ∀ k, IsR (d k)) (hg : ∀ k, IsR (g k)) : IsR (wsumRow d g) :=
  (IsR.sum _ _ (isR_wRow hd hg)).add isR_eps

theorem isR_convRow (hf : ∀ k q, IsR (f k q)) (hW1 : ∀ q p, IsR (W1 q p)) (hb1 : ∀ p, IsR (b1 p))
    (ha : ∀ k, IsR (a k)) (h0 : degRow a ≠ 0) (p : Fin 256) : IsR (convRow f W1 b1 a p) :=
  (IsR.sum _ _ fun q => ((IsR.sum _ _ fun k => (ha k).mul (hf k q)).div (isR_degRow ha) h0).mul (hW1 q p)).add (hb1 p)

theorem isR_angleRowR (hf : ∀ k q, IsR (f k q)) (hWa : ∀ q p, IsR (Wa q p)) (hba : ∀ p, IsR (ba p))
    (hd : ∀ k, IsR (d k)) (hg : ∀ k, IsR (g k)) (h0 : wsumRow d g ≠ 0) (p : Fin 128) : IsR (angleRowR f Wa ba d g p) :=
  (IsR.sum _ _ fun q =>
    (IsR.sum _ _ fun k => ((isR_wRow hd hg k).div (isR_wsumRow hd hg) h0).mul (hf k q)).mul (hWa q p)).add (hba p)

theorem isR_xRowR (hf : ∀ k q, IsR (f k q)) (hW1 : ∀ q p, IsR (W1 q p)) (hb1 : ∀ p, IsR (b1 p))
    (hWa : ∀ q p, IsR (Wa q p)) (hba : ∀ p, IsR (ba p))
    (ha : ∀ k, IsR (a k)) (hd : ∀ k, IsR (d k)) (hg : ∀ k, IsR (g k))
    (h0 : degRow a ≠ 0) (h1 : wsumRow d g ≠ 0) (p : Fin 384) : IsR (xRowR f W1 b1 Wa ba a d g p) := by
  unfold xRowR
  split
  · exact (isR_convRow hf hW1 hb1 ha h0 _).max isR_zero32
  · exact (isR_angleRowR hf hWa hba hd hg h1 _).max isR_zero32

end Finite

/-! ## The angle branch: dividing the aggregate, or dividing each weight -/

/-- Over real numbers, with a nonzero divisor, the quotient of a weighted sum is the sum weighted by the quotients. -/
theorem div_sum_eq_sum_div (w x : Fin 10000 → EReal) (S : EReal) (hw : ∀ k, IsR (w k)) (hx : ∀ k, IsR (x k))
    (hS : IsR S) (hS0 : S ≠ 0) :
    Ideal.div (∑ k : Fin 10000, w k * x k) S = ∑ k : Fin 10000, Ideal.div (w k) S * x k := by
  choose wr hwr using hw
  choose xr hxr using hx
  obtain ⟨Sr, rfl⟩ := hS
  have hSr : Sr ≠ 0 := EReal.coe_ne_zero.mp hS0
  obtain rfl : w = fun k => (wr k : EReal) := funext hwr
  obtain rfl : x = fun k => (xr k : EReal) := funext hxr
  simp only [← EReal.coe_mul, coe_sum, div_coe_coe _ hSr]
  rw [EReal.coe_eq_coe_iff, Finset.sum_div]
  exact Finset.sum_congr rfl fun k _ => by ring

theorem angleRowK_eq_angleRowR {f : Fin 10000 → Fin 128 → EReal} (Wa : Fin 128 → Fin 128 → EReal) (ba : Fin 128 → EReal)
    {d g : Fin 10000 → EReal} (hf : ∀ k q, IsR (f k q)) (hd : ∀ k, IsR (d k)) (hg : ∀ k, IsR (g k))
    (h0 : wsumRow d g ≠ 0) (p : Fin 128) : angleRowK f Wa ba d g p = angleRowR f Wa ba d g p := by
  unfold angleRowK angleRowR
  refine congrArg (· + ba p) (Finset.sum_congr rfl fun q _ => congrArg (· * Wa q p) ?_)
  exact div_sum_eq_sum_div _ _ _ (isR_wRow hd hg) (fun k => hf k q) (isR_wsumRow hd hg) h0

/-! ## The reference's hidden row, read at its two ranges of columns -/

theorem xRowR_castAdd (f : Fin 10000 → Fin 128 → EReal) (W1 : Fin 128 → Fin 256 → EReal) (b1 : Fin 256 → EReal)
    (Wa : Fin 128 → Fin 128 → EReal) (ba : Fin 128 → EReal) (a d g : Fin 10000 → EReal) (p : Fin 256) :
    xRowR f W1 b1 Wa ba a d g (Fin.castAdd 128 p) = max (convRow f W1 b1 a p) zero32 := by
  unfold xRowR
  rw [dif_pos (show (Fin.castAdd 128 p : Fin 384).val < 256 from p.isLt)]
  rfl

theorem xRowR_natAdd (f : Fin 10000 → Fin 128 → EReal) (W1 : Fin 128 → Fin 256 → EReal) (b1 : Fin 256 → EReal)
    (Wa : Fin 128 → Fin 128 → EReal) (ba : Fin 128 → EReal) (a d g : Fin 10000 → EReal) (p : Fin 128) :
    xRowR f W1 b1 Wa ba a d g (Fin.natAdd 256 p) = max (angleRowR f Wa ba d g p) zero32 := by
  unfold xRowR
  rw [dif_neg (show ¬ (Fin.natAdd 256 p : Fin 384).val < 256 from by simp [Fin.natAdd])]
  have hp : (⟨(Fin.natAdd 256 p : Fin 384).val - 256, by simp [Fin.natAdd]⟩ : Fin 128) = p :=
    Fin.ext (by simp [Fin.natAdd])
  rw [hp]

/-- The kernel's intermediate row is the reference's hidden row through W2, the 384 columns read as 256 and 128. -/
theorem yRow_eq {f : Fin 10000 → Fin 128 → EReal} (W1 : Fin 128 → Fin 256 → EReal) (b1 : Fin 256 → EReal)
    (Wa : Fin 128 → Fin 128 → EReal) (ba : Fin 128 → EReal) (W2 : Fin 384 → Fin 128 → EReal)
    (a : Fin 10000 → EReal) {d g : Fin 10000 → EReal}
    (hf : ∀ k q, IsR (f k q)) (hd : ∀ k, IsR (d k)) (hg : ∀ k, IsR (g k)) (h0 : wsumRow d g ≠ 0) (l : Fin 128) :
    yRow f W1 b1 Wa ba (fun p l => W2 ⟨p.val, by have := p.isLt; omega⟩ l)
        (fun p l => W2 ⟨256 + p.val, by have := p.isLt; omega⟩ l) a d g l
      = (∑ p : Fin 256, xRowR f W1 b1 Wa ba a d g (Fin.castAdd 128 p) * W2 (Fin.castAdd 128 p) l)
        + (∑ p : Fin 128, xRowR f W1 b1 Wa ba a d g (Fin.natAdd 256 p) * W2 (Fin.natAdd 256 p) l) := by
  unfold yRow
  refine congrArg₂ (· + ·) ?_ ?_
  · refine Finset.sum_congr rfl fun p _ => ?_
    rw [xRowR_castAdd]; rfl
  · refine Finset.sum_congr rfl fun p _ => ?_
    rw [xRowR_natAdd, angleRowK_eq_angleRowR Wa ba hf hd hg h0]; rfl

/-! ## The last layer: W2 before the aggregation and the division, or after -/

theorem last_layer (x : Fin 10000 → Fin 384 → EReal) (a : Fin 10000 → EReal) (W : Fin 384 → EReal) (D : EReal)
    (hx : ∀ j p, IsR (x j p)) (ha : ∀ j, IsR (a j)) (hW : ∀ p, IsR (W p)) (hD : IsR D) (hD0 : D ≠ 0) :
    Ideal.div (∑ j : Fin 10000, a j * ((∑ p : Fin 256, x j (Fin.castAdd 128 p) * W (Fin.castAdd 128 p))
        + (∑ p : Fin 128, x j (Fin.natAdd 256 p) * W (Fin.natAdd 256 p)))) D
      = ∑ p : Fin 384, Ideal.div (∑ j : Fin 10000, a j * x j p) D * W p := by
  choose xr hxr using hx
  choose ar har using ha
  choose Wr hWr using hW
  obtain ⟨Dr, rfl⟩ := hD
  have hDr : Dr ≠ 0 := EReal.coe_ne_zero.mp hD0
  obtain rfl : x = fun j p => (xr j p : EReal) := funext fun j => funext fun p => hxr j p
  obtain rfl : a = fun j => (ar j : EReal) := funext har
  obtain rfl : W = fun p => (Wr p : EReal) := funext hWr
  simp only [← EReal.coe_mul, coe_sum, ← EReal.coe_add, div_coe_coe _ hDr]
  rw [EReal.coe_eq_coe_iff]
  have key : ∀ j, (∑ p : Fin 256, xr j (Fin.castAdd 128 p) * Wr (Fin.castAdd 128 p))
      + (∑ p : Fin 128, xr j (Fin.natAdd 256 p) * Wr (Fin.natAdd 256 p)) = ∑ p : Fin 384, xr j p * Wr p :=
    fun j => (Fin.sum_univ_add (a := 256) (b := 128) (fun p => xr j p * Wr p)).symm
  simp only [key, Finset.mul_sum, Finset.sum_div, Finset.sum_mul]
  rw [Finset.sum_comm]
  exact Finset.sum_congr rfl fun p _ => Finset.sum_congr rfl fun j _ => by ring

/-! ## The two results are equal -/

theorem kerOut_eq_refOut (f : Fin 10000 → Fin 128 → EReal) (a d g : Fin 10000 → Fin 10000 → EReal) (W1 : Fin 128 → Fin 256 → EReal) (b1 : Fin 256 → EReal) (Wa : Fin 128 → Fin 128 → EReal) (ba : Fin 128 → EReal) (W2 : Fin 384 → Fin 128 → EReal) (b2 : Fin 128 → EReal)
    (hf : Fin2 f) (ha : Fin2 a) (hd : Fin2 d) (hg : Fin2 g) (hW1 : Fin2 W1) (hb1 : Fin1 b1) (hWa : Fin2 Wa) (hba : Fin1 ba) (hW2 : Fin2 W2) (hb2 : Fin1 b2)
    (hdeg : ∀ i, degRow (a i) ≠ 0) (hws : ∀ i, wsumRow (d i) (g i) ≠ 0) (i : Fin 10000) (l : Fin 128) :
    kerOut f a d g W1 b1 Wa ba W2 b2 i l = refOut f a d g W1 b1 Wa ba W2 b2 i l := by
  have rf : ∀ k q, IsR (f k q) := fun k q => isR_of_ne (hf k q)
  have ra : ∀ j k, IsR (a j k) := fun j k => isR_of_ne (ha j k)
  have rd : ∀ j k, IsR (d j k) := fun j k => isR_of_ne (hd j k)
  have rg : ∀ j k, IsR (g j k) := fun j k => isR_of_ne (hg j k)
  have rW1 : ∀ q p, IsR (W1 q p) := fun q p => isR_of_ne (hW1 q p)
  have rb1 : ∀ p, IsR (b1 p) := fun p => isR_of_ne (hb1 p)
  have rWa : ∀ q p, IsR (Wa q p) := fun q p => isR_of_ne (hWa q p)
  have rba : ∀ p, IsR (ba p) := fun p => isR_of_ne (hba p)
  have rW2 : ∀ p l, IsR (W2 p l) := fun p l => isR_of_ne (hW2 p l)
  have _rb2 : ∀ p, IsR (b2 p) := fun p => isR_of_ne (hb2 p)
  unfold kerOut refOut outRowK outRowR
  refine congrArg (· + b2 l) ?_
  rw [← last_layer (fun j => xRowR f W1 b1 Wa ba (a j) (d j) (g j)) (a i) (fun p => W2 p l) (degRow (a i))
    (fun j p => isR_xRowR rf rW1 rb1 rWa rba (ra j) (rd j) (rg j) (hdeg j) (hws j) p)
    (ra i) (fun p => rW2 p l) (isR_degRow (ra i)) (hdeg i)]
  refine congrArg (fun s => Ideal.div s (degRow (a i))) (Finset.sum_congr rfl fun j _ => congrArg (a i j * ·) ?_)
  exact yRow_eq W1 b1 Wa ba W2 (a j) rf (rd j) (rg j) (hws j) l

end Cert.Spec

end
-- ==== Proof.KI.Data.lean ====
/-
  Region 0 (the first pallas_call: row blocks of 128 rows over a grid of 79 points) and region 1 (the second:
  row blocks of 256 rows over 40 points) of the idealized kernel, as proof data of the pipeline library, at a
  PARAMETER `V`: the buffer contents a region finds at its entry.

  A row-block window's last block overhangs its array (10000 = 78 * 128 + 16 = 39 * 256 + 16), so the staged
  block at the last point holds the array's rows on its leading 16 rows and words nothing names below them. The
  proof data names a staged block as the array's rows filled out with the zero word; every statement the
  pipeline asks of such a buffer is about the rows inside the array only.
-/
import proofs.«150123_g86629490360606_cont_9to1_m_121_2_alg».proof.Proof.Gen.KernelIdeal.Launch
import proofs.«150123_g86629490360606_cont_9to1_m_121_2_alg».proof.Proof.Gen.KernelIdeal.Skeleton
import proofs.«150123_g86629490360606_cont_9to1_m_121_2_alg».proof.Proof.Gen.KernelIdeal.Points
import Idealize.ShloMosaic.Lib.Pipeline.FrameBody

set_option maxRecDepth 16384

noncomputable section

namespace Cert.KernelIdeal.H

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window)

variable {F : FTy → Type} [FloatOps F]

variable (V : (c : Dev nD) → (b : Ref sig .tc) → Buf (Elt F) ((c : Thread nD τ).loc b))

/-! ## Region 0 -/

/-- Window `w`'s block at point `t`, its part inside the array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The zero word every named staged block is filled out with past its array's end. -/
abbrev zw : Elt F .f32 := Scalar.ofBits .f32 0#32

/-- The staged block of the adjacency rows, of the distance rows and of the cosine rows at point `t`. -/
def adjB (c : Dev nD) (t : Fin cfg0.N) : Vec F S128x10000 .f32 := win0_0.fill (grid0.coords t) (fun _ => zw) (iblk0 V c 0 t)
def distB (c : Dev nD) (t : Fin cfg0.N) : Vec F S128x10000 .f32 := win0_1.fill (grid0.coords t) (fun _ => zw) (iblk0 V c 1 t)
def cosB (c : Dev nD) (t : Fin cfg0.N) : Vec F S128x10000 .f32 := win0_2.fill (grid0.coords t) (fun _ => zw) (iblk0 V c 2 t)
/-- The whole-array operands (one block, fetched once): features, W1, b1 as a row, Wa, ba as a row, the two slices of W2. -/
abbrev featB (c : Dev nD) (t : Fin cfg0.N) : Vec F S10000x128 .f32 := iblk0 V c 3 t
abbrev w1B (c : Dev nD) (t : Fin cfg0.N) : Vec F S128x256 .f32 := iblk0 V c 4 t
abbrev b1B (c : Dev nD) (t : Fin cfg0.N) : Vec F S1x256 .f32 := iblk0 V c 5 t
abbrev waB (c : Dev nD) (t : Fin cfg0.N) : Vec F S128x128 .f32 := iblk0 V c 6 t
abbrev baB (c : Dev nD) (t : Fin cfg0.N) : Vec F S1x128 .f32 := iblk0 V c 7 t
abbrev w2aB (c : Dev nD) (t : Fin cfg0.N) : Vec F S256x128 .f32 := iblk0 V c 8 t
abbrev w2bB (c : Dev nD) (t : Fin cfg0.N) : Vec F S128x128 .f32 := iblk0 V c 9 t

/-- What the body stores into the y block: its one store's payload, of the staged input blocks. -/
def yOut (adj dist cs : Vec F S128x10000 .f32) (feat : Vec F S10000x128 .f32) (w1 : Vec F S128x256 .f32) (b1 : Vec F S1x256 .f32)
    (wa : Vec F S128x128 .f32) (ba : Vec F S1x128 .f32) (w2a : Vec F S256x128 .f32) (w2b : Vec F S128x128 .f32) : Vec F S128x128 .f32 :=
  k0_pay1 (k0_pay3 feat adj w1 b1) (k0_pay4 feat dist cs wa) ba w2a w2b
/-- What it stores into the degree block. -/
def degOut (adj : Vec F S128x10000 .f32) : Vec F S128x1 .f32 := k0_pay2 adj

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => adjB V c t
    | ⟨1, _⟩ => distB V c t
    | ⟨2, _⟩ => cosB V c t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => yOut (adjB V c t) (distB V c t) (cosB V c t) (featB V c t) (w1B V c t) (b1B V c t) (waB V c t) (baB V c t) (w2aB V c t) (w2bB V c t)
    | ⟨11, _⟩ => degOut (adjB V c t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = adjB V c t := by dsimp only [dat0]
theorem after0_1 (c : Dev nD) (t : Fin cfg0.N) : (dat0 V c).after 1 t = distB V c t := by dsimp only [dat0]
theorem after0_2 (c : Dev nD) (t : Fin cfg0.N) : (dat0 V c).after 2 t = cosB V c t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t
    = yOut (adjB V c t) (distB V c t) (cosB V c t) (featB V c t) (w1B V c t) (b1B V c t) (waB V c t) (baB V c t) (w2aB V c t) (w2bB V c t) := by dsimp only [dat0]
theorem after0_11 (c : Dev nD) (t : Fin cfg0.N) : (dat0 V c).after 11 t = degOut (adjB V c t) := by dsimp only [dat0]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staged block of the adjacency rows and of the degree rows at point `t`. -/
def adjB1 (c : Dev nD) (t : Fin cfg1.N) : Vec F S256x10000 .f32 := win1_0.fill (grid1.coords t) (fun _ => zw) (iblk1 V c 0 t)
def degB1 (c : Dev nD) (t : Fin cfg1.N) : Vec F S256x1 .f32 := win1_2.fill (grid1.coords t) (fun _ => zw) (iblk1 V c 2 t)
abbrev yB1 (c : Dev nD) (t : Fin cfg1.N) : Vec F S10000x128 .f32 := iblk1 V c 1 t
abbrev b2B1 (c : Dev nD) (t : Fin cfg1.N) : Vec F S1x128 .f32 := iblk1 V c 3 t

/-- What the body stores into the result block. -/
def outOut (adj : Vec F S256x10000 .f32) (y : Vec F S10000x128 .f32) (deg : Vec F S256x1 .f32) (b2 : Vec F S1x128 .f32) : Vec F S256x128 .f32 :=
  k1_pay1 adj y deg b2

def dat1 (c : Dev nD) : Dat τ (Elt F) Unit ℕ (UR sig nD τ) ℕ cfg1 c where
  A w := V c (Pipeline.arrRef spec1 w)
  after w t := match w with
    | ⟨0, _⟩ => adjB1 V c t
    | ⟨1, _⟩ => iblk1 V c 1 t
    | ⟨2, _⟩ => degB1 V c t
    | ⟨3, _⟩ => iblk1 V c 3 t
    | ⟨4, _⟩ => outOut (adjB1 V c t) (yB1 V c t) (degB1 V c t) (b2B1 V c t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = adjB1 V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = degB1 V c t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outOut (adjB1 V c t) (yB1 V c t) (degB1 V c t) (b2B1 V c t) := by dsimp only [dat1]

end Cert.KernelIdeal.H

end
-- ==== Proof.KI.HostVals.lean ====
/-
  What the five host operations ahead of the first region leave in their result buffers, read at an index,
  over arbitrary buffer contents `W` before them.

  The first two are unit-stride slices of the [384, 128] weight: rows 0..255 and rows 256..383. A slice read at
  (p, l) is the operand at (offset + p, l). The other three are casts of a vector [n] to a one-row matrix [1, n]:
  the row-major position of (0, p) in [1, n] is p, so the cast read at (0, p) is the operand at p. Every buffer
  the five operations do not write keeps its contents.
-/
import proofs.«150123_g86629490360606_cont_9to1_m_121_2_alg».proof.Proof.Gen.KernelIdeal.Launch
import proofs.«150123_g86629490360606_cont_9to1_m_121_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.H

open Cert.KernelIdeal Cert.KernelIdeal.Gen
open Idealize.ShloMosaic Idealize.ShloMosaic.TcCoe
open Idealize.ShloMosaic.ValueIdx
open Idealize.ShloMosaic.StableHlo

variable {F : FTy → Type} [FloatOps F]

/-! ## The two slices of the [384, 128] weight -/

/-- Rows 0..255: the slice at (p, l) is the weight at (p, l). -/
theorem after_main_v0 (W : Valuation τ sig (Elt F)) (p : Fin 256) (l : Fin 128) :
    (StableHlo.after hostOps0 W (Proc.devRef .tc main_v0) : S256x128.Idx → Elt F .f32) (ix2 p l)
      = (W (Proc.devRef .tc main_arg8) : S384x128.Idx → Elt F .f32) (ix2 ⟨p.val, by have := p.isLt; omega⟩ l) := by
  have e : (StableHlo.after hostOps0 W (Proc.devRef .tc main_v0) : S256x128.Idx → Elt F .f32)
      = extractStridedSlice S256x128 ![0, 0] (W (Proc.devRef .tc main_arg8) : S384x128.Idx → Elt F .f32)
          slices_S384x128_S256x128_0_0 := by
    after_results
  rw [e]
  exact extractStridedSlice_apply _ _ _ _ _ (fun a => match a with
    | ⟨0, _⟩ => by show p.val = 0 + p.val; omega
    | ⟨1, _⟩ => by show l.val = 0 + l.val; omega)

/-- Rows 256..383: the slice at (p, l) is the weight at (256 + p, l). -/
theorem after_main_v1 (W : Valuation τ sig (Elt F)) (p : Fin 128) (l : Fin 128) :
    (StableHlo.after hostOps0 W (Proc.devRef .tc main_v1) : S128x128.Idx → Elt F .f32) (ix2 p l)
      = (W (Proc.devRef .tc main_arg8) : S384x128.Idx → Elt F .f32) (ix2 ⟨256 + p.val, by have := p.isLt; omega⟩ l) := by
  have e : (StableHlo.after hostOps0 W (Proc.devRef .tc main_v1) : S128x128.Idx → Elt F .f32)
      = extractStridedSlice S128x128 ![256, 0] (W (Proc.devRef .tc main_arg8) : S384x128.Idx → Elt F .f32)
          slices_S384x128_S128x128_256_0 := by
    after_results
  rw [e]
  exact extractStridedSlice_apply _ _ _ _ _ (fun a => match a with
    | ⟨0, _⟩ => by show 256 + p.val = 256 + p.val; rfl
    | ⟨1, _⟩ => by show l.val = 0 + l.val; omega)

/-! ## The three vectors cast to one-row matrices -/

/-- The [256] bias as a [1, 256] row: at (0, p) it is the bias at p. -/
theorem after_main_v2 (W : Valuation τ sig (Elt F)) (p : Fin 256) :
    (StableHlo.after hostOps0 W (Proc.devRef .tc main_v2) : S1x256.Idx → Elt F .f32) (ix2 (0 : Fin 1) p)
      = (W (Proc.devRef .tc main_arg5) : S256.Idx → Elt F .f32) (ix1 p) := by
  have e : (StableHlo.after hostOps0 W (Proc.devRef .tc main_v2) : S1x256.Idx → Elt F .f32)
      = shapeCast S1x256 (W (Proc.devRef .tc main_arg5) : S256.Idx → Elt F .f32) shapeCasts_S256_S1x256 := by
    after_results; rfl
  rw [e]
  exact shapeCast_a_1a_apply _ _ _ _

/-- The first [128] bias as a [1, 128] row. -/
theorem after_main_v3 (W : Valuation τ sig (Elt F)) (p : Fin 128) :
    (StableHlo.after hostOps0 W (Proc.devRef .tc main_v3) : S1x128.Idx → Elt F .f32) (ix2 (0 : Fin 1) p)
      = (W (Proc.devRef .tc main_arg7) : S128.Idx → Elt F .f32) (ix1 p) := by
  have e : (StableHlo.after hostOps0 W (Proc.devRef .tc main_v3) : S1x128.Idx → Elt F .f32)
      = shapeCast S1x128 (W (Proc.devRef .tc main_arg7) : S128.Idx → Elt F .f32) shapeCasts_S128_S1x128 := by
    after_results; rfl
  rw [e]
  exact shapeCast_a_1a_apply _ _ _ _

/-- The second [128] bias as a [1, 128] row. -/
theorem after_main_v4 (W : Valuation τ sig (Elt F)) (p : Fin 128) :
    (StableHlo.after hostOps0 W (Proc.devRef .tc main_v4) : S1x128.Idx → Elt F .f32) (ix2 (0 : Fin 1) p)
      = (W (Proc.devRef .tc main_arg9) : S128.Idx → Elt F .f32) (ix1 p) := by
  have e : (StableHlo.after hostOps0 W (Proc.devRef .tc main_v4) : S1x128.Idx → Elt F .f32)
      = shapeCast S1x128 (W (Proc.devRef .tc main_arg9) : S128.Idx → Elt F .f32) shapeCasts_S128_S1x128 := by
    after_results; rfl
  rw [e]
  exact shapeCast_a_1a_apply _ _ _ _

/-! ## Every other buffer -/

/-- A buffer that is none of the five results holds what it held before. -/
theorem after_of_arg (W : Valuation τ sig (Elt F)) (b : Ref sig .tc)
    (hb : b ∉ ([main_v0, main_v1, main_v2, main_v3, main_v4] : List (Ref sig .tc))) :
    StableHlo.after hostOps0 W (Proc.devRef .tc b) = W (Proc.devRef .tc b) :=
  StableHlo.after_of_writes_sub hostOps0 W hostOps0_writes hb

end Cert.KernelIdeal.H

end
-- ==== Proof.KI.Run.lean ====
/-
  The run of the idealized kernel's @main: five host operations (two slices of the last weight matrix, three
  reshapes of the bias vectors into rows), then the two pallas_calls back to back. The buffer contents at every
  boundary are folded from the launch memory: after the host operations (W1), after the first call (W2: its two
  result arrays at what the write-backs leave, every other buffer as entered), after the second call (W4: its
  result array at what the write-backs leave, every other buffer as entered). Given the two body obligations, every
  weakly fair execution terminates and every final memory holds W4 at each unscoped buffer; each argument array is
  read back through the fold to its launch contents.
-/
import proofs.«150123_g86629490360606_cont_9to1_m_121_2_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (hb0 : ∀ (V : (c : Dev nD) → (b : Ref sig .tc) → Buf (Elt F) ((c : Thread nD τ).loc b)) (c : Dev nD),
  Pipeline.BodyObligationLoose (dat0 V c) (defs₀ (F := F)) Variants.none () Set.univ)
variable (hb1 : ∀ (V : (c : Dev nD) → (b : Ref sig .tc) → Buf (Elt F) ((c : Thread nD τ).loc b)) (c : Dev nD),
  Pipeline.BodyObligationLoose (dat1 V c) (defs₀ (F := F)) Variants.none () Set.univ)

/-! ## The buffer contents at each boundary -/

/-- Core c's buffers at launch. -/
abbrev W0 : Dev nD → Valuation τ sig (Elt F) := fun c b => (s₀ m ρ).mem ((c : Dev nD), b)
/-- After the host operations: what the first call is entered from. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- After the first call: its arrays at what the pipeline leaves (an input as entered, a result with every
    write-back folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: what the second call is entered from (no host operation lies
    between the two calls). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second call: its arrays at what the pipeline leaves, every other buffer as entered. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ## Reading the fold back -/

/-- A buffer that is none of the five the host operations write holds after them what it held at launch. -/
theorem W1_of_ne (c : Dev nD) (b : Ref sig .tc) (h0 : b ≠ main_v0) (h1 : b ≠ main_v1) (h2 : b ≠ main_v2)
    (h3 : b ≠ main_v3) (h4 : b ≠ main_v4) : W1 m ρ c (Proc.devRef .tc b) = m ((c : Thread nD τ).loc b) :=
  (StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))).trans rfl

/-- An input window's array of the first call is after the call as it was entered. -/
theorem W2_in (c : Dev nD) (w : Fin cfg0.W) (hin : (cfg0.win w).isOut = false) :
    W2 m ρ c (Proc.devRef .tc (Pipeline.arrRef spec0 w)) = V1 m ρ c (Pipeline.arrRef spec0 w) :=
  (W2_arr m ρ c w).trans (((dat0 (V1 m ρ) c).arrAt_in w hin _).trans (A_eq0 (V1 m ρ) c w))
/-- An input window's array of the second call is after the call as it was entered. -/
theorem W4_in (c : Dev nD) (w : Fin cfg1.W) (hin : (cfg1.win w).isOut = false) :
    W4 m ρ c (Proc.devRef .tc (Pipeline.arrRef spec1 w)) = V2 m ρ c (Pipeline.arrRef spec1 w) :=
  (W4_arr m ρ c w).trans (((dat1 (V2 m ρ) c).arrAt_in w hin _).trans (A_eq1 (V2 m ρ) c w))

/-! ### The arguments end as launched: no host operation and no call writes one (a call reads it through an
    input window or does not touch it) -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W1 m ρ c (Proc.devRef .tc main_arg0) := W2_in m ρ c 3 rfl
    _ = m ((c : Thread nD τ).loc main_arg0) := W1_of_ne m ρ c main_arg0 (by decide) (by decide) (by decide) (by decide) (by decide)
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_in m ρ c 0 rfl
    _ = W1 m ρ c (Proc.devRef .tc main_arg1) := W2_in m ρ c 0 rfl
    _ = m ((c : Thread nD τ).loc main_arg1) := W1_of_ne m ρ c main_arg1 (by decide) (by decide) (by decide) (by decide) (by decide)
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W1 m ρ c (Proc.devRef .tc main_arg2) := W2_in m ρ c 1 rfl
    _ = m ((c : Thread nD τ).loc main_arg2) := W1_of_ne m ρ c main_arg2 (by decide) (by decide) (by decide) (by decide) (by decide)
theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W1 m ρ c (Proc.devRef .tc main_arg3) := W2_in m ρ c 2 rfl
    _ = m ((c : Thread nD τ).loc main_arg3) := W1_of_ne m ρ c main_arg3 (by decide) (by decide) (by decide) (by decide) (by decide)
theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := W4_of_ne m ρ c main_arg4 (by decide)
    _ = W1 m ρ c (Proc.devRef .tc main_arg4) := W2_in m ρ c 4 rfl
    _ = m ((c : Thread nD τ).loc main_arg4) := W1_of_ne m ρ c main_arg4 (by decide) (by decide) (by decide) (by decide) (by decide)
theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := W4_of_ne m ρ c main_arg5 (by decide)
    _ = W1 m ρ c (Proc.devRef .tc main_arg5) := W2_of_ne m ρ c main_arg5 (by decide)
    _ = m ((c : Thread nD τ).loc main_arg5) := W1_of_ne m ρ c main_arg5 (by decide) (by decide) (by decide) (by decide) (by decide)
theorem W4_main_arg6 (c : Dev nD) : W4 m ρ c (Proc.devRef .tc main_arg6) = m ((c : Thread nD τ).loc main_arg6) :=
  calc W4 m ρ c (Proc.devRef .tc main_arg6)
    _ = W2 m ρ c (Proc.devRef .tc main_arg6) := W4_of_ne m ρ c main_arg6 (by decide)
    _ = W1 m ρ c (Proc.devRef .tc main_arg6) := W2_in m ρ c 6 rfl
    _ = m ((c : Thread nD τ).loc main_arg6) := W1_of_ne m ρ c main_arg6 (by decide) (by decide) (by decide) (by decide) (by decide)
theorem W4_main_arg7 (c : Dev nD) : W4 m ρ c (Proc.devRef .tc main_arg7) = m ((c : Thread nD τ).loc main_arg7) :=
  calc W4 m ρ c (Proc.devRef .tc main_arg7)
    _ = W2 m ρ c (Proc.devRef .tc main_arg7) := W4_of_ne m ρ c main_arg7 (by decide)
    _ = W1 m ρ c (Proc.devRef .tc main_arg7) := W2_of_ne m ρ c main_arg7 (by decide)
    _ = m ((c : Thread nD τ).loc main_arg7) := W1_of_ne m ρ c main_arg7 (by decide) (by decide) (by decide) (by decide) (by decide)
theorem W4_main_arg8 (c : Dev nD) : W4 m ρ c (Proc.devRef .tc main_arg8) = m ((c : Thread nD τ).loc main_arg8) :=
  calc W4 m ρ c (Proc.devRef .tc main_arg8)
    _ = W2 m ρ c (Proc.devRef .tc main_arg8) := W4_of_ne m ρ c main_arg8 (by decide)
    _ = W1 m ρ c (Proc.devRef .tc main_arg8) := W2_of_ne m ρ c main_arg8 (by decide)
    _ = m ((c : Thread nD τ).loc main_arg8) := W1_of_ne m ρ c main_arg8 (by decide) (by decide) (by decide) (by decide) (by decide)
theorem W4_main_arg9 (c : Dev nD) : W4 m ρ c (Proc.devRef .tc main_arg9) = m ((c : Thread nD τ).loc main_arg9) :=
  calc W4 m ρ c (Proc.devRef .tc main_arg9)
    _ = W2 m ρ c (Proc.devRef .tc main_arg9) := W4_of_ne m ρ c main_arg9 (by decide)
    _ = W1 m ρ c (Proc.devRef .tc main_arg9) := W2_of_ne m ρ c main_arg9 (by decide)
    _ = m ((c : Thread nD τ).loc main_arg9) := W1_of_ne m ρ c main_arg9 (by decide) (by decide) (by decide) (by decide) (by decide)

/-! ### The result arrays, and what the second call finds -/

/-- The result array ends at what the second call's write-backs leave in it. -/
theorem W4_main_v6 (c : Dev nD) : W4 m ρ c (Proc.devRef .tc main_v6) = (dat1 (V2 m ρ) c).arrAt 4 cfg1.N :=
  W4_arr m ρ c 4
/-- The second call finds the first call's two results at what the first call's write-backs left. -/
theorem V2_main_v5_0 (c : Dev nD) : V2 m ρ c main_v5_0 = (dat0 (V1 m ρ) c).arrAt 10 cfg0.N := W2_arr m ρ c 10
theorem V2_main_v5_1 (c : Dev nD) : V2 m ρ c main_v5_1 = (dat0 (V1 m ρ) c).arrAt 11 cfg0.N := W2_arr m ρ c 11
/-- Every buffer but the first call's two results is after the first call as it was entered: an input window's
    array is never written, and a buffer no window names is not touched. -/
theorem V2_of_input (c : Dev nD) (b : Ref sig .tc) (hb : b ≠ main_v5_0) (hb' : b ≠ main_v5_1) : V2 m ρ c b = V1 m ρ c b := by
  by_cases h : ∃ w, Pipeline.arrRef spec0 w = b
  · obtain ⟨w, rfl⟩ := h
    have hin : ∀ w : Fin cfg0.W, Pipeline.arrRef spec0 w ≠ main_v5_0 → Pipeline.arrRef spec0 w ≠ main_v5_1 →
        (cfg0.win w).isOut = false := by decide
    exact W2_in m ρ c w (hin w hb hb')
  · exact W2_of_ne m ρ c b fun w e => h ⟨w, e⟩

/-! ## The proof data family and the thread state -/

/-- The prefetched tables' admissible contents: no pipeline has a table. -/
abbrev adm : (p : Fin 2) → (pcfgs (F := F) p).Adm := fun p => (cfgs p).toPCfg_adm
/-- Every pipeline's proof data, each at the contents its call is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A line of host operations as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The first call over the thread state: entered from every unscoped buffer at W1, left at W2. Its arrays are split
    out of the unscoped buffers and put back at the exit contents; the generator register goes into the pipeline's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := hb0 (V1 m ρ) c
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at W2 (what the first call leaves),
    left at W4, what the launch reads at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := hb1 (V2 m ρ) c
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host operations from the launch contents, then the two calls. -/
abbrev segs : List (Pipeline.Seg (pcfgs (F := F)) adm (pdats m ρ) () defs₀ 𝒱₀ L lv) :=
  [ .host (hseg hostOps0 hostOps0_sub hostOps0_fresh (W0 m ρ)),
    .region (reg0 m ρ hb0),
    .region (reg1 m ρ hb1) ]
/-- @main is the run of the segments. -/
theorem main_run (c : Dev nD) : main (F := F) c = Pipeline.Seg.run (segs m ρ hb0 hb1) := (main_chain c).trans (by chain_rfl)

include hb0 hb1 in
set_option backward.isDefEq.respectTransparency.types false in
/-- THE RUN: at the compiled mesh, from any memory with zero counters, every weakly fair execution of @main on the
    TensorCores terminates, nothing faulting, and every final memory holds, at each unscoped buffer of each core,
    the last boundary's contents W4. -/
theorem run : θ_run (defs (F := F)) (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- info: 'Cert.KernelIdeal.H.run' depends on axioms: [propext, Classical.choice, Quot.sound] -/
#guard_msgs in #print axioms run

end Cert.KernelIdeal.H

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KI.Pay0.lean ====
/-
  The first call's body, read at one entry over the extended reals.

  The body takes a block of 128 rows of the adjacency `a`, the distance `d` and the cosine `g`, and the whole of the
  features `f`, of W1, b1, Wa, ba and of the two slices of W2. For a row `r` of the block it forms the degree
  `deg r = ∑ₖ a r k + ε`, the edge weights `w r k = exp (0 - d r k) · (1 + g r k)` with their total
  `wsum r = ∑ₖ w r k + ε`, the two hidden rows `max (((∑ₖ a r k · f k ·) / deg r) W1 + b1) 0` and
  `max (((∑ₖ w r k · f k ·) / wsum r) Wa + ba) 0`, and their images under the two slices of W2, added. Each step below
  reads one operation of the body at one entry: a row sum is the sum over the row's entries, a matrix product into
  the zero accumulator is the sum over the contracted axis, a column or a row spread over a block reads its one
  entry, the pointwise operations are the extended reals' own. Composed, the degree entry is `Spec.degRow` of the
  adjacency row and the result entry is `Spec.yRow` of the three rows; in particular a row of either depends on the
  same row of `a`, `d`, `g` only.
-/
import proofs.«150123_g86629490360606_cont_9to1_m_121_2_alg».proof.Proof.KI.Data
import proofs.«150123_g86629490360606_cont_9to1_m_121_2_alg».proof.Proof.Spec
import proofs.«150123_g86629490360606_cont_9to1_m_121_2_alg».proof.Proof.LibMatmulAt
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.H

open Cert.KernelIdeal Cert.KernelIdeal.Gen
open Idealize.ShloMosaic Idealize.ShloMosaic.ValueIdx

/-! ## Layout steps: a vector as a column, a column spread over columns -/

section Layout
variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row sum -/

/-- The sum over axis 1 of a `[128, 10000]` block, read at row `r`: the sum of the row's entries. -/
theorem rowsum_apply (x : FVec Ideal S128x10000 .f32) (r : Fin 128) :
    multiReduction .add [1] S128 x 0x00000000#32 reduces_S128x10000_S128 (.inl rfl) rfl (ix1 r)
      = ∑ k : Fin 10000, x (ix2 r k) := by
  refine (Ideal.multiReduction_add_single x 0x00000000#32 reduces_S128x10000_S128 _ _ (ix1 r)).trans ?_
  refine Finset.sum_congr rfl fun k _ => ?_
  exact congrArg x (funext fun a => Fin.ext (by match a with | ⟨0, _⟩ => rfl | ⟨1, _⟩ => rfl))

/-- A row's sum plus ε as a column entry: the form both the degree and the total weight take in the body. -/
theorem rowsum_eps_apply (x : FVec Ideal S128x10000 .f32) (r : Fin 128) (u : Fin 1) :
    addf (shapeCast S128x1 (multiReduction .add [1] S128 x 0x00000000#32 reduces_S128x10000_S128 (.inl rfl) rfl) shapeCasts_S128_S128x1)
        (broadcast S128x1 (Scalar.ofBits (F := Ideal) .f32 0x358637BD#32)) (ix2 r u)
      = (∑ k : Fin 10000, x (ix2 r k)) + Cert.Spec.eps := by
  refine (addf_apply _ _ _).trans ?_
  refine congrArg (· + Cert.Spec.eps) ?_
  refine (shapeCast_a_a1_apply _ shapeCasts_S128_S128x1 r u).trans ?_
  exact rowsum_apply x r

/-! ## The degree -/

/-- The degree payload at row `r`: the adjacency row's sum plus ε. -/
theorem k0_pay2_apply (adj : Vec Ideal S128x10000 .f32) (r : Fin 128) (u : Fin 1) :
    k0_pay2 (F := Ideal) adj (ix2 r u) = Cert.Spec.degRow (fun k => adj (ix2 r k)) := by
  unfold k0_pay2 Cert.Spec.degRow
  exact rowsum_eps_apply adj r u

/-! ## The four matrix products

Each of the body's products contracts the left operand's second axis with the right operand's first and has no
batch axis. For each printed record of dimension numbers, where it reads its two operands: the left at
(row, k), the right at (k, column). Then the product into the zero accumulator at an entry is the sum over `k`. -/

section Dots

/-- The aggregation `[128, 10000] × [10000, 128]`: the left operand is read at the entry's row … -/
theorem agg_lhs_0 (i : S128x128.Idx) (q : dot_S128x10000_S10000x128_S128x128_1_0_0_1_n_n.contr.Idx) :
    (dot_S128x10000_S10000x128_S128x128_1_0_0_1_n_n.lhsIdx i q 0).val = (i 0).val := by
  unfold DotDims.lhsIdx
  rw [dif_neg (show ¬(0 : Fin S128x10000.rank) ∈ dot_S128x10000_S10000x128_S128x128_1_0_0_1_n_n.lhsBatch by decide), dif_pos (show (0 : Fin S128x10000.rank) ∈ dot_S128x10000_S10000x128_S128x128_1_0_0_1_n_n.lhsNonContracting by decide)]
  rfl
/-- … and the contracted coordinate, … -/
theorem agg_lhs_1 (i : S128x128.Idx) (q : dot_S128x10000_S10000x128_S128x128_1_0_0_1_n_n.contr.Idx) :
    (dot_S128x10000_S10000x128_S128x128_1_0_0_1_n_n.lhsIdx i q 1).val = (q ⟨0, by decide⟩).val :=
  dot_S128x10000_S10000x128_S128x128_1_0_0_1_n_n.lhsIdx_val_of_single rfl i q
/-- … the right operand at the contracted coordinate … -/
theorem agg_rhs_0 (i : S128x128.Idx) (q : dot_S128x10000_S10000x128_S128x128_1_0_0_1_n_n.contr.Idx) :
    (dot_S128x10000_S10000x128_S128x128_1_0_0_1_n_n.rhsIdx i q 0).val = (q ⟨0, by decide⟩).val :=
  dot_S128x10000_S10000x128_S128x128_1_0_0_1_n_n.rhsIdx_val_of_single rfl i q
/-- … and the entry's column. -/
theorem agg_rhs_1 (i : S128x128.Idx) (q : dot_S128x10000_S10000x128_S128x128_1_0_0_1_n_n.contr.Idx) :
    (dot_S128x10000_S10000x128_S128x128_1_0_0_1_n_n.rhsIdx i q 1).val = (i 1).val := by
  unfold DotDims.rhsIdx
  rw [dif_neg (show ¬(1 : Fin S10000x128.rank) ∈ dot_S128x10000_S10000x128_S128x128_1_0_0_1_n_n.rhsBatch by decide), dif_pos (show (1 : Fin S10000x128.rank) ∈ dot_S128x10000_S10000x128_S128x128_1_0_0_1_n_n.rhsNonContracting by decide)]
  rfl

/-- The aggregation at an entry: `∑ₖ l[p, k] · r[k, q]` over the 10000 graph rows. -/
theorem agg_apply (l : FVec Ideal S128x10000 .f32) (r : FVec Ideal S10000x128 .f32) (p : Fin 128) (q : Fin 128) :
    matmul dot_S128x10000_S10000x128_S128x128_1_0_0_1_n_n none l r (constant (F := Ideal) S128x128 .f32 0x00000000#32) (ix2 p q)
      = ∑ k : Fin 10000, l (ix2 p k) * r (ix2 k q) :=
  MatmulAt.matmul_zero_at dot_S128x10000_S10000x128_S128x128_1_0_0_1_n_n rfl rfl agg_lhs_0 agg_lhs_1 agg_rhs_0 agg_rhs_1 none l r p q

/-- The product with W1, `[128, 128] × [128, 256]`: the same four readings. -/
theorem w1_lhs_0 (i : S128x256.Idx) (q : dot_S128x128_S128x256_S128x256_1_0_0_1_n_n.contr.Idx) :
    (dot_S128x128_S128x256_S128x256_1_0_0_1_n_n.lhsIdx i q 0).val = (i 0).val := by
  unfold DotDims.lhsIdx
  rw [dif_neg (show ¬(0 : Fin S128x128.rank) ∈ dot_S128x128_S128x256_S128x256_1_0_0_1_n_n.lhsBatch by decide), dif_pos (show (0 : Fin S128x128.rank) ∈ dot_S128x128_S128x256_S128x256_1_0_0_1_n_n.lhsNonContracting by decide)]
  rfl
theorem w1_lhs_1 (i : S128x256.Idx) (q : dot_S128x128_S128x256_S128x256_1_0_0_1_n_n.contr.Idx) :
    (dot_S128x128_S128x256_S128x256_1_0_0_1_n_n.lhsIdx i q 1).val = (q ⟨0, by decide⟩).val :=
  dot_S128x128_S128x256_S128x256_1_0_0_1_n_n.lhsIdx_val_of_single rfl i q
theorem w1_rhs_0 (i : S128x256.Idx) (q : dot_S128x128_S128x256_S128x256_1_0_0_1_n_n.contr.Idx) :
    (dot_S128x128_S128x256_S128x256_1_0_0_1_n_n.rhsIdx i q 0).val = (q ⟨0, by decide⟩).val :=
  dot_S128x128_S128x256_S128x256_1_0_0_1_n_n.rhsIdx_val_of_single rfl i q
theorem w1_rhs_1 (i : S128x256.Idx) (q : dot_S128x128_S128x256_S128x256_1_0_0_1_n_n.contr.Idx) :
    (dot_S128x128_S128x256_S128x256_1_0_0_1_n_n.rhsIdx i q 1).val = (i 1).val := by
  unfold DotDims.rhsIdx
  rw [dif_neg (show ¬(1 : Fin S128x256.rank) ∈ dot_S128x128_S128x256_S128x256_1_0_0_1_n_n.rhsBatch by decide), dif_pos (show (1 : Fin S128x256.rank) ∈ dot_S128x128_S128x256_S128x256_1_0_0_1_n_n.rhsNonContracting by decide)]
  rfl

/-- The product with W1 at an entry. -/
theorem w1_apply (l : FVec Ideal S128x128 .f32) (r : FVec Ideal S128x256 .f32) (p : Fin 128) (q : Fin 256) :
    matmul dot_S128x128_S128x256_S128x256_1_0_0_1_n_n none l r (constant (F := Ideal) S128x256 .f32 0x00000000#32) (ix2 p q)
      = ∑ k : Fin 128, l (ix2 p k) * r (ix2 k q) :=
  MatmulAt.matmul_zero_at dot_S128x128_S128x256_S128x256_1_0_0_1_n_n rfl rfl w1_lhs_0 w1_lhs_1 w1_rhs_0 w1_rhs_1 none l r p q

/-- The square products `[128, 128] × [128, 128]` (with Wa, and with the second slice of W2): the same four readings. -/
theorem sq_lhs_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem sq_lhs_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem sq_rhs_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem sq_rhs_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- A square product at an entry. -/
theorem sq_apply (l : FVec Ideal S128x128 .f32) (r : FVec Ideal S128x128 .f32) (p : Fin 128) (q : Fin 128) :
    matmul dot_S128x128_S128x128_S128x128_1_0_0_1_n_n none l r (constant (F := Ideal) S128x128 .f32 0x00000000#32) (ix2 p q)
      = ∑ k : Fin 128, l (ix2 p k) * r (ix2 k q) :=
  MatmulAt.matmul_zero_at dot_S128x128_S128x128_S128x128_1_0_0_1_n_n rfl rfl sq_lhs_0 sq_lhs_1 sq_rhs_0 sq_rhs_1 none l r p q

/-- The product with the first slice of W2, `[128, 256] × [256, 128]`: the same four readings. -/
theorem w2a_lhs_0 (i : S128x128.Idx) (q : dot_S128x256_S256x128_S128x128_1_0_0_1_n_n.contr.Idx) :
    (dot_S128x256_S256x128_S128x128_1_0_0_1_n_n.lhsIdx i q 0).val = (i 0).val := by
  unfold DotDims.lhsIdx
  rw [dif_neg (show ¬(0 : Fin S128x256.rank) ∈ dot_S128x256_S256x128_S128x128_1_0_0_1_n_n.lhsBatch by decide), dif_pos (show (0 : Fin S128x256.rank) ∈ dot_S128x256_S256x128_S128x128_1_0_0_1_n_n.lhsNonContracting by decide)]
  rfl
theorem w2a_lhs_1 (i : S128x128.Idx) (q : dot_S128x256_S256x128_S128x128_1_0_0_1_n_n.contr.Idx) :
    (dot_S128x256_S256x128_S128x128_1_0_0_1_n_n.lhsIdx i q 1).val = (q ⟨0, by decide⟩).val :=
  dot_S128x256_S256x128_S128x128_1_0_0_1_n_n.lhsIdx_val_of_single rfl i q
theorem w2a_rhs_0 (i : S128x128.Idx) (q : dot_S128x256_S256x128_S128x128_1_0_0_1_n_n.contr.Idx) :
    (dot_S128x256_S256x128_S128x128_1_0_0_1_n_n.rhsIdx i q 0).val = (q ⟨0, by decide⟩).val :=
  dot_S128x256_S256x128_S128x128_1_0_0_1_n_n.rhsIdx_val_of_single rfl i q
theorem w2a_rhs_1 (i : S128x128.Idx) (q : dot_S128x256_S256x128_S128x128_1_0_0_1_n_n.contr.Idx) :
    (dot_S128x256_S256x128_S128x128_1_0_0_1_n_n.rhsIdx i q 1).val = (i 1).val := by
  unfold DotDims.rhsIdx
  rw [dif_neg (show ¬(1 : Fin S256x128.rank) ∈ dot_S128x256_S256x128_S128x128_1_0_0_1_n_n.rhsBatch by decide), dif_pos (show (1 : Fin S256x128.rank) ∈ dot_S128x256_S256x128_S128x128_1_0_0_1_n_n.rhsNonContracting by decide)]
  rfl

/-- The product with the first slice of W2 at an entry. -/
theorem w2a_apply (l : FVec Ideal S128x256 .f32) (r : FVec Ideal S256x128 .f32) (p : Fin 128) (q : Fin 128) :
    matmul dot_S128x256_S256x128_S128x128_1_0_0_1_n_n none l r (constant (F := Ideal) S128x128 .f32 0x00000000#32) (ix2 p q)
      = ∑ k : Fin 256, l (ix2 p k) * r (ix2 k q) :=
  MatmulAt.matmul_zero_at dot_S128x256_S256x128_S128x128_1_0_0_1_n_n rfl rfl w2a_lhs_0 w2a_lhs_1 w2a_rhs_0 w2a_rhs_1 none l r p q

end Dots

/-! ## Steps the two hidden rows share -/

/-- The row b1 spread over the block's rows (through a cast to its own shape): at `(r, p)` the row's entry `p`. -/
theorem biasRow256_apply (b1 : Vec Ideal S1x256 .f32) (r : Fin 128) (p : Fin 256) :
    broadcastTo S128x256 (shapeCast S1x256 b1 shapeCasts_S1x256_S1x256) broadcasts_S1x256_S128x256 (ix2 r p)
      = b1 (ix2 (0 : Fin 1) p) :=
  (broadcastTo_1b_ab_apply _ broadcasts_S1x256_S128x256 r p).trans (congrFun (shapeCast_self b1 _) _)

/-- The row ba spread over the block's rows likewise. -/
theorem biasRow128_apply (ba : Vec Ideal S1x128 .f32) (r : Fin 128) (p : Fin 128) :
    broadcastTo S128x128 (shapeCast S1x128 ba shapeCasts_S1x128_S1x128) broadcasts_S1x128_S128x128 (ix2 r p)
      = ba (ix2 (0 : Fin 1) p) :=
  (broadcastTo_1b_ab_apply _ broadcasts_S1x128_S128x128 r p).trans (congrFun (shapeCast_self ba _) _)

/-- An aggregate divided by a column of row totals spread over the columns: at `(r, q)` the aggregate's entry
    `∑ₖ x r k · f k q` over row `r`'s total. -/
theorem normAgg_apply (x : FVec Ideal S128x10000 .f32) (feat : FVec Ideal S10000x128 .f32) (tot : FVec Ideal S128x1 .f32)
    (r q : Fin 128) :
    divf (matmul dot_S128x10000_S10000x128_S128x128_1_0_0_1_n_n none x feat (constant (F := Ideal) S128x128 .f32 0x00000000#32))
        (broadcastTo S128x128 tot broadcasts_S128x1_S128x128) (ix2 r q)
      = Ideal.div (∑ k : Fin 10000, x (ix2 r k) * feat (ix2 k q)) (tot (ix2 r (0 : Fin 1))) :=
  (divf_apply _ _ _).trans (congrArg₂ Ideal.div (agg_apply x feat r q) (broadcastTo_a1_ab_apply tot broadcasts_S128x1_S128x128 r q))

/-! ## The convolution branch -/

/-- The first hidden block at `(r, p)`: the convolution branch of row `r`, clamped at 0. -/
theorem k0_pay3_apply (feat : Vec Ideal S10000x128 .f32) (adj : Vec Ideal S128x10000 .f32) (w1 : Vec Ideal S128x256 .f32)
    (b1 : Vec Ideal S1x256 .f32) (r : Fin 128) (p : Fin 256) :
    k0_pay3 (F := Ideal) feat adj w1 b1 (ix2 r p)
      = max (Cert.Spec.convRow (fun k q => feat (ix2 k q)) (fun q p => w1 (ix2 q p)) (fun p => b1 (ix2 (0 : Fin 1) p))
          (fun k => adj (ix2 r k)) p) Cert.Spec.zero32 := by
  unfold k0_pay3 Cert.Spec.convRow
  refine (maximumf_apply _ _ _).trans ?_
  refine congrArg (max · Cert.Spec.zero32) ?_
  refine (addf_apply _ _ _).trans ?_
  refine congrArg₂ (· + ·) ?_ (biasRow256_apply b1 r p)
  refine (w1_apply _ w1 r p).trans ?_
  refine Finset.sum_congr rfl fun q _ => ?_
  refine congrArg (· * w1 (ix2 q p)) ?_
  refine (normAgg_apply adj feat (k0_pay2 adj) r q).trans ?_
  exact congrArg (Ideal.div _) (k0_pay2_apply adj r 0)

/-! ## The angle branch -/

/-- The block of edge weights the body forms from the distance and cosine blocks: `exp (0 - d) · (1 + g)`, pointwise. -/
def wB (dist cs : Vec Ideal S128x10000 .f32) : FVec Ideal S128x10000 .f32 :=
  mulf (exp (subf (broadcast S128x10000 (Scalar.ofBits (F := Ideal) .f32 0x00000000#32)) dist))
    (addf (broadcast S128x10000 (Scalar.ofBits (F := Ideal) .f32 0x3F800000#32)) cs)

/-- An edge weight of the block is the row's weight `exp (-d) · (1 + g)`: the f32 word 0 is the real 0, and `0 - d = -d`. -/
theorem wB_apply (dist cs : Vec Ideal S128x10000 .f32) (r : Fin 128) (k : Fin 10000) :
    wB dist cs (ix2 r k) = Cert.Spec.wRow (fun k => dist (ix2 r k)) (fun k => cs (ix2 r k)) k := by
  unfold wB Cert.Spec.wRow
  show Ideal.exp (Ideal.ofBits .f32 0x00000000#32 - dist (ix2 r k)) * (Cert.Spec.one32 + cs (ix2 r k)) = _
  rw [Ideal.ofBits_zero_f32, zero_sub]

/-- The angle branch's product with Wa at `(r, q)`, before the bias: the weighted aggregate over the total weight,
    through Wa. -/
theorem k0_pay4_apply (feat : Vec Ideal S10000x128 .f32) (dist cs : Vec Ideal S128x10000 .f32) (wa : Vec Ideal S128x128 .f32)
    (r q : Fin 128) :
    k0_pay4 (F := Ideal) feat dist cs wa (ix2 r q)
      = ∑ q' : Fin 128, Ideal.div (∑ k : Fin 10000, Cert.Spec.wRow (fun k => dist (ix2 r k)) (fun k => cs (ix2 r k)) k * feat (ix2 k q'))
          (Cert.Spec.wsumRow (fun k => dist (ix2 r k)) (fun k => cs (ix2 r k))) * wa (ix2 q' q) := by
  unfold k0_pay4
  refine (sq_apply _ wa r q).trans ?_
  refine Finset.sum_congr rfl fun q' _ => ?_
  refine congrArg (· * wa (ix2 q' q)) ?_
  refine (normAgg_apply (wB dist cs) feat _ r q').trans ?_
  refine congrArg₂ Ideal.div ?_ ?_
  · exact Finset.sum_congr rfl fun k _ => congrArg (· * feat (ix2 k q')) (wB_apply dist cs r k)
  · refine (rowsum_eps_apply (wB dist cs) r 0).trans ?_
    unfold Cert.Spec.wsumRow
    exact congrArg (· + Cert.Spec.eps) (Finset.sum_congr rfl fun k _ => wB_apply dist cs r k)

/-! ## Through W2 -/

/-- The stored block at `(r, l)`, of the two hidden blocks: the first through the first slice of W2, plus the second —
    biased and clamped at 0 — through the second slice. -/
theorem k0_pay1_apply (x : FVec Ideal S128x256 .f32) (z : FVec Ideal S128x128 .f32) (ba : Vec Ideal S1x128 .f32)
    (w2a : Vec Ideal S256x128 .f32) (w2b : Vec Ideal S128x128 .f32) (r l : Fin 128) :
    k0_pay1 (F := Ideal) x z ba w2a w2b (ix2 r l)
      = (∑ p : Fin 256, x (ix2 r p) * w2a (ix2 p l))
        + (∑ p : Fin 128, max (z (ix2 r p) + ba (ix2 (0 : Fin 1) p)) Cert.Spec.zero32 * w2b (ix2 p l)) := by
  unfold k0_pay1
  refine (addf_apply _ _ _).trans ?_
  refine congrArg₂ (· + ·) ?_ ?_
  · refine (w2a_apply x _ r l).trans ?_
    refine Finset.sum_congr rfl fun p _ => ?_
    exact congrArg (x (ix2 r p) * ·) (congrFun (shapeCast_self w2a _) _)
  · refine (sq_apply _ _ r l).trans ?_
    refine Finset.sum_congr rfl fun p _ => ?_
    refine congrArg₂ (· * ·) ?_ (congrFun (shapeCast_self w2b _) _)
    refine (maximumf_apply _ _ _).trans ?_
    refine congrArg (max · Cert.Spec.zero32) ?_
    refine (addf_apply _ _ _).trans ?_
    exact congrArg (z (ix2 r p) + ·) (biasRow128_apply ba r p)

/-! ## The two stored blocks -/

/-- The degree block at row `r`: `Spec.degRow` of the adjacency row. -/
theorem degOut_apply (adj : Vec Ideal S128x10000 .f32) (r : Fin 128) :
    degOut (F := Ideal) adj (ix2 r (0 : Fin 1)) = Cert.Spec.degRow (fun k => adj (ix2 r k)) := by
  unfold degOut
  exact k0_pay2_apply adj r 0

/-- The y block at `(r, l)`: `Spec.yRow` of the adjacency, distance and cosine rows. -/
theorem yOut_apply (adj dist cs : Vec Ideal S128x10000 .f32) (feat : Vec Ideal S10000x128 .f32) (w1 : Vec Ideal S128x256 .f32)
    (b1 : Vec Ideal S1x256 .f32) (wa : Vec Ideal S128x128 .f32) (ba : Vec Ideal S1x128 .f32) (w2a : Vec Ideal S256x128 .f32)
    (w2b : Vec Ideal S128x128 .f32) (r : Fin 128) (l : Fin 128) :
    yOut (F := Ideal) adj dist cs feat w1 b1 wa ba w2a w2b (ix2 r l)
      = Cert.Spec.yRow (fun k q => feat (ix2 k q)) (fun q p => w1 (ix2 q p)) (fun p => b1 (ix2 (0 : Fin 1) p))
          (fun q p => wa (ix2 q p)) (fun p => ba (ix2 (0 : Fin 1) p)) (fun p l => w2a (ix2 p l)) (fun p l => w2b (ix2 p l))
          (fun k => adj (ix2 r k)) (fun k => dist (ix2 r k)) (fun k => cs (ix2 r k)) l := by
  unfold yOut Cert.Spec.yRow
  refine (k0_pay1_apply _ _ ba w2a w2b r l).trans ?_
  refine congrArg₂ (· + ·) ?_ ?_
  · exact Finset.sum_congr rfl fun p _ => congrArg (· * w2a (ix2 p l)) (k0_pay3_apply feat adj w1 b1 r p)
  · refine Finset.sum_congr rfl fun p _ => congrArg (fun t => max t Cert.Spec.zero32 * w2b (ix2 p l)) ?_
    unfold Cert.Spec.angleRowK
    exact congrArg (· + ba (ix2 (0 : Fin 1) p)) (k0_pay4_apply feat dist cs wa r p)

/-! ## Row locality -/

/-- A row of the degree block depends on the same row of the adjacency block only. -/
theorem degOut_row_congr (adj adj' : Vec Ideal S128x10000 .f32) (r : Fin 128)
    (h : ∀ k : Fin 10000, adj (ix2 r k) = adj' (ix2 r k)) :
    degOut (F := Ideal) adj (ix2 r (0 : Fin 1)) = degOut (F := Ideal) adj' (ix2 r (0 : Fin 1)) := by
  rw [degOut_apply, degOut_apply]
  exact congrArg Cert.Spec.degRow (funext h)

/-- A row of the y block depends on the same row of the adjacency, distance and cosine blocks only. -/
theorem yOut_row_congr (adj adj' dist dist' cs cs' : Vec Ideal S128x10000 .f32) (feat : Vec Ideal S10000x128 .f32)
    (w1 : Vec Ideal S128x256 .f32) (b1 : Vec Ideal S1x256 .f32) (wa : Vec Ideal S128x128 .f32) (ba : Vec Ideal S1x128 .f32)
    (w2a : Vec Ideal S256x128 .f32) (w2b : Vec Ideal S128x128 .f32) (r : Fin 128) (l : Fin 128)
    (h0 : ∀ k : Fin 10000, adj (ix2 r k) = adj' (ix2 r k)) (h1 : ∀ k : Fin 10000, dist (ix2 r k) = dist' (ix2 r k))
    (h2 : ∀ k : Fin 10000, cs (ix2 r k) = cs' (ix2 r k)) :
    yOut (F := Ideal) adj dist cs feat w1 b1 wa ba w2a w2b (ix2 r l)
      = yOut (F := Ideal) adj' dist' cs' feat w1 b1 wa ba w2a w2b (ix2 r l) := by
  rw [yOut_apply, yOut_apply, show (fun k => adj (ix2 r k)) = fun k => adj' (ix2 r k) from funext h0,
    show (fun k => dist (ix2 r k)) = fun k => dist' (ix2 r k) from funext h1,
    show (fun k => cs (ix2 r k)) = fun k => cs' (ix2 r k) from funext h2]

end Cert.KernelIdeal.H

end
-- ==== Proof.KI.Body0.lean ====
/-
  The body obligation of the first pallas_call: at every grid point, from the twelve staging buffers as the
  pipeline hands them over, the kernel body runs to the twelve buffers as the proof data describes them.

  The three row-block inputs (adjacency, distance, cosine) arrive holding the array's rows of the block on
  the rows inside the array and anything below them (the last block has 16 rows inside); the seven whole-array
  operands arrive holding their arrays; the two outputs arrive holding anything. The body loads every input
  whole, stores its two payloads whole, and leaves the inputs as found. Each output is stated on the rows
  inside the array only, and row r of either payload depends on row r of the three row-block inputs alone:
  there the block the body found and the block the proof data names (the rows below the array's end set to
  zero) agree, so the two payloads agree on every row the statement reads.
-/
import proofs.«150123_g86629490360606_cont_9to1_m_121_2_alg».proof.Proof.KI.Data
import proofs.«150123_g86629490360606_cont_9to1_m_121_2_alg».proof.Proof.KI.Pay0
import Idealize.ShloMosaic.Lib.Pipeline.FrameBody
import Idealize.ShloMosaic.Lib.Pipeline.Value
import Idealize.ShloMosaic.Lib.Pipeline.Kit
import Idealize.ShloMosaic.Lib.ValueIdx
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Idealize.ShloMosaic.ValueIdx

namespace Body0

section Generic

variable {F : FTy → Type} [FloatOps F]

local notation "𝕄" => MT nD τ sig Unit (Elt F) ℕ (UR sig nD τ) ℕ

/-! ## Whole-buffer accesses -/

/-- The zero offsets, as the body's accesses write them. -/
theorem hz2 : (![0, 0] : Fin 2 → Nat) = fun _ => 0 := funext fun a => by fin_cases a <;> rfl

/-- A load of the whole shape at zero offsets reads what the view reads. -/
theorem readAt_whole_zero {sg : RefSig} {κ : Kind} {sp : Space} {S : Shape} {e : EltTy} {Val : EltTy → Type}
    (v : View sg κ sp S e) {off : Fin S.rank → Nat} (h : off = fun _ => 0) (inb : ∀ a, off a + S.size a ≤ S.size a)
    (f : v.ty.Contents Val) : v.readAt Val (Rect.unit off S.size inb).toLoadRect f = v.read Val f := by
  subst h; funext x; show v.read Val f ((Rect.whole S).emb x) = v.read Val f x; rw [Rect.emb_whole_apply]

/-- One store of the whole shape at zero offsets leaves its payload, whatever was there. -/
theorem read_store_whole_zero {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb]

/-! ## The body on whole staging memrefs -/

set_option maxHeartbeats 2000000 in
/-- The body on whole memrefs: the ten inputs' at read contents and the two outputs' at anything. It runs to the
    inputs' as they were, the y memref at the y payload of the ten contents and the degree memref at the degree
    payload of the adjacency contents: every access is the whole buffer at offset zero, so a load reads the contents
    and the one store into each output leaves its payload. -/
theorem sound_kernel0 (c : Dev nD) (E : Set ℕ) (i : grid0.Coords)
    (arg1 : Memref sig .tc .vmem S128x10000 .f32) (harg1 : arg1.IsWhole) (arg2 : Memref sig .tc .vmem S128x10000 .f32) (harg2 : arg2.IsWhole)
    (arg3 : Memref sig .tc .vmem S128x10000 .f32) (harg3 : arg3.IsWhole) (arg4 : Memref sig .tc .vmem S10000x128 .f32) (harg4 : arg4.IsWhole)
    (arg5 : Memref sig .tc .vmem S128x256 .f32) (harg5 : arg5.IsWhole) (arg6 : Memref sig .tc .vmem S1x256 .f32) (harg6 : arg6.IsWhole)
    (arg7 : Memref sig .tc .vmem S128x128 .f32) (harg7 : arg7.IsWhole) (arg8 : Memref sig .tc .vmem S1x128 .f32) (harg8 : arg8.IsWhole)
    (arg9 : Memref sig .tc .vmem S256x128 .f32) (harg9 : arg9.IsWhole) (arg10 : Memref sig .tc .vmem S128x128 .f32) (harg10 : arg10.IsWhole)
    (arg11 : Memref sig .tc .vmem S128x128 .f32) (harg11 : arg11.IsWhole) (arg12 : Memref sig .tc .vmem S128x1 .f32) (harg12 : arg12.IsWhole)
    (x1 x2 x3 : Vec F S128x10000 .f32) (x4 : Vec F S10000x128 .f32) (x5 : Vec F S128x256 .f32) (x6 : Vec F S1x256 .f32)
    (x7 : Vec F S128x128 .f32) (x8 : Vec F S1x128 .f32) (x9 : Vec F S256x128 .f32) (x10 : Vec F S128x128 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg10 fullShare x10
        ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8 ∗ owns (c : Thread nD τ) arg9 fullShare x9
            ∗ owns (c : Thread nD τ) arg10 fullShare x10
            ∗ owns (c : Thread nD τ) arg11 fullShare (yOut x1 x2 x3 x4 x5 x6 x7 x8 x9 x10)
            ∗ owns (c : Thread nD τ) arg12 fullShare (degOut x1)) -∗ K ⟨⟩))
      ⊢ wp frame (wpE (defs₀ (F := F)) Variants.none c none) E
          (cc0__phase1 i arg1 harg1 arg2 harg2 arg3 harg3 arg4 harg4 arg5 harg5 arg6 harg6 arg7 harg7 arg8 harg8 arg9 harg9 arg10 harg10 arg11 harg11 arg12 harg12) K := by
  simp only [cc0__phase1_eq_skeleton]; unfold cc0__phase1_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf1 hf2 hf3 hf4 hf5 hf6 hf7 hf8 hf9 hf10
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (read_store_whole_zero arg11.view f11 hz2 _ _).trans ?_
    simp only [readAt_whole_zero (S := S10000x128) _ hz2, readAt_whole_zero (S := S128x10000) _ hz2,
      readAt_whole_zero (S := S128x256) _ hz2, readAt_whole_zero (S := S1x256) _ hz2, readAt_whole_zero (S := S128x128) _ hz2,
      readAt_whole_zero (S := S1x128) _ hz2, readAt_whole_zero (S := S256x128) _ hz2, yOut]
    first | rfl | done
  · iexists _; isplitr
    swap; · iexact H12
    ipureintro
    refine (read_store_whole_zero arg12.view f12 hz2 _ _).trans ?_
    simp only [readAt_whole_zero (S := S128x10000) _ hz2, degOut]
    first | rfl | done

end Generic

/-! ## What the body finds in each staging buffer -/

section Before

variable {F : FTy → Type} [FloatOps F]
variable (V : (c : Dev nD) → (b : Ref sig .tc) → Buf (Elt F) ((c : Thread nD τ).loc b))

/-- A row-block input is fetched at every point: its buffer holds the block's rows inside the array, and below
    them whatever the buffer held. -/
theorem before0_0 (c : Dev nD) (t : Fin cfg0.N) (d) :
    (dat0 V c).before 0 t d = win0_0.fill (grid0.coords t) d (iblk0 V c 0 t) := by
  unfold Dat.before; rw [if_pos (fetch0_0 t)]; unfold Dat.fetched Dat.blockOf iblk0; rw [A_eq0]; try rfl
theorem before0_1 (c : Dev nD) (t : Fin cfg0.N) (d) :
    (dat0 V c).before 1 t d = win0_1.fill (grid0.coords t) d (iblk0 V c 1 t) := by
  unfold Dat.before; rw [if_pos (fetch0_1 t)]; unfold Dat.fetched Dat.blockOf iblk0; rw [A_eq0]; try rfl
theorem before0_2 (c : Dev nD) (t : Fin cfg0.N) (d) :
    (dat0 V c).before 2 t d = win0_2.fill (grid0.coords t) d (iblk0 V c 2 t) := by
  unfold Dat.before; rw [if_pos (fetch0_2 t)]; unfold Dat.fetched Dat.blockOf iblk0; rw [A_eq0]; try rfl

/-- A whole-array operand is fetched at the first point and left in place by the body: its one buffer holds the
    array at every point. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)

/-- An output is written back at every point: its buffer is fresh at each, holding anything. -/
theorem before0_10 (c : Dev nD) (t : Fin cfg0.N) (d) : (dat0 V c).before 10 t d = d :=
  (dat0 V c).before_out_reset 10 rfl t (by
    by_cases h : t.val = 0
    · exact .inl h
    · exact .inr ⟨h, flush0_10 _⟩) d
theorem before0_11 (c : Dev nD) (t : Fin cfg0.N) (d) : (dat0 V c).before 11 t d = d :=
  (dat0 V c).before_out_reset 11 rfl t (by
    by_cases h : t.val = 0
    · exact .inl h
    · exact .inr ⟨h, flush0_11 _⟩) d

end Before

/-! ## Rows inside the array: where two stagings of one block agree -/

section Rows

/-- A block as wide as its array is never cut along the columns. -/
theorem clipOf_whole_cols : Pipeline.Clip.of 0 10000 10000 = none := by
  unfold Pipeline.Clip.of; rw [if_pos (by decide)]

/-- The adjacency window: its cut on an axis is the one of its block index there; its blocks span all 10000 columns; so on a row inside the array a staged block holds the array's row, whatever fills the block below the array's end. -/
theorem clip0_0_eq (i : grid0.Coords) (a : Fin 2) :
    win0_0.clip i a = Pipeline.Clip.of (cc0_transform_0 i a) (S128x10000.size a) (S10000x10000.size a) := rfl
theorem xsize0_0_col (i : grid0.Coords) (h : 1 < 2) : win0_0.xsize i ⟨1, h⟩ = 10000 := by
  show (win0_0.clip i ⟨1, h⟩).extent (S128x10000.size ⟨1, h⟩) = 10000
  rw [clip0_0_eq, show cc0_transform_0 i ⟨1, h⟩ = 0 from rfl, show S128x10000.size ⟨1, h⟩ = 10000 from rfl,
    show S10000x10000.size ⟨1, h⟩ = 10000 from rfl, clipOf_whole_cols]
theorem fill0_0_row {α : Type} (i : grid0.Coords) (d d' : S128x10000.Idx → α) (g : (win0_0.xblock i).Idx → α)
    (r : Fin 128) (hr : r.val < win0_0.xsize i 0) (k : Fin 10000) :
    win0_0.fill i d g (ix2 r k) = win0_0.fill i d' g (ix2 r k) := by
  have hm : win0_0.moved i (ix2 r k) = true := (win0_0.moved_iff i _).mpr fun (a : Fin 2) => by
    match a with
    | ⟨0, _⟩ => exact hr
    | ⟨1, h⟩ => exact lt_of_lt_of_eq k.isLt (xsize0_0_col i h).symm
  unfold Window.fill; rw [dif_pos hm, dif_pos hm]

/-- The distance window likewise. -/
theorem clip0_1_eq (i : grid0.Coords) (a : Fin 2) :
    win0_1.clip i a = Pipeline.Clip.of (cc0_transform_1 i a) (S128x10000.size a) (S10000x10000.size a) := rfl
theorem xsize0_1_col (i : grid0.Coords) (h : 1 < 2) : win0_1.xsize i ⟨1, h⟩ = 10000 := by
  show (win0_1.clip i ⟨1, h⟩).extent (S128x10000.size ⟨1, h⟩) = 10000
  rw [clip0_1_eq, show cc0_transform_1 i ⟨1, h⟩ = 0 from rfl, show S128x10000.size ⟨1, h⟩ = 10000 from rfl,
    show S10000x10000.size ⟨1, h⟩ = 10000 from rfl, clipOf_whole_cols]
theorem fill0_1_row {α : Type} (i : grid0.Coords) (d d' : S128x10000.Idx → α) (g : (win0_1.xblock i).Idx → α)
    (r : Fin 128) (hr : r.val < win0_1.xsize i 0) (k : Fin 10000) :
    win0_1.fill i d g (ix2 r k) = win0_1.fill i d' g (ix2 r k) := by
  have hm : win0_1.moved i (ix2 r k) = true := (win0_1.moved_iff i _).mpr fun (a : Fin 2) => by
    match a with
    | ⟨0, _⟩ => exact hr
    | ⟨1, h⟩ => exact lt_of_lt_of_eq k.isLt (xsize0_1_col i h).symm
  unfold Window.fill; rw [dif_pos hm, dif_pos hm]

/-- The cosine window likewise. -/
theorem clip0_2_eq (i : grid0.Coords) (a : Fin 2) :
    win0_2.clip i a = Pipeline.Clip.of (cc0_transform_2 i a) (S128x10000.size a) (S10000x10000.size a) := rfl
theorem xsize0_2_col (i : grid0.Coords) (h : 1 < 2) : win0_2.xsize i ⟨1, h⟩ = 10000 := by
  show (win0_2.clip i ⟨1, h⟩).extent (S128x10000.size ⟨1, h⟩) = 10000
  rw [clip0_2_eq, show cc0_transform_2 i ⟨1, h⟩ = 0 from rfl, show S128x10000.size ⟨1, h⟩ = 10000 from rfl,
    show S10000x10000.size ⟨1, h⟩ = 10000 from rfl, clipOf_whole_cols]
theorem fill0_2_row {α : Type} (i : grid0.Coords) (d d' : S128x10000.Idx → α) (g : (win0_2.xblock i).Idx → α)
    (r : Fin 128) (hr : r.val < win0_2.xsize i 0) (k : Fin 10000) :
    win0_2.fill i d g (ix2 r k) = win0_2.fill i d' g (ix2 r k) := by
  have hm : win0_2.moved i (ix2 r k) = true := (win0_2.moved_iff i _).mpr fun (a : Fin 2) => by
    match a with
    | ⟨0, _⟩ => exact hr
    | ⟨1, h⟩ => exact lt_of_lt_of_eq k.isLt (xsize0_2_col i h).symm
  unfold Window.fill; rw [dif_pos hm, dif_pos hm]

/-- The five row-block windows cut their blocks at the same row: one index map, one block height, arrays of one
    height. -/
theorem xsize0_1_row (i : grid0.Coords) : win0_0.xsize i 0 = win0_1.xsize i 0 := rfl
theorem xsize0_2_row (i : grid0.Coords) : win0_0.xsize i 0 = win0_2.xsize i 0 := rfl
theorem xsize0_10_row (i : grid0.Coords) : win0_10.xsize i 0 = win0_0.xsize i 0 := rfl
theorem xsize0_11_row (i : grid0.Coords) : win0_11.xsize i 0 = win0_0.xsize i 0 := rfl

/-- The y payload on the rows inside the array does not see what fills the three row blocks below the array's
    end: row r of the payload reads row r of each block. -/
theorem cut_yOut_congr (i : grid0.Coords) (d0 d0' d1 d1' d2 d2' : Vec Ideal S128x10000 .f32)
    (g0 : (win0_0.xblock i).Idx → Elt Ideal .f32) (g1 : (win0_1.xblock i).Idx → Elt Ideal .f32) (g2 : (win0_2.xblock i).Idx → Elt Ideal .f32)
    (feat : Vec Ideal S10000x128 .f32) (w1 : Vec Ideal S128x256 .f32) (b1 : Vec Ideal S1x256 .f32) (wa : Vec Ideal S128x128 .f32)
    (ba : Vec Ideal S1x128 .f32) (w2a : Vec Ideal S256x128 .f32) (w2b : Vec Ideal S128x128 .f32) :
    win0_10.cut i (yOut (F := Ideal) (win0_0.fill i d0 g0) (win0_1.fill i d1 g1) (win0_2.fill i d2 g2) feat w1 b1 wa ba w2a w2b)
      = win0_10.cut i (yOut (F := Ideal) (win0_0.fill i d0' g0) (win0_1.fill i d1' g1) (win0_2.fill i d2' g2) feat w1 b1 wa ba w2a w2b) := by
  funext j
  have hr128 : (j 0).val < 128 := Nat.lt_of_lt_of_le (j 0).isLt (win0_10.xsize_le i 0)
  have hl128 : (j 1).val < 128 := Nat.lt_of_lt_of_le (j 1).isLt (win0_10.xsize_le i 1)
  have hr0 : (j 0).val < win0_0.xsize i 0 := lt_of_lt_of_eq (j 0).isLt (xsize0_10_row i)
  have hr1 : (j 0).val < win0_1.xsize i 0 := lt_of_lt_of_eq hr0 (xsize0_1_row i)
  have hr2 : (j 0).val < win0_2.xsize i 0 := lt_of_lt_of_eq hr0 (xsize0_2_row i)
  have e : win0_10.xinj i j = ix2 (⟨(j 0).val, hr128⟩ : Fin 128) (⟨(j 1).val, hl128⟩ : Fin 128) := by
    funext (a : Fin 2); match a with | ⟨0, _⟩ => rfl | ⟨1, _⟩ => rfl
  have key : ∀ p : S128x128.Idx, p = ix2 (⟨(j 0).val, hr128⟩ : Fin 128) (⟨(j 1).val, hl128⟩ : Fin 128) →
      yOut (F := Ideal) (win0_0.fill i d0 g0) (win0_1.fill i d1 g1) (win0_2.fill i d2 g2) feat w1 b1 wa ba w2a w2b p
        = yOut (F := Ideal) (win0_0.fill i d0' g0) (win0_1.fill i d1' g1) (win0_2.fill i d2' g2) feat w1 b1 wa ba w2a w2b p := by
    intro p hp; subst hp
    exact yOut_row_congr (win0_0.fill i d0 g0) (win0_0.fill i d0' g0) (win0_1.fill i d1 g1) (win0_1.fill i d1' g1)
      (win0_2.fill i d2 g2) (win0_2.fill i d2' g2) feat w1 b1 wa ba w2a w2b ⟨(j 0).val, hr128⟩ ⟨(j 1).val, hl128⟩
      (fun k => fill0_0_row i d0 d0' g0 ⟨(j 0).val, hr128⟩ hr0 k)
      (fun k => fill0_1_row i d1 d1' g1 ⟨(j 0).val, hr128⟩ hr1 k)
      (fun k => fill0_2_row i d2 d2' g2 ⟨(j 0).val, hr128⟩ hr2 k)
  exact key _ e

/-- The degree payload likewise: row r of it is the sum of row r of the adjacency block. -/
theorem cut_degOut_congr (i : grid0.Coords) (d0 d0' : Vec Ideal S128x10000 .f32) (g0 : (win0_0.xblock i).Idx → Elt Ideal .f32) :
    win0_11.cut i (degOut (F := Ideal) (win0_0.fill i d0 g0)) = win0_11.cut i (degOut (F := Ideal) (win0_0.fill i d0' g0)) := by
  funext j
  have hr128 : (j 0).val < 128 := Nat.lt_of_lt_of_le (j 0).isLt (win0_11.xsize_le i 0)
  have hl1 : (j 1).val < 1 := Nat.lt_of_lt_of_le (j 1).isLt (win0_11.xsize_le i 1)
  have hr0 : (j 0).val < win0_0.xsize i 0 := lt_of_lt_of_eq (j 0).isLt (xsize0_11_row i)
  have e : win0_11.xinj i j = ix2 (⟨(j 0).val, hr128⟩ : Fin 128) (0 : Fin 1) := by
    funext (a : Fin 2)
    match a with
    | ⟨0, _⟩ => rfl
    | ⟨1, _⟩ => exact Fin.ext (Nat.lt_one_iff.mp hl1)
  have key : ∀ p : S128x1.Idx, p = ix2 (⟨(j 0).val, hr128⟩ : Fin 128) (0 : Fin 1) →
      degOut (F := Ideal) (win0_0.fill i d0 g0) p = degOut (F := Ideal) (win0_0.fill i d0' g0) p := by
    intro p hp; subst hp
    exact degOut_row_congr (win0_0.fill i d0 g0) (win0_0.fill i d0' g0) ⟨(j 0).val, hr128⟩
      (fun k => fill0_0_row i d0 d0' g0 ⟨(j 0).val, hr128⟩ hr0 k)
  exact key _ e

end Rows

/-! ## The body obligation -/

section Obligation

variable (V : (c : Dev nD) → (b : Ref sig .tc) → Buf (Elt Ideal) ((c : Thread nD τ).loc b))

local notation "𝕄" => MT nD τ sig Unit (Elt Ideal) ℕ (UR sig nD τ) ℕ

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns: a row-block window's buffer stated on the rows inside the array, a whole-array operand's
    buffer at its array. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ d, owns (c : Thread nD τ) (st0_1 t) fullShare (win0_1.fill (grid0.coords t) d (win0_1.cut (grid0.coords t) ((dat0 V c).after 1 t))))
    ∗ (∃ d, owns (c : Thread nD τ) (st0_2 t) fullShare (win0_2.fill (grid0.coords t) d (win0_2.cut (grid0.coords t) ((dat0 V c).after 2 t))))
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ (∃ d, owns (c : Thread nD τ) (st0_10 t) fullShare (win0_10.fill (grid0.coords t) d (win0_10.cut (grid0.coords t) ((dat0 V c).after 10 t))))
    ∗ (∃ d, owns (c : Thread nD τ) (st0_11 t) fullShare (win0_11.fill (grid0.coords t) d (win0_11.cut (grid0.coords t) ((dat0 V c).after 11 t)))))

/-- The rows inside the array of what the proof data names for a row-block input are the array's rows. -/
theorem cut_after0_0 (c : Dev nD) (t : Fin cfg0.N) : win0_0.cut (grid0.coords t) ((dat0 V c).after 0 t) = iblk0 V c 0 t := by
  rw [after0_0]; exact win0_0.cut_fill _ _ _
theorem cut_after0_1 (c : Dev nD) (t : Fin cfg0.N) : win0_1.cut (grid0.coords t) ((dat0 V c).after 1 t) = iblk0 V c 1 t := by
  rw [after0_1]; exact win0_1.cut_fill _ _ _
theorem cut_after0_2 (c : Dev nD) (t : Fin cfg0.N) : win0_2.cut (grid0.coords t) ((dat0 V c).after 2 t) = iblk0 V c 2 t := by
  rw [after0_2]; exact win0_2.cut_fill _ _ _

/-- The y payload of the blocks as found, with the proof data's y block laid over its rows inside the array, is
    itself: on those rows the two agree. -/
theorem fill_after0_10 (c : Dev nD) (t : Fin cfg0.N) (d0 d1 d2 : Vec Ideal S128x10000 .f32) :
    win0_10.fill (grid0.coords t)
        (yOut (F := Ideal) (win0_0.fill (grid0.coords t) d0 (iblk0 V c 0 t)) (win0_1.fill (grid0.coords t) d1 (iblk0 V c 1 t))
          (win0_2.fill (grid0.coords t) d2 (iblk0 V c 2 t)) (featB V c t) (w1B V c t) (b1B V c t) (waB V c t) (baB V c t) (w2aB V c t) (w2bB V c t))
        (win0_10.cut (grid0.coords t) ((dat0 V c).after 10 t))
      = yOut (F := Ideal) (win0_0.fill (grid0.coords t) d0 (iblk0 V c 0 t)) (win0_1.fill (grid0.coords t) d1 (iblk0 V c 1 t))
          (win0_2.fill (grid0.coords t) d2 (iblk0 V c 2 t)) (featB V c t) (w1B V c t) (b1B V c t) (waB V c t) (baB V c t) (w2aB V c t) (w2bB V c t) := by
  rw [after0_10]
  exact win0_10.fill_congr_cut (grid0.coords t)
    (cut_yOut_congr (grid0.coords t) d0 (fun _ => zw) d1 (fun _ => zw) d2 (fun _ => zw) (iblk0 V c 0 t) (iblk0 V c 1 t) (iblk0 V c 2 t)
      (featB V c t) (w1B V c t) (b1B V c t) (waB V c t) (baB V c t) (w2aB V c t) (w2bB V c t))

/-- The degree payload likewise. -/
theorem fill_after0_11 (c : Dev nD) (t : Fin cfg0.N) (d0 : Vec Ideal S128x10000 .f32) :
    win0_11.fill (grid0.coords t) (degOut (F := Ideal) (win0_0.fill (grid0.coords t) d0 (iblk0 V c 0 t)))
        (win0_11.cut (grid0.coords t) ((dat0 V c).after 11 t))
      = degOut (F := Ideal) (win0_0.fill (grid0.coords t) d0 (iblk0 V c 0 t)) := by
  rw [after0_11]
  exact win0_11.fill_congr_cut (grid0.coords t) (cut_degOut_congr (grid0.coords t) d0 (fun _ => zw) (iblk0 V c 0 t))

set_option maxHeartbeats 1000000 in
/-- The body at any point: every input's memref holds what the pipeline staged there, so the body's triple applies;
    the invariant and the core's dues pass through unread. -/
theorem sound_body0 (c : Dev nD) (t : Fin cfg0.N) :
    bodyPre0 V c t ⊢ wp frame (wpE (defs₀ (F := Ideal)) Variants.none c none) Set.univ (bodyAt0 t) (fun _ => bodyPost0 V c t) := by
  unfold bodyPre0 bodyPost0 bodyAt0
  simp only [before0_0, before0_1, before0_2, before0_3, before0_4, before0_5, before0_6, before0_7, before0_8, before0_9,
    before0_10, before0_11]
  rw [show (dat0 V c).Φ t.succ = (dat0 V c).Φ t.castSucc from rfl,
    show (dat0 V c).owesAt () t.succ = (dat0 V c).owesAt () t.castSucc from rfl,
    cut_after0_0, cut_after0_1, cut_after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 (F := Ideal) c Set.univ (grid0.coords t) _ _ _ _ _ _ _ _ _ _ _ _ _ _ _ _ _ _ _ _ _ _ _ _
    (win0_0.fill (grid0.coords t) d0 (iblk0 V c 0 t)) (win0_1.fill (grid0.coords t) d1 (iblk0 V c 1 t))
    (win0_2.fill (grid0.coords t) d2 (iblk0 V c 2 t)) (featB V c t) (w1B V c t) (b1B V c t) (waB V c t) (baB V c t) (w2aB V c t) (w2bB V c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _
    rw [fill_after0_10 V c t d0 d1 d2]
    iexact H10
  · iexists _
    rw [fill_after0_11 V c t d0]
    iexact H11

end Obligation

end Body0

/-- The pipeline's body obligation of the first pallas_call at every point: its twelve windows conjoined one by
    one are the body's triple at that point. -/
theorem body_obligation0 (V : (c : Dev nD) → (b : Ref sig .tc) → Buf (Elt Ideal) ((c : Thread nD τ).loc b)) (c : Dev nD) :
    Pipeline.BodyObligationLoose (dat0 (F := Ideal) V c) (defs₀ (F := Ideal)) Variants.none () Set.univ := fun t => by
  rw [bigSep_W0, bigSep_W0]
  exact Body0.sound_body0 V c t

end Cert.KernelIdeal.H

end
-- ==== Proof.KI.Pay1.lean ====
/-
  The second call's one stored value, read at an entry.

  The block the body stores is  (A · Y) / d + b : entry (r, l) is the r-th adjacency row against the l-th column
  of y, divided by the r-th degree, plus the l-th entry of the bias row.  Read at (r, l) it is the result row of
  the specification (Spec.outRowK) at the r-th adjacency row and the r-th degree; in particular it depends on the
  adjacency block and the degree block through their r-th rows only.
-/
import proofs.«150123_g86629490360606_cont_9to1_m_121_2_alg».proof.Proof.KI.Data
import proofs.«150123_g86629490360606_cont_9to1_m_121_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe
open Idealize.ShloMosaic.ValueIdx
open scoped BigOperators

/-! ## The contraction: row r of the left factor against column l of the right -/

/-- The left operand's index at output (r, l) and contraction position q: row r, unchanged. -/
theorem dot1_lhs_0 (i : S256x128.Idx) (q : dot_S256x10000_S10000x128_S256x128_1_0_0_1_n_n.contr.Idx) :
    (dot_S256x10000_S10000x128_S256x128_1_0_0_1_n_n.lhsIdx i q 0).val = (i 0).val := by
  unfold DotDims.lhsIdx
  rw [dif_neg (show ¬(0 : Fin S256x10000.rank) ∈ dot_S256x10000_S10000x128_S256x128_1_0_0_1_n_n.lhsBatch by decide),
    dif_pos (show (0 : Fin S256x10000.rank) ∈ dot_S256x10000_S10000x128_S256x128_1_0_0_1_n_n.lhsNonContracting by decide)]
  rfl
/-- … and the contraction position on its column axis. -/
theorem dot1_lhs_1 (i : S256x128.Idx) (q : dot_S256x10000_S10000x128_S256x128_1_0_0_1_n_n.contr.Idx) :
    (dot_S256x10000_S10000x128_S256x128_1_0_0_1_n_n.lhsIdx i q 1).val = (q ⟨0, by decide⟩).val :=
  dot_S256x10000_S10000x128_S256x128_1_0_0_1_n_n.lhsIdx_val_of_single rfl i q
/-- The right operand's index: the contraction position on its row axis … -/
theorem dot1_rhs_0 (i : S256x128.Idx) (q : dot_S256x10000_S10000x128_S256x128_1_0_0_1_n_n.contr.Idx) :
    (dot_S256x10000_S10000x128_S256x128_1_0_0_1_n_n.rhsIdx i q 0).val = (q ⟨0, by decide⟩).val :=
  dot_S256x10000_S10000x128_S256x128_1_0_0_1_n_n.rhsIdx_val_of_single rfl i q
/-- … and column l, unchanged. -/
theorem dot1_rhs_1 (i : S256x128.Idx) (q : dot_S256x10000_S10000x128_S256x128_1_0_0_1_n_n.contr.Idx) :
    (dot_S256x10000_S10000x128_S256x128_1_0_0_1_n_n.rhsIdx i q 1).val = (i 1).val := by
  unfold DotDims.rhsIdx
  rw [dif_neg (show ¬(1 : Fin S10000x128.rank) ∈ dot_S256x10000_S10000x128_S256x128_1_0_0_1_n_n.rhsBatch by decide),
    dif_pos (show (1 : Fin S10000x128.rank) ∈ dot_S256x10000_S10000x128_S256x128_1_0_0_1_n_n.rhsNonContracting by decide)]
  rfl

/-- The product A · Y into the zero block, at (r, l): ∑ₖ A r k · Y k l. -/
theorem matmul1_apply (adj : Vec Ideal S256x10000 .f32) (y : Vec Ideal S10000x128 .f32) (r : Fin 256) (l : Fin 128) :
    matmul (F := Ideal) (φ₁ := .f32) (φ₂ := .f32) dot_S256x10000_S10000x128_S256x128_1_0_0_1_n_n none adj y (constant S256x128 .f32 0x00000000#32) (ix2 r l)
      = ∑ k : Fin 10000, adj (ix2 r k) * y (ix2 k l) := by
  simp only [matmul]
  rw [Ideal.matmul_constant_zero_apply,
    ← Equiv.sum_comp (contrEquiv1 dot_S256x10000_S10000x128_S256x128_1_0_0_1_n_n 10000 rfl rfl).symm]
  refine Finset.sum_congr rfl fun k _ => ?_
  have hk := contrEquiv1_symm_val dot_S256x10000_S10000x128_S256x128_1_0_0_1_n_n 10000 rfl rfl k
  have el : dot_S256x10000_S10000x128_S256x128_1_0_0_1_n_n.lhsIdx (ix2 r l)
      ((contrEquiv1 dot_S256x10000_S10000x128_S256x128_1_0_0_1_n_n 10000 rfl rfl).symm k) = ix2 r k :=
    funext fun a => Fin.ext (by
      match a with
      | ⟨0, _⟩ => exact dot1_lhs_0 _ _
      | ⟨1, _⟩ => exact (dot1_lhs_1 _ _).trans hk)
  have er : dot_S256x10000_S10000x128_S256x128_1_0_0_1_n_n.rhsIdx (ix2 r l)
      ((contrEquiv1 dot_S256x10000_S10000x128_S256x128_1_0_0_1_n_n 10000 rfl rfl).symm k) = ix2 k l :=
    funext fun a => Fin.ext (by
      match a with
      | ⟨0, _⟩ => exact (dot1_rhs_0 _ _).trans hk
      | ⟨1, _⟩ => exact dot1_rhs_1 _ _)
  rw [el, er]

/-! ## One column broadcast over many -/

/-- An [a, 1] array broadcast to [a, b] reads, at (p, c), the operand's one column at p. -/
theorem broadcastTo_col_apply1 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The stored block at an entry -/

/-- Entry (r, l) of the stored block is the specification's result row at the r-th adjacency row and degree. -/
theorem outOut_apply (adj : Vec Ideal S256x10000 .f32) (y : Vec Ideal S10000x128 .f32) (deg : Vec Ideal S256x1 .f32)
    (b2 : Vec Ideal S1x128 .f32) (r : Fin 256) (l : Fin 128) :
    outOut (F := Ideal) adj y deg b2 (ix2 r l)
      = Cert.Spec.outRowK (fun j l => y (ix2 j l)) (fun l => b2 (ix2 (0 : Fin 1) l)) (fun j => adj (ix2 r j))
          (deg (ix2 r (0 : Fin 1))) l := by
  unfold outOut k1_pay1 Cert.Spec.outRowK
  rw [addf_apply, divf_apply, shapeCast_self, shapeCast_self, shapeCast_self, matmul1_apply,
    broadcastTo_col_apply1, broadcastTo_1b_ab_apply]

/-- Entry (r, l) depends on the adjacency block and the degree block through their r-th rows only. -/
theorem outOut_row_congr (adj adj' : Vec Ideal S256x10000 .f32) (y : Vec Ideal S10000x128 .f32) (deg deg' : Vec Ideal S256x1 .f32)
    (b2 : Vec Ideal S1x128 .f32) (r : Fin 256) (l : Fin 128)
    (h0 : ∀ k : Fin 10000, adj (ix2 r k) = adj' (ix2 r k)) (h2 : deg (ix2 r (0 : Fin 1)) = deg' (ix2 r (0 : Fin 1))) :
    outOut (F := Ideal) adj y deg b2 (ix2 r l) = outOut (F := Ideal) adj' y deg' b2 (ix2 r l) := by
  rw [outOut_apply, outOut_apply, h2]
  exact congrArg (fun a => Cert.Spec.outRowK (fun j l => y (ix2 j l)) (fun l => b2 (ix2 (0 : Fin 1) l)) a (deg' (ix2 r (0 : Fin 1))) l)
    (funext h0)

end Cert.KernelIdeal.H

end
-- ==== Proof.KI.Body1.lean ====
/-
  The body of the second call, at every point of its grid.
-/
import proofs.«150123_g86629490360606_cont_9to1_m_121_2_alg».proof.Proof.KI.Data
import proofs.«150123_g86629490360606_cont_9to1_m_121_2_alg».proof.Proof.KI.Pay1
import Idealize.ShloMosaic.Lib.Pipeline.FrameBody
import Idealize.ShloMosaic.Lib.Pipeline.Kit
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each the whole of its buffer -/

abbrev r1_0 : Rect S256x10000 := Rect.unit (s := S256x10000) ![0, 0] S256x10000.size inb_S256x10000_S256x10000_0_0
abbrev r1_1 : Rect S10000x128 := Rect.unit (s := S10000x128) ![0, 0] S10000x128.size inb_S10000x128_S10000x128_0_0
abbrev r1_2 : Rect S256x1 := Rect.unit (s := S256x1) ![0, 0] S256x1.size inb_S256x1_S256x1_0_0
abbrev r1_3 : Rect S1x128 := Rect.unit (s := S1x128) ![0, 0] S1x128.size inb_S1x128_S1x128_0_0
abbrev r1_4 : Rect S256x128 := Rect.unit (s := S256x128) ![0, 0] S256x128.size inb_S256x128_S256x128_0_0

theorem hz2 : (![0, 0] : Fin 2 → Nat) = fun _ => 0 := funext fun a => by fin_cases a <;> rfl

/-- What the one store leaves in the result buffer, of what the four input buffers hold: the stored block itself. -/
theorem stored1_eq (x0 : Vec F S256x10000 .f32) (x1 : Vec F S10000x128 .f32) (x2 : Vec F S256x1 .f32) (x3 : Vec F S1x128 .f32) :
    View.canon [(⟨r1_4, k1_pay1 (View.ld x0 r1_0) (View.ld x1 r1_1) (View.ld x2 r1_2) (View.ld x3 r1_3)⟩ : View.Piece (Elt F) S256x128 .f32)]
      = outOut x0 x1 x2 x3 := by
  rw [View.canon_unit_zero hz2]
  simp only [View.ld_unit_zero (S := S256x10000) hz2, View.ld_unit_zero (S := S10000x128) hz2,
    View.ld_unit_zero (S := S256x1) hz2, View.ld_unit_zero (S := S1x128) hz2]
  rfl

set_option maxHeartbeats 1000000 in
/-- The body on whole buffers: the four inputs at contents x0 … x3 and the result's at anything; it leaves the
    inputs as they were and the result's at the stored block of them. -/
theorem sound_kernel1 (c : Dev nD) (E : Set ℕ) (i : grid1.Coords)
    (arg1 : Memref sig .tc .vmem S256x10000 .f32) (harg1 : arg1.IsWhole) (arg2 : Memref sig .tc .vmem S10000x128 .f32) (harg2 : arg2.IsWhole)
    (arg3 : Memref sig .tc .vmem S256x1 .f32) (harg3 : arg3.IsWhole) (arg4 : Memref sig .tc .vmem S1x128 .f32) (harg4 : arg4.IsWhole)
    (arg5 : Memref sig .tc .vmem S256x128 .f32) (harg5 : arg5.IsWhole)
    (x0 : Vec F S256x10000 .f32) (x1 : Vec F S10000x128 .f32) (x2 : Vec F S256x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outOut x0 x1 x2 x3)) -∗ K ⟨⟩))
      ⊢ wp frame (wpE (defs₀ (F := F)) Variants.none c none) E (cc1__phase2 i arg1 harg1 arg2 harg2 arg3 harg3 arg4 harg4 arg5 harg5) K := by
  simp only [cc1__phase2_eq_skeleton]; unfold cc1__phase2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero hz2 inb_S256x128_S256x128_0_0 y⟩)]
  exact stored1_eq _ _ _ _

/-! ## What the body finds in the input buffers -/

section Obligation

variable (V : (c : Dev nD) → (b : Ref sig .tc) → Buf (Elt F) ((c : Thread nD τ).loc b))

/-- The adjacency block and the degree block, fetched at every point: the array's rows on the part inside the
    array, anything below. -/
theorem before1_0 (c : Dev nD) (t : Fin cfg1.N) (d) :
    (dat1 V c).before (0 : Fin 5) t d = win1_0.fill (grid1.coords t) d (iblk1 V c 0 t) := by
  unfold Dat.before; rw [if_pos (fetch1_0 t)]; rfl
theorem before1_2 (c : Dev nD) (t : Fin cfg1.N) (d) :
    (dat1 V c).before (2 : Fin 5) t d = win1_2.fill (grid1.coords t) d (iblk1 V c 2 t) := by
  unfold Dat.before; rw [if_pos (fetch1_2 t)]; rfl
/-- The whole of y and the bias row, fetched once and left in place: the array at every point. -/
theorem before1_1 (c : Dev nD) (t : Fin cfg1.N) (d) : (dat1 V c).before (1 : Fin 5) t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_3 (c : Dev nD) (t : Fin cfg1.N) (d) : (dat1 V c).before (3 : Fin 5) t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The parts of the clipped blocks inside their arrays

The adjacency block, the degree block and the result block are cut alike on the row axis (one block index, blocks
of 256 rows, arrays of 10000 rows) and not at all on the other. -/

theorem xrows1_0 (i : grid1.Coords) : win1_0.xsize i 0 = win1_4.xsize i 0 := rfl
theorem xrows1_2 (i : grid1.Coords) : win1_2.xsize i 0 = win1_4.xsize i 0 := rfl
theorem xcols1_0 (i : grid1.Coords) : win1_0.xsize i 1 = 10000 := rfl
theorem xcols1_2 (i : grid1.Coords) : win1_2.xsize i 1 = 1 := rfl

/-- Two fillings of one block's part inside the array agree there, whatever fills them out. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Pipeline.Window.fill; rw [dif_pos h, dif_pos h]

end Obligation

/-! ## The stored block on the rows inside the array -/

section AtIdeal

variable (V : (c : Dev nD) → (b : Ref sig .tc) → Buf (Elt Ideal) ((c : Thread nD τ).loc b))

/-- On the rows inside the array the block the body stores — computed from the adjacency and degree blocks as it
    found them, filled out below the array's end with anything — is the block computed from those filled out with
    zeros: row r of the result reads row r of each, and row r is inside the array for all three alike. -/
theorem cut_stored1 (c : Dev nD) (t : Fin cfg1.N) (d0 : S256x10000.Idx → Elt Ideal .f32) (d2 : S256x1.Idx → Elt Ideal .f32) :
    win1_4.cut (grid1.coords t)
        (outOut (F := Ideal) (win1_0.fill (grid1.coords t) d0 (iblk1 V c 0 t)) (iblk1 V c 1 t) (win1_2.fill (grid1.coords t) d2 (iblk1 V c 2 t)) (iblk1 V c 3 t))
      = win1_4.cut (grid1.coords t) (outOut (F := Ideal) (adjB1 V c t) (yB1 V c t) (degB1 V c t) (b2B1 V c t)) := by
  funext j
  show outOut (F := Ideal) _ _ _ _ (win1_4.xinj (grid1.coords t) j) = outOut (F := Ideal) _ _ _ _ (win1_4.xinj (grid1.coords t) j)
  have hr : ((win1_4.xinj (grid1.coords t) j) 0).val < win1_4.xsize (grid1.coords t) 0 := (j 0).isLt
  rw [eq_ix2 (win1_4.xinj (grid1.coords t) j)]
  refine outOut_row_congr _ _ _ _ _ _ _ _ (fun k => ?_) ?_
  · unfold adjB1
    refine fill_eq_of_moved win1_0 _ _ _ _ ((win1_0.moved_iff _ _).mpr fun a => ?_)
    match a with
    | ⟨0, _⟩ => exact hr.trans_eq (xrows1_0 _).symm
    | ⟨1, _⟩ => exact k.isLt.trans_eq (xcols1_0 _).symm
  · unfold degB1
    refine fill_eq_of_moved win1_2 _ _ _ _ ((win1_2.moved_iff _ _).mpr fun a => ?_)
    match a with
    | ⟨0, _⟩ => exact hr.trans_eq (xrows1_2 _).symm
    | ⟨1, _⟩ => exact Nat.one_pos.trans_eq (xcols1_2 _).symm

local notation "𝕀" => MT nD τ sig Unit (Elt Ideal) ℕ (UR sig nD τ) ℕ

/-! ## The body obligation, at a generic point -/

/-- What the body is called with at point t, the windows one by one, -/
def bodyPre1 (c : Dev nD) (t : Fin cfg1.N) : sProp 𝕀 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the clipped windows' buffers stated on their parts inside the arrays. -/
def bodyPost1 (c : Dev nD) (t : Fin cfg1.N) : sProp 𝕀 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ owns (c : Thread nD τ) (st1_1 t) fullShare ((dat1 V c).after 1 t)
    ∗ (∃ d, owns (c : Thread nD τ) (st1_2 t) fullShare ((cfg1.win 2).fill (cfg1.grid.coords t) d ((cfg1.win 2).cut (cfg1.grid.coords t) ((dat1 V c).after 2 t))))
    ∗ owns (c : Thread nD τ) (st1_3 t) fullShare ((dat1 V c).after 3 t)
    ∗ (∃ d, owns (c : Thread nD τ) (st1_4 t) fullShare ((cfg1.win 4).fill (cfg1.grid.coords t) d ((cfg1.win 4).cut (cfg1.grid.coords t) ((dat1 V c).after 4 t)))))

/-- The body at any point. -/
theorem sound_body1 (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 (F := Ideal) c Set.univ (grid1.coords t) _ _ _ _ _ _ _ _ _ _
    (win1_0.fill (grid1.coords t) d0 (iblk1 V c 0 t)) (iblk1 V c 1 t) (win1_2.fill (grid1.coords t) d2 (iblk1 V c 2 t)) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  -- the adjacency and degree buffers hold the array's rows filled out with what the fetch left below them: on the
  -- rows inside the array, the rows of the blocks filled out with zeros; the result buffer holds the stored block,
  -- which on those rows is the block stored from the zero-filled ones
  have hx : win1_0.cut (grid1.coords t) (adjB1 V c t) = iblk1 V c 0 t := win1_0.cut_fill _ _ _
  have hd : win1_2.cut (grid1.coords t) (degB1 V c t) = iblk1 V c 2 t := win1_2.cut_fill _ _ _
  isplitl [H0]
  · iexists d0
    change _ ⊢ owns (c : Thread nD τ) (st1_0 t) fullShare (win1_0.fill (grid1.coords t) d0 (win1_0.cut (grid1.coords t) (adjB1 V c t)))
    rw [hx]; try iexact H0
  isplitl [H1]; · iexact H1
  isplitl [H2]
  · iexists d2
    change _ ⊢ owns (c : Thread nD τ) (st1_2 t) fullShare (win1_2.fill (grid1.coords t) d2 (win1_2.cut (grid1.coords t) (degB1 V c t)))
    rw [hd]; try iexact H2
  isplitl [H3]; · iexact H3
  · iexists outOut (F := Ideal) (win1_0.fill (grid1.coords t) d0 (iblk1 V c 0 t)) (iblk1 V c 1 t) (win1_2.fill (grid1.coords t) d2 (iblk1 V c 2 t)) (iblk1 V c 3 t)
    change _ ⊢ owns (c : Thread nD τ) (st1_4 t) fullShare (win1_4.fill (grid1.coords t)
      (outOut (F := Ideal) (win1_0.fill (grid1.coords t) d0 (iblk1 V c 0 t)) (iblk1 V c 1 t) (win1_2.fill (grid1.coords t) d2 (iblk1 V c 2 t)) (iblk1 V c 3 t))
      (win1_4.cut (grid1.coords t) (outOut (F := Ideal) (adjB1 V c t) (yB1 V c t) (degB1 V c t) (b2B1 V c t))))
    rw [win1_4.fill_congr_cut (grid1.coords t) (cut_stored1 V c t d0 d2)]; try iexact H4

/-- The body obligation of the second call, at every point of its grid. -/
theorem body_obligation1 (c : Dev nD) :
    Pipeline.BodyObligationLoose (dat1 (F := Ideal) V c) (defs₀ (F := Ideal)) Variants.none () Set.univ := fun t => by
  rw [bigSep_W1, bigSep_W1]
  exact sound_body1 V c t

end AtIdeal

end Cert.KernelIdeal.H

end
-- ==== Proof.KI.Value.lean ====
/-
  What the three result arrays hold after all write-backs, as whole-array functions of the contents the two calls
  find at entry, index by index.

  Each call walks the 10000 graph rows in row blocks (128 rows over 79 points, then 256 rows over 40 points); the last
  block of every row-block window overhangs its array, so the transfer there moves the block's leading 16 rows only.
  A staged input block is the array's rows filled out past the array's end; at a row `r` inside the array it reads the
  array's row `t · rows + r`, and the windows whose block is their whole array read the array. So what the body leaves
  in a result block at a row inside the array is the row `t · rows + r` of ONE whole-array function (`yArr`, `degArr`,
  `outArr`); what a point writes back is the block's part inside the array, which is that function read through the
  point's (cut) block; and row `i` lies in the block of point `i / rows`. Hence the arrays end holding those functions.
-/
import proofs.«150123_g86629490360606_cont_9to1_m_121_2_alg».proof.Proof.KI.Data
import proofs.«150123_g86629490360606_cont_9to1_m_121_2_alg».proof.Proof.KI.Pay0
import proofs.«150123_g86629490360606_cont_9to1_m_121_2_alg».proof.Proof.KI.Pay1
import proofs.«150123_g86629490360606_cont_9to1_m_121_2_alg».proof.Proof.Spec
import Idealize.ShloMosaic.Lib.Pipeline.Value
import Idealize.ShloMosaic.Lib.ValueIdx

set_option maxRecDepth 16384

noncomputable section

namespace Cert.KernelIdeal.H

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx (ix2 eq_ix2)

/-! ## Blocks read at an index

A staged row block is the array's rows filled out past the array's end; at a row inside the array it reads the
array's row `t · rows + r`. A window whose block is its whole array reads the array. -/

/-- A filled block at an index of its moved part reads the filling. -/
theorem fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Window.fill; rw [dif_pos ((w.moved_iff i j).mpr h)]

/-- The row-block windows of the first call: block index (t, 0), the rows cut at the array's end. -/
theorem idx0_0 : ∀ t : Fin cfg0.N, win0_0.index t (0 : Fin 2) = t.val ∧ win0_0.index t (1 : Fin 2) = 0
    ∧ win0_0.xsize (grid0.coords t) (0 : Fin 2) = min 128 (10000 - t.val * 128) ∧ win0_0.xsize (grid0.coords t) (1 : Fin 2) = 10000 :=
  (by decide +kernel : ∀ t : Fin grid0.N, _)
theorem idx0_1 : ∀ t : Fin cfg0.N, win0_1.index t (0 : Fin 2) = t.val ∧ win0_1.index t (1 : Fin 2) = 0
    ∧ win0_1.xsize (grid0.coords t) (0 : Fin 2) = min 128 (10000 - t.val * 128) ∧ win0_1.xsize (grid0.coords t) (1 : Fin 2) = 10000 :=
  (by decide +kernel : ∀ t : Fin grid0.N, _)
theorem idx0_2 : ∀ t : Fin cfg0.N, win0_2.index t (0 : Fin 2) = t.val ∧ win0_2.index t (1 : Fin 2) = 0
    ∧ win0_2.xsize (grid0.coords t) (0 : Fin 2) = min 128 (10000 - t.val * 128) ∧ win0_2.xsize (grid0.coords t) (1 : Fin 2) = 10000 :=
  (by decide +kernel : ∀ t : Fin grid0.N, _)
theorem idx0_10 : ∀ t : Fin cfg0.N, win0_10.index t (0 : Fin 2) = t.val ∧ win0_10.index t (1 : Fin 2) = 0
    ∧ win0_10.xsize (grid0.coords t) (0 : Fin 2) = min 128 (10000 - t.val * 128) ∧ win0_10.xsize (grid0.coords t) (1 : Fin 2) = 128 :=
  (by decide +kernel : ∀ t : Fin grid0.N, _)
theorem idx0_11 : ∀ t : Fin cfg0.N, win0_11.index t (0 : Fin 2) = t.val ∧ win0_11.index t (1 : Fin 2) = 0
    ∧ win0_11.xsize (grid0.coords t) (0 : Fin 2) = min 128 (10000 - t.val * 128) ∧ win0_11.xsize (grid0.coords t) (1 : Fin 2) = 1 :=
  (by decide +kernel : ∀ t : Fin grid0.N, _)

variable (V : (c : Dev nD) → (b : Ref sig .tc) → Buf (Elt Ideal) ((c : Thread nD τ).loc b))

/-- The staged adjacency block at a row inside the array is the array's row. -/
theorem adjB_apply (c : Dev nD) (t : Fin cfg0.N) (r : Fin 128) (h : t.val * 128 + r.val < 10000) (k : Fin 10000) :
    adjB V c t (ix2 r k) = V c main_arg1 (ix2 (⟨t.val * 128 + r.val, h⟩ : Fin 10000) k) := by
  obtain ⟨e0, e1, x0, x1⟩ := idx0_0 t
  have hm : ∀ a, ((ix2 r k : S128x10000.Idx) a).val < win0_0.xsize (grid0.coords t) a := fun a => by
    match a with
    | ⟨0, _⟩ => show r.val < win0_0.xsize (grid0.coords t) (0 : Fin 2); rw [x0]; omega
    | ⟨1, _⟩ => show k.val < win0_0.xsize (grid0.coords t) (1 : Fin 2); rw [x1]; exact k.isLt
  unfold adjB
  rw [fill_apply_of_lt win0_0 (grid0.coords t) _ _ (ix2 r k) hm]
  show V c main_arg1 (((cfg0.win 0).blk t).view.emb _) = V c main_arg1 _
  congr 1
  funext a; apply Fin.ext
  match a with
  | ⟨0, _⟩ => show win0_0.index t (0 : Fin 2) * 128 + 1 * r.val = t.val * 128 + r.val; rw [e0]; omega
  | ⟨1, _⟩ => show win0_0.index t (1 : Fin 2) * 10000 + 1 * k.val = k.val; rw [e1]; omega

/-- The staged distance block likewise. -/
theorem distB_apply (c : Dev nD) (t : Fin cfg0.N) (r : Fin 128) (h : t.val * 128 + r.val < 10000) (k : Fin 10000) :
    distB V c t (ix2 r k) = V c main_arg2 (ix2 (⟨t.val * 128 + r.val, h⟩ : Fin 10000) k) := by
  obtain ⟨e0, e1, x0, x1⟩ := idx0_1 t
  have hm : ∀ a, ((ix2 r k : S128x10000.Idx) a).val < win0_1.xsize (grid0.coords t) a := fun a => by
    match a with
    | ⟨0, _⟩ => show r.val < win0_1.xsize (grid0.coords t) (0 : Fin 2); rw [x0]; omega
    | ⟨1, _⟩ => show k.val < win0_1.xsize (grid0.coords t) (1 : Fin 2); rw [x1]; exact k.isLt
  unfold distB
  rw [fill_apply_of_lt win0_1 (grid0.coords t) _ _ (ix2 r k) hm]
  show V c main_arg2 (((cfg0.win 1).blk t).view.emb _) = V c main_arg2 _
  congr 1
  funext a; apply Fin.ext
  match a with
  | ⟨0, _⟩ => show win0_1.index t (0 : Fin 2) * 128 + 1 * r.val = t.val * 128 + r.val; rw [e0]; omega
  | ⟨1, _⟩ => show win0_1.index t (1 : Fin 2) * 10000 + 1 * k.val = k.val; rw [e1]; omega

/-- The staged cosine block likewise. -/
theorem cosB_apply (c : Dev nD) (t : Fin cfg0.N) (r : Fin 128) (h : t.val * 128 + r.val < 10000) (k : Fin 10000) :
    cosB V c t (ix2 r k) = V c main_arg3 (ix2 (⟨t.val * 128 + r.val, h⟩ : Fin 10000) k) := by
  obtain ⟨e0, e1, x0, x1⟩ := idx0_2 t
  have hm : ∀ a, ((ix2 r k : S128x10000.Idx) a).val < win0_2.xsize (grid0.coords t) a := fun a => by
    match a with
    | ⟨0, _⟩ => show r.val < win0_2.xsize (grid0.coords t) (0 : Fin 2); rw [x0]; omega
    | ⟨1, _⟩ => show k.val < win0_2.xsize (grid0.coords t) (1 : Fin 2); rw [x1]; exact k.isLt
  unfold cosB
  rw [fill_apply_of_lt win0_2 (grid0.coords t) _ _ (ix2 r k) hm]
  show V c main_arg3 (((cfg0.win 2).blk t).view.emb _) = V c main_arg3 _
  congr 1
  funext a; apply Fin.ext
  match a with
  | ⟨0, _⟩ => show win0_2.index t (0 : Fin 2) * 128 + 1 * r.val = t.val * 128 + r.val; rw [e0]; omega
  | ⟨1, _⟩ => show win0_2.index t (1 : Fin 2) * 10000 + 1 * k.val = k.val; rw [e1]; omega

/-- The features' window: one block, the whole array. -/
theorem idxw0_3 : ∀ t : Fin cfg0.N, win0_3.index t (0 : Fin 2) = 0 ∧ win0_3.index t (1 : Fin 2) = 0 :=
  (by decide +kernel : ∀ t : Fin grid0.N, _)
theorem iblk0_3_apply (c : Dev nD) (t : Fin cfg0.N) (a : Fin 10000) (b : Fin 128) :
    iblk0 V c 3 t (ix2 a b) = V c main_arg0 (ix2 a b) := by
  obtain ⟨e0, e1⟩ := idxw0_3 t
  show V c main_arg0 (((cfg0.win 3).blk t).view.emb (ix2 a b)) = V c main_arg0 (ix2 a b)
  congr 1
  funext d; apply Fin.ext
  match d with
  | ⟨0, _⟩ => show win0_3.index t (0 : Fin 2) * 10000 + 1 * a.val = a.val; rw [e0]; omega
  | ⟨1, _⟩ => show win0_3.index t (1 : Fin 2) * 128 + 1 * b.val = b.val; rw [e1]; omega

/-- W1's window: the whole array. -/
theorem idxw0_4 : ∀ t : Fin cfg0.N, win0_4.index t (0 : Fin 2) = 0 ∧ win0_4.index t (1 : Fin 2) = 0 :=
  (by decide +kernel : ∀ t : Fin grid0.N, _)
theorem iblk0_4_apply (c : Dev nD) (t : Fin cfg0.N) (a : Fin 128) (b : Fin 256) :
    iblk0 V c 4 t (ix2 a b) = V c main_arg4 (ix2 a b) := by
  obtain ⟨e0, e1⟩ := idxw0_4 t
  show V c main_arg4 (((cfg0.win 4).blk t).view.emb (ix2 a b)) = V c main_arg4 (ix2 a b)
  congr 1
  funext d; apply Fin.ext
  match d with
  | ⟨0, _⟩ => show win0_4.index t (0 : Fin 2) * 128 + 1 * a.val = a.val; rw [e0]; omega
  | ⟨1, _⟩ => show win0_4.index t (1 : Fin 2) * 256 + 1 * b.val = b.val; rw [e1]; omega

/-- b1's window (a row): the whole array. -/
theorem idxw0_5 : ∀ t : Fin cfg0.N, win0_5.index t (0 : Fin 2) = 0 ∧ win0_5.index t (1 : Fin 2) = 0 :=
  (by decide +kernel : ∀ t : Fin grid0.N, _)
theorem iblk0_5_apply (c : Dev nD) (t : Fin cfg0.N) (a : Fin 1) (b : Fin 256) :
    iblk0 V c 5 t (ix2 a b) = V c main_v2 (ix2 a b) := by
  obtain ⟨e0, e1⟩ := idxw0_5 t
  show V c main_v2 (((cfg0.win 5).blk t).view.emb (ix2 a b)) = V c main_v2 (ix2 a b)
  congr 1
  funext d; apply Fin.ext
  match d with
  | ⟨0, _⟩ => show win0_5.index t (0 : Fin 2) * 1 + 1 * a.val = a.val; rw [e0]; omega
  | ⟨1, _⟩ => show win0_5.index t (1 : Fin 2) * 256 + 1 * b.val = b.val; rw [e1]; omega

/-- Wa's window: the whole array. -/
theorem idxw0_6 : ∀ t : Fin cfg0.N, win0_6.index t (0 : Fin 2) = 0 ∧ win0_6.index t (1 : Fin 2) = 0 :=
  (by decide +kernel : ∀ t : Fin grid0.N, _)
theorem iblk0_6_apply (c : Dev nD) (t : Fin cfg0.N) (a : Fin 128) (b : Fin 128) :
    iblk0 V c 6 t (ix2 a b) = V c main_arg6 (ix2 a b) := by
  obtain ⟨e0, e1⟩ := idxw0_6 t
  show V c main_arg6 (((cfg0.win 6).blk t).view.emb (ix2 a b)) = V c main_arg6 (ix2 a b)
  congr 1
  funext d; apply Fin.ext
  match d with
  | ⟨0, _⟩ => show win0_6.index t (0 : Fin 2) * 128 + 1 * a.val = a.val; rw [e0]; omega
  | ⟨1, _⟩ => show win0_6.index t (1 : Fin 2) * 128 + 1 * b.val = b.val; rw [e1]; omega

/-- ba's window (a row): the whole array. -/
theorem idxw0_7 : ∀ t : Fin cfg0.N, win0_7.index t (0 : Fin 2) = 0 ∧ win0_7.index t (1 : Fin 2) = 0 :=
  (by decide +kernel : ∀ t : Fin grid0.N, _)
theorem iblk0_7_apply (c : Dev nD) (t : Fin cfg0.N) (a : Fin 1) (b : Fin 128) :
    iblk0 V c 7 t (ix2 a b) = V c main_v3 (ix2 a b) := by
  obtain ⟨e0, e1⟩ := idxw0_7 t
  show V c main_v3 (((cfg0.win 7).blk t).view.emb (ix2 a b)) = V c main_v3 (ix2 a b)
  congr 1
  funext d; apply Fin.ext
  match d with
  | ⟨0, _⟩ => show win0_7.index t (0 : Fin 2) * 1 + 1 * a.val = a.val; rw [e0]; omega
  | ⟨1, _⟩ => show win0_7.index t (1 : Fin 2) * 128 + 1 * b.val = b.val; rw [e1]; omega

/-- The window of W2's rows 0..255: the whole array. -/
theorem idxw0_8 : ∀ t : Fin cfg0.N, win0_8.index t (0 : Fin 2) = 0 ∧ win0_8.index t (1 : Fin 2) = 0 :=
  (by decide +kernel : ∀ t : Fin grid0.N, _)
theorem iblk0_8_apply (c : Dev nD) (t : Fin cfg0.N) (a : Fin 256) (b : Fin 128) :
    iblk0 V c 8 t (ix2 a b) = V c main_v0 (ix2 a b) := by
  obtain ⟨e0, e1⟩ := idxw0_8 t
  show V c main_v0 (((cfg0.win 8).blk t).view.emb (ix2 a b)) = V c main_v0 (ix2 a b)
  congr 1
  funext d; apply Fin.ext
  match d with
  | ⟨0, _⟩ => show win0_8.index t (0 : Fin 2) * 256 + 1 * a.val = a.val; rw [e0]; omega
  | ⟨1, _⟩ => show win0_8.index t (1 : Fin 2) * 128 + 1 * b.val = b.val; rw [e1]; omega

/-- The window of W2's rows 256..383: the whole array. -/
theorem idxw0_9 : ∀ t : Fin cfg0.N, win0_9.index t (0 : Fin 2) = 0 ∧ win0_9.index t (1 : Fin 2) = 0 :=
  (by decide +kernel : ∀ t : Fin grid0.N, _)
theorem iblk0_9_apply (c : Dev nD) (t : Fin cfg0.N) (a : Fin 128) (b : Fin 128) :
    iblk0 V c 9 t (ix2 a b) = V c main_v1 (ix2 a b) := by
  obtain ⟨e0, e1⟩ := idxw0_9 t
  show V c main_v1 (((cfg0.win 9).blk t).view.emb (ix2 a b)) = V c main_v1 (ix2 a b)
  congr 1
  funext d; apply Fin.ext
  match d with
  | ⟨0, _⟩ => show win0_9.index t (0 : Fin 2) * 128 + 1 * a.val = a.val; rw [e0]; omega
  | ⟨1, _⟩ => show win0_9.index t (1 : Fin 2) * 128 + 1 * b.val = b.val; rw [e1]; omega

/-! ## The first call's results as whole arrays -/

/-- Row `i` of the intermediate `y`, of the arrays as the first call finds them. -/
def yFn (c : Dev nD) (i : Fin 10000) (l : Fin 128) : EReal :=
  Cert.Spec.yRow (fun k q => V c main_arg0 (ix2 k q)) (fun q p => V c main_arg4 (ix2 q p)) (fun p => V c main_v2 (ix2 (0 : Fin 1) p))
    (fun q p => V c main_arg6 (ix2 q p)) (fun p => V c main_v3 (ix2 (0 : Fin 1) p)) (fun p l => V c main_v0 (ix2 p l))
    (fun p l => V c main_v1 (ix2 p l)) (fun k => V c main_arg1 (ix2 i k)) (fun k => V c main_arg2 (ix2 i k))
    (fun k => V c main_arg3 (ix2 i k)) l

/-- The whole array `y`. -/
def yArr (c : Dev nD) : Buf (Elt Ideal) ((cfg0.win 10).arr.view.loc (c.tc : Thread nD τ)) :=
  fun (idx : S10000x128.Idx) => yFn V c (idx 0) (idx 1)

/-- What the body leaves in the `y` block at point `t`, at a row inside the array: the array's row `t · 128 + r`. -/
theorem yOut_staged (c : Dev nD) (t : Fin cfg0.N) (r l : Fin 128) (h : t.val * 128 + r.val < 10000) :
    yOut (adjB V c t) (distB V c t) (cosB V c t) (featB V c t) (w1B V c t) (b1B V c t) (waB V c t) (baB V c t) (w2aB V c t) (w2bB V c t) (ix2 r l)
      = yFn V c ⟨t.val * 128 + r.val, h⟩ l := by
  rw [yOut_apply]
  unfold yFn
  simp only [adjB_apply V c t r h, distB_apply V c t r h, cosB_apply V c t r h, iblk0_3_apply V c t, iblk0_4_apply V c t,
    iblk0_5_apply V c t, iblk0_6_apply V c t, iblk0_7_apply V c t, iblk0_8_apply V c t, iblk0_9_apply V c t]

/-- What point `t` writes back to `y` is block `t` of the whole array `yArr`. -/
theorem flushed_y (c : Dev nD) (t : Fin cfg0.N) :
    (dat0 V c).flushed 10 t = ((cfg0.win 10).blk t).view.read (Elt Ideal) (yArr V c) := by
  funext j
  obtain ⟨e0, e1, x0, x1⟩ := idx0_10 t
  have hj0 : (j 0).val < win0_10.xsize (grid0.coords t) (0 : Fin 2) := (j 0).isLt
  have hj1 : (j 1).val < win0_10.xsize (grid0.coords t) (1 : Fin 2) := (j 1).isLt
  rw [x0] at hj0; rw [x1] at hj1
  have hr : (j 0).val < 128 := by omega
  have hi : t.val * 128 + (j 0).val < 10000 := by omega
  have hx : (cfg0.win 10).xinj (grid0.coords t) j = (ix2 (⟨(j 0).val, hr⟩ : Fin 128) (⟨(j 1).val, hj1⟩ : Fin 128) : S128x128.Idx) := by
    funext a; match a with | ⟨0, _⟩ => rfl | ⟨1, _⟩ => rfl
  have he : ((cfg0.win 10).blk t).view.emb j = (ix2 (⟨t.val * 128 + (j 0).val, hi⟩ : Fin 10000) (⟨(j 1).val, hj1⟩ : Fin 128) : S10000x128.Idx) := by
    funext a; apply Fin.ext
    match a with
    | ⟨0, _⟩ => show win0_10.index t (0 : Fin 2) * 128 + 1 * (j 0).val = t.val * 128 + (j 0).val; rw [e0]; omega
    | ⟨1, _⟩ => show win0_10.index t (1 : Fin 2) * 128 + 1 * (j 1).val = (j 1).val; rw [e1]; omega
  show (dat0 V c).after 10 t ((cfg0.win 10).xinj (grid0.coords t) j) = yArr V c (((cfg0.win 10).blk t).view.emb j)
  rw [after0_10, hx, he, yOut_staged V c t _ _ hi]
  rfl

/-- An index of `y` is in point `t`'s block iff its row is among the block's rows inside the array. -/
theorem mem_blk_y (t : Fin cfg0.N) (i : S10000x128.Idx) :
    i ∈ ((cfg0.win 10).blk t).view.set ↔ ∀ a : Fin 2, win0_10.index t a * S128x128.size a ≤ (i a).val
      ∧ (i a).val < win0_10.index t a * S128x128.size a + win0_10.xsize (grid0.coords t) a := by
  show i ∈ ((View.whole main_v5_0).slice (win0_10.rect t)).set ↔ _
  rw [View.set_slice_whole, Rect.mem_set_unit]
  exact Iff.rfl

/-- Row `i` lies in the block of point `i / 128`, and every point writes its block back. -/
theorem cover_y (i : S10000x128.Idx) :
    ∃ t : Fin cfg0.N, (cfg0.win 10).flush t = true ∧ i ∈ ((cfg0.win 10).blk t).view.set := by
  have h0 : (i 0).val < 10000 := (i 0).isLt
  have h1 : (i 1).val < 128 := (i 1).isLt
  refine ⟨⟨(i 0).val / 128, by show _ < 79; omega⟩, flush0_10 _, ?_⟩
  rw [mem_blk_y]
  obtain ⟨e0, e1, x0, x1⟩ := idx0_10 ⟨(i 0).val / 128, by show _ < 79; omega⟩
  intro a
  match a with
  | ⟨0, _⟩ =>
    show win0_10.index _ (0 : Fin 2) * 128 ≤ (i 0).val ∧ (i 0).val < win0_10.index _ (0 : Fin 2) * 128 + win0_10.xsize _ (0 : Fin 2)
    rw [e0, x0]; show (i 0).val / 128 * 128 ≤ (i 0).val ∧ (i 0).val < (i 0).val / 128 * 128 + min 128 (10000 - (i 0).val / 128 * 128); omega
  | ⟨1, _⟩ =>
    show win0_10.index _ (1 : Fin 2) * 128 ≤ (i 1).val ∧ (i 1).val < win0_10.index _ (1 : Fin 2) * 128 + win0_10.xsize _ (1 : Fin 2)
    rw [e1, x1]; omega

/-- After all write-backs of the first call the array `y` holds, row by row, the kernel's intermediate rows. -/
theorem y_final (c : Dev nD) (i : Fin 10000) (l : Fin 128) : (dat0 (F := Ideal) V c).arrAt 10 cfg0.N (ix2 i l) = Cert.Spec.yRow (fun k q => V c main_arg0 (ix2 k q)) (fun q p => V c main_arg4 (ix2 q p)) (fun p => V c main_v2 (ix2 (0 : Fin 1) p)) (fun q p => V c main_arg6 (ix2 q p)) (fun p => V c main_v3 (ix2 (0 : Fin 1) p)) (fun p l => V c main_v0 (ix2 p l)) (fun p l => V c main_v1 (ix2 p l)) (fun k => V c main_arg1 (ix2 i k)) (fun k => V c main_arg2 (ix2 i k)) (fun k => V c main_arg3 (ix2 i k)) l := by
  rw [(dat0 V c).arrAt_eq_of_cover 10 (yArr V c) (fun t _ => flushed_y V c t) cover_y]
  rfl

/-- Row `i`'s degree, of the adjacency as the first call finds it. -/
def degFn (c : Dev nD) (i : Fin 10000) : EReal := Cert.Spec.degRow (fun k => V c main_arg1 (ix2 i k))

/-- The whole degree column. -/
def degArr (c : Dev nD) : Buf (Elt Ideal) ((cfg0.win 11).arr.view.loc (c.tc : Thread nD τ)) :=
  fun (idx : S10000x1.Idx) => degFn V c (idx 0)

/-- What point `t` writes back to the degree column is block `t` of `degArr`. -/
theorem flushed_deg (c : Dev nD) (t : Fin cfg0.N) :
    (dat0 V c).flushed 11 t = ((cfg0.win 11).blk t).view.read (Elt Ideal) (degArr V c) := by
  funext j
  obtain ⟨e0, e1, x0, x1⟩ := idx0_11 t
  have hj0 : (j 0).val < win0_11.xsize (grid0.coords t) (0 : Fin 2) := (j 0).isLt
  have hj1 : (j 1).val < win0_11.xsize (grid0.coords t) (1 : Fin 2) := (j 1).isLt
  rw [x0] at hj0; rw [x1] at hj1
  have hr : (j 0).val < 128 := by omega
  have hi : t.val * 128 + (j 0).val < 10000 := by omega
  have hx : (cfg0.win 11).xinj (grid0.coords t) j = (ix2 (⟨(j 0).val, hr⟩ : Fin 128) (0 : Fin 1) : S128x1.Idx) := by
    funext a; apply Fin.ext
    match a with
    | ⟨0, _⟩ => rfl
    | ⟨1, _⟩ => show (j 1).val = 0; omega
  have he : ((cfg0.win 11).blk t).view.emb j = (ix2 (⟨t.val * 128 + (j 0).val, hi⟩ : Fin 10000) (0 : Fin 1) : S10000x1.Idx) := by
    funext a; apply Fin.ext
    match a with
    | ⟨0, _⟩ => show win0_11.index t (0 : Fin 2) * 128 + 1 * (j 0).val = t.val * 128 + (j 0).val; rw [e0]; omega
    | ⟨1, _⟩ => show win0_11.index t (1 : Fin 2) * 1 + 1 * (j 1).val = 0; rw [e1]; omega
  show (dat0 V c).after 11 t ((cfg0.win 11).xinj (grid0.coords t) j) = degArr V c (((cfg0.win 11).blk t).view.emb j)
  rw [after0_11, hx, he, degOut_apply]
  have hrow : (fun k => adjB V c t (ix2 (⟨(j 0).val, hr⟩ : Fin 128) k))
      = fun k => V c main_arg1 (ix2 (⟨t.val * 128 + (j 0).val, hi⟩ : Fin 10000) k) :=
    funext fun k => adjB_apply V c t ⟨(j 0).val, hr⟩ hi k
  rw [hrow]
  rfl

theorem mem_blk_deg (t : Fin cfg0.N) (i : S10000x1.Idx) :
    i ∈ ((cfg0.win 11).blk t).view.set ↔ ∀ a : Fin 2, win0_11.index t a * S128x1.size a ≤ (i a).val
      ∧ (i a).val < win0_11.index t a * S128x1.size a + win0_11.xsize (grid0.coords t) a := by
  show i ∈ ((View.whole main_v5_1).slice (win0_11.rect t)).set ↔ _
  rw [View.set_slice_whole, Rect.mem_set_unit]
  exact Iff.rfl

theorem cover_deg (i : S10000x1.Idx) :
    ∃ t : Fin cfg0.N, (cfg0.win 11).flush t = true ∧ i ∈ ((cfg0.win 11).blk t).view.set := by
  have h0 : (i 0).val < 10000 := (i 0).isLt
  have h1 : (i 1).val < 1 := (i 1).isLt
  refine ⟨⟨(i 0).val / 128, by show _ < 79; omega⟩, flush0_11 _, ?_⟩
  rw [mem_blk_deg]
  obtain ⟨e0, e1, x0, x1⟩ := idx0_11 ⟨(i 0).val / 128, by show _ < 79; omega⟩
  intro a
  match a with
  | ⟨0, _⟩ =>
    show win0_11.index _ (0 : Fin 2) * 128 ≤ (i 0).val ∧ (i 0).val < win0_11.index _ (0 : Fin 2) * 128 + win0_11.xsize _ (0 : Fin 2)
    rw [e0, x0]; show (i 0).val / 128 * 128 ≤ (i 0).val ∧ (i 0).val < (i 0).val / 128 * 128 + min 128 (10000 - (i 0).val / 128 * 128); omega
  | ⟨1, _⟩ =>
    show win0_11.index _ (1 : Fin 2) * 1 ≤ (i 1).val ∧ (i 1).val < win0_11.index _ (1 : Fin 2) * 1 + win0_11.xsize _ (1 : Fin 2)
    rw [e1, x1]; omega

/-- After all write-backs of the first call the degree column holds each row's degree. -/
theorem deg_final (c : Dev nD) (i : Fin 10000) : (dat0 (F := Ideal) V c).arrAt 11 cfg0.N (ix2 i (0 : Fin 1)) = Cert.Spec.degRow (fun k => V c main_arg1 (ix2 i k)) := by
  rw [(dat0 V c).arrAt_eq_of_cover 11 (degArr V c) (fun t _ => flushed_deg V c t) cover_deg]
  rfl

/-! ## The second call: row blocks of 256 rows -/

/-- The row-block windows of the second call: block index (t, 0), the rows cut at the array's end. -/
theorem idx1_0 : ∀ t : Fin cfg1.N, win1_0.index t (0 : Fin 2) = t.val ∧ win1_0.index t (1 : Fin 2) = 0
    ∧ win1_0.xsize (grid1.coords t) (0 : Fin 2) = min 256 (10000 - t.val * 256) ∧ win1_0.xsize (grid1.coords t) (1 : Fin 2) = 10000 :=
  (by decide +kernel : ∀ t : Fin grid1.N, _)
theorem idx1_2 : ∀ t : Fin cfg1.N, win1_2.index t (0 : Fin 2) = t.val ∧ win1_2.index t (1 : Fin 2) = 0
    ∧ win1_2.xsize (grid1.coords t) (0 : Fin 2) = min 256 (10000 - t.val * 256) ∧ win1_2.xsize (grid1.coords t) (1 : Fin 2) = 1 :=
  (by decide +kernel : ∀ t : Fin grid1.N, _)
theorem idx1_4 : ∀ t : Fin cfg1.N, win1_4.index t (0 : Fin 2) = t.val ∧ win1_4.index t (1 : Fin 2) = 0
    ∧ win1_4.xsize (grid1.coords t) (0 : Fin 2) = min 256 (10000 - t.val * 256) ∧ win1_4.xsize (grid1.coords t) (1 : Fin 2) = 128 :=
  (by decide +kernel : ∀ t : Fin grid1.N, _)

/-- The staged adjacency block of the second call at a row inside the array is the array's row. -/
theorem adjB1_apply (c : Dev nD) (t : Fin cfg1.N) (r : Fin 256) (h : t.val * 256 + r.val < 10000) (k : Fin 10000) :
    adjB1 V c t (ix2 r k) = V c main_arg1 (ix2 (⟨t.val * 256 + r.val, h⟩ : Fin 10000) k) := by
  obtain ⟨e0, e1, x0, x1⟩ := idx1_0 t
  have hm : ∀ a, ((ix2 r k : S256x10000.Idx) a).val < win1_0.xsize (grid1.coords t) a := fun a => by
    match a with
    | ⟨0, _⟩ => show r.val < win1_0.xsize (grid1.coords t) (0 : Fin 2); rw [x0]; omega
    | ⟨1, _⟩ => show k.val < win1_0.xsize (grid1.coords t) (1 : Fin 2); rw [x1]; exact k.isLt
  unfold adjB1
  rw [fill_apply_of_lt win1_0 (grid1.coords t) _ _ (ix2 r k) hm]
  show V c main_arg1 (((cfg1.win 0).blk t).view.emb _) = V c main_arg1 _
  congr 1
  funext a; apply Fin.ext
  match a with
  | ⟨0, _⟩ => show win1_0.index t (0 : Fin 2) * 256 + 1 * r.val = t.val * 256 + r.val; rw [e0]; omega
  | ⟨1, _⟩ => show win1_0.index t (1 : Fin 2) * 10000 + 1 * k.val = k.val; rw [e1]; omega

/-- The staged degree block at a row inside the array is the column's entry. -/
theorem degB1_apply (c : Dev nD) (t : Fin cfg1.N) (r : Fin 256) (h : t.val * 256 + r.val < 10000) :
    degB1 V c t (ix2 r (0 : Fin 1)) = V c main_v5_1 (ix2 (⟨t.val * 256 + r.val, h⟩ : Fin 10000) (0 : Fin 1)) := by
  obtain ⟨e0, e1, x0, x1⟩ := idx1_2 t
  have hm : ∀ a, ((ix2 r (0 : Fin 1) : S256x1.Idx) a).val < win1_2.xsize (grid1.coords t) a := fun a => by
    match a with
    | ⟨0, _⟩ => show r.val < win1_2.xsize (grid1.coords t) (0 : Fin 2); rw [x0]; omega
    | ⟨1, _⟩ => show 0 < win1_2.xsize (grid1.coords t) (1 : Fin 2); rw [x1]; omega
  unfold degB1
  rw [fill_apply_of_lt win1_2 (grid1.coords t) _ _ (ix2 r (0 : Fin 1)) hm]
  show V c main_v5_1 (((cfg1.win 2).blk t).view.emb _) = V c main_v5_1 _
  congr 1
  funext a; apply Fin.ext
  match a with
  | ⟨0, _⟩ => show win1_2.index t (0 : Fin 2) * 256 + 1 * r.val = t.val * 256 + r.val; rw [e0]; omega
  | ⟨1, _⟩ => show win1_2.index t (1 : Fin 2) * 1 + 1 * 0 = 0; rw [e1]

/-- The window of y in the second call: one block, the whole array. -/
theorem idxw1_1 : ∀ t : Fin cfg1.N, win1_1.index t (0 : Fin 2) = 0 ∧ win1_1.index t (1 : Fin 2) = 0 :=
  (by decide +kernel : ∀ t : Fin grid1.N, _)
theorem iblk1_1_apply (c : Dev nD) (t : Fin cfg1.N) (a : Fin 10000) (b : Fin 128) :
    iblk1 V c 1 t (ix2 a b) = V c main_v5_0 (ix2 a b) := by
  obtain ⟨e0, e1⟩ := idxw1_1 t
  show V c main_v5_0 (((cfg1.win 1).blk t).view.emb (ix2 a b)) = V c main_v5_0 (ix2 a b)
  congr 1
  funext d; apply Fin.ext
  match d with
  | ⟨0, _⟩ => show win1_1.index t (0 : Fin 2) * 10000 + 1 * a.val = a.val; rw [e0]; omega
  | ⟨1, _⟩ => show win1_1.index t (1 : Fin 2) * 128 + 1 * b.val = b.val; rw [e1]; omega

/-- b2's window (a row): the whole array. -/
theorem idxw1_3 : ∀ t : Fin cfg1.N, win1_3.index t (0 : Fin 2) = 0 ∧ win1_3.index t (1 : Fin 2) = 0 :=
  (by decide +kernel : ∀ t : Fin grid1.N, _)
theorem iblk1_3_apply (c : Dev nD) (t : Fin cfg1.N) (a : Fin 1) (b : Fin 128) :
    iblk1 V c 3 t (ix2 a b) = V c main_v4 (ix2 a b) := by
  obtain ⟨e0, e1⟩ := idxw1_3 t
  show V c main_v4 (((cfg1.win 3).blk t).view.emb (ix2 a b)) = V c main_v4 (ix2 a b)
  congr 1
  funext d; apply Fin.ext
  match d with
  | ⟨0, _⟩ => show win1_3.index t (0 : Fin 2) * 1 + 1 * a.val = a.val; rw [e0]; omega
  | ⟨1, _⟩ => show win1_3.index t (1 : Fin 2) * 128 + 1 * b.val = b.val; rw [e1]; omega

/-- Row `i` of the result, of the arrays as the second call finds them. -/
def outFn (c : Dev nD) (i : Fin 10000) (l : Fin 128) : EReal :=
  Cert.Spec.outRowK (fun j l => V c main_v5_0 (ix2 j l)) (fun l => V c main_v4 (ix2 (0 : Fin 1) l)) (fun j => V c main_arg1 (ix2 i j))
    (V c main_v5_1 (ix2 i (0 : Fin 1))) l

/-- The whole result array. -/
def outArr (c : Dev nD) : Buf (Elt Ideal) ((cfg1.win 4).arr.view.loc (c.tc : Thread nD τ)) :=
  fun (idx : S10000x128.Idx) => outFn V c (idx 0) (idx 1)

/-- What the body leaves in the result block at point `t`, at a row inside the array: the array's row `t · 256 + r`. -/
theorem outOut_staged (c : Dev nD) (t : Fin cfg1.N) (r : Fin 256) (l : Fin 128) (h : t.val * 256 + r.val < 10000) :
    outOut (adjB1 V c t) (yB1 V c t) (degB1 V c t) (b2B1 V c t) (ix2 r l) = outFn V c ⟨t.val * 256 + r.val, h⟩ l := by
  rw [outOut_apply]
  unfold outFn
  simp only [adjB1_apply V c t r h, degB1_apply V c t r h, iblk1_1_apply V c t, iblk1_3_apply V c t]

/-- What point `t` writes back to the result is block `t` of `outArr`. -/
theorem flushed_out (c : Dev nD) (t : Fin cfg1.N) :
    (dat1 V c).flushed 4 t = ((cfg1.win 4).blk t).view.read (Elt Ideal) (outArr V c) := by
  funext j
  obtain ⟨e0, e1, x0, x1⟩ := idx1_4 t
  have hj0 : (j 0).val < win1_4.xsize (grid1.coords t) (0 : Fin 2) := (j 0).isLt
  have hj1 : (j 1).val < win1_4.xsize (grid1.coords t) (1 : Fin 2) := (j 1).isLt
  rw [x0] at hj0; rw [x1] at hj1
  have hr : (j 0).val < 256 := by omega
  have hi : t.val * 256 + (j 0).val < 10000 := by omega
  have hx : (cfg1.win 4).xinj (grid1.coords t) j = (ix2 (⟨(j 0).val, hr⟩ : Fin 256) (⟨(j 1).val, hj1⟩ : Fin 128) : S256x128.Idx) := by
    funext a; match a with | ⟨0, _⟩ => rfl | ⟨1, _⟩ => rfl
  have he : ((cfg1.win 4).blk t).view.emb j = (ix2 (⟨t.val * 256 + (j 0).val, hi⟩ : Fin 10000) (⟨(j 1).val, hj1⟩ : Fin 128) : S10000x128.Idx) := by
    funext a; apply Fin.ext
    match a with
    | ⟨0, _⟩ => show win1_4.index t (0 : Fin 2) * 256 + 1 * (j 0).val = t.val * 256 + (j 0).val; rw [e0]; omega
    | ⟨1, _⟩ => show win1_4.index t (1 : Fin 2) * 128 + 1 * (j 1).val = (j 1).val; rw [e1]; omega
  show (dat1 V c).after 4 t ((cfg1.win 4).xinj (grid1.coords t) j) = outArr V c (((cfg1.win 4).blk t).view.emb j)
  rw [after1_4, hx, he, outOut_staged V c t _ _ hi]
  rfl

theorem mem_blk_out (t : Fin cfg1.N) (i : S10000x128.Idx) :
    i ∈ ((cfg1.win 4).blk t).view.set ↔ ∀ a : Fin 2, win1_4.index t a * S256x128.size a ≤ (i a).val
      ∧ (i a).val < win1_4.index t a * S256x128.size a + win1_4.xsize (grid1.coords t) a := by
  show i ∈ ((View.whole main_v6).slice (win1_4.rect t)).set ↔ _
  rw [View.set_slice_whole, Rect.mem_set_unit]
  exact Iff.rfl

/-- Row `i` lies in the block of point `i / 256`, and every point writes its block back. -/
theorem cover_out (i : S10000x128.Idx) :
    ∃ t : Fin cfg1.N, (cfg1.win 4).flush t = true ∧ i ∈ ((cfg1.win 4).blk t).view.set := by
  have h0 : (i 0).val < 10000 := (i 0).isLt
  have h1 : (i 1).val < 128 := (i 1).isLt
  refine ⟨⟨(i 0).val / 256, by show _ < 40; omega⟩, flush1_4 _, ?_⟩
  rw [mem_blk_out]
  obtain ⟨e0, e1, x0, x1⟩ := idx1_4 ⟨(i 0).val / 256, by show _ < 40; omega⟩
  intro a
  match a with
  | ⟨0, _⟩ =>
    show win1_4.index _ (0 : Fin 2) * 256 ≤ (i 0).val ∧ (i 0).val < win1_4.index _ (0 : Fin 2) * 256 + win1_4.xsize _ (0 : Fin 2)
    rw [e0, x0]; show (i 0).val / 256 * 256 ≤ (i 0).val ∧ (i 0).val < (i 0).val / 256 * 256 + min 256 (10000 - (i 0).val / 256 * 256); omega
  | ⟨1, _⟩ =>
    show win1_4.index _ (1 : Fin 2) * 128 ≤ (i 1).val ∧ (i 1).val < win1_4.index _ (1 : Fin 2) * 128 + win1_4.xsize _ (1 : Fin 2)
    rw [e1, x1]; omega

/-- After all write-backs of the second call the result array holds, row by row, the kernel's result rows. -/
theorem out_final (c : Dev nD) (i : Fin 10000) (l : Fin 128) : (dat1 (F := Ideal) V c).arrAt 4 cfg1.N (ix2 i l) = Cert.Spec.outRowK (fun j l => V c main_v5_0 (ix2 j l)) (fun l => V c main_v4 (ix2 (0 : Fin 1) l)) (fun j => V c main_arg1 (ix2 i j)) (V c main_v5_1 (ix2 i (0 : Fin 1))) l := by
  rw [(dat1 V c).arrAt_eq_of_cover 4 (outArr V c) (fun t _ => flushed_out V c t) cover_out]
  rfl

end Cert.KernelIdeal.H

end
-- ==== Proof.Pre.Decode.lean ====
/-
  The precondition read back as mathematics. The precondition is a chain of conjunctions whose members are,
  for each of the ten float inputs, "every entry has absolute value below +∞", then "every row's degree
  ∑ₖ a i k + ε is not zero" and "every row's total weight ∑ₖ exp (-d i k) · (1 + g i k) + ε is not zero".
  Over the extended reals an entry whose absolute value max x (-x) lies below ⊤ is neither ⊤ nor ⊥, so it is a
  real number; a reduction by conjunction that comes out true was true at every index; and a row sum started
  at 0 is the sum over the row's columns. The arrays stay variables throughout and are read at one symbolic index.
-/
import proofs.«150123_g86629490360606_cont_9to1_m_121_2_alg».proof.Pre_finite_inputs
import proofs.«150123_g86629490360606_cont_9to1_m_121_2_alg».proof.Proof.Gen.Pre_finite_inputs
import proofs.«150123_g86629490360606_cont_9to1_m_121_2_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.PreDecode

open Idealize.ShloMosaic Idealize.ShloMosaic.ValueIdx
open Cert.Pre_finite_inputs

/-- The scalar shape has exactly one index. -/
instance : Subsingleton S_.Idx := ⟨fun a b => funext fun d => d.elim0⟩

/-- The f32 word 0x7F800000 denotes +∞. -/
theorem ofBits_inf : Ideal.ofBits .f32 0x7F800000#32 = ⊤ := by simp [Ideal.ofBits, Ideal.ieee]

/-- An extended real whose absolute value max x (-x) is below +∞ is a real number. -/
theorem real_of_abs_lt_top (x : EReal)
    (h : Ideal.cmp .olt (max x (-x)) (Ideal.ofBits .f32 0x7F800000#32) = 1#1) : x ≠ ⊤ ∧ x ≠ ⊥ := by
  rw [ofBits_inf] at h
  induction x using EReal.rec with
  | bot => simp [Ideal.cmp] at h
  | top => simp [Ideal.cmp] at h
  | coe r => exact ⟨EReal.coe_ne_top r, EReal.coe_ne_bot r⟩

/-- FINITENESS OF ONE INPUT, at any shape: if the conjunction over all indices of "|x| < +∞" is true, every entry of x is a
    real number. -/
theorem all_real {s : Shape} {axes : List (Fin s.rank)} (x : FVec Ideal s .f32)
    (bc : S_.BroadcastsInDim s (![] : Fin 0 → Fin s.rank)) (rt : s.ReducesTo axes S_) (hu : 0 < S_.numel)
    (e : Host.reduce IntOp.andi (cmpf .olt (Host.absf x) (broadcastInDim s ![] bc (constant S_ .f32 0x7F800000#32)))
        (constantI S_ 1 1#1) rt hu ix0 = 1#1) (i : s.Idx) : x i ≠ ⊤ ∧ x i ≠ ⊥ :=
  real_of_abs_lt_top (x i) (Host.reduce_andi_all _ _ rt hu ix0 e i)

/-- The column-sum shape fact in the form whose inserted index is named. -/
theorem red1 : S10000x10000.Reduces [1] S10000 := by decide

/-- Row i of a [10000, 10000] array with column k inserted is the index (i, k). -/
theorem lift_row (i k : Fin 10000) : red1.lift (ix1 i) k = ix2 i k := by
  funext c
  match c with
  | ⟨0, _⟩ => exact Fin.ext rfl
  | ⟨1, _⟩ => exact Fin.ext rfl

/-- The comparison "not equal to 0" that comes out true says the value is not zero. -/
theorem ne_zero_of_cmp_une (a : EReal) (h : Ideal.cmp .une a 0 = 1#1) : a ≠ 0 := by
  intro h0
  rw [h0] at h
  simp [Ideal.cmp] at h

/-- A ROW SUM PLUS ε THAT IS NOWHERE ZERO: if the conjunction over all rows of "(row sum of y from 0) + ε ≠ 0" is true,
    then at every row i the sum over the columns of y (i, ·), plus ε, is not zero. -/
theorem rowsum_ne_zero (y : FVec Ideal S10000x10000 .f32) (rt1 : S10000x10000.ReducesTo [1] S10000)
    (bc : S_.BroadcastsInDim S10000 (![] : Fin 0 → Fin S10000.rank)) (rt0 : S10000.ReducesTo [0] S_) (hu : 0 < S_.numel)
    (e : Host.reduce IntOp.andi
          (cmpf .une (addf (Host.reduceAdd y (constant S_ .f32 0x00000000#32) rt1 hu)
                (broadcastInDim S10000 ![] bc (constant S_ .f32 0x358637BD#32)))
            (broadcastInDim S10000 ![] bc (constant S_ .f32 0x00000000#32)))
          (constantI S_ 1 1#1) rt0 hu ix0 = 1#1) (i : Fin 10000) :
    (∑ k : Fin 10000, y (ix2 i k)) + Cert.Spec.eps ≠ 0 := by
  have h1 := Host.reduce_andi_all _ _ rt0 hu ix0 e (ix1 i)
  change Ideal.cmp .une (Ideal.hostReduceAdd rt1 y (Ideal.ofBits .f32 0x00000000#32) (ix1 i) + Ideal.ofBits .f32 0x358637BD#32)
    (Ideal.ofBits .f32 0x00000000#32) = 1#1 at h1
  rw [Ideal.hostReduceAdd_single rt1 red1 y _ (ix1 i), Ideal.ofBits_zero_f32, zero_add] at h1
  have h2 : (∑ k : Fin 10000, y (red1.lift (ix1 i) k)) + Cert.Spec.eps ≠ 0 := ne_zero_of_cmp_une _ h1
  simpa only [lift_row] using h2

/-- THE DEGREE CONJUNCT: every row's degree is not zero. -/
theorem deg_ne_zero (a : FVec Ideal S10000x10000 .f32) (rt1 : S10000x10000.ReducesTo [1] S10000)
    (bc : S_.BroadcastsInDim S10000 (![] : Fin 0 → Fin S10000.rank)) (rt0 : S10000.ReducesTo [0] S_) (hu : 0 < S_.numel)
    (e : Host.reduce IntOp.andi
          (cmpf .une (addf (Host.reduceAdd a (constant S_ .f32 0x00000000#32) rt1 hu)
                (broadcastInDim S10000 ![] bc (constant S_ .f32 0x358637BD#32)))
            (broadcastInDim S10000 ![] bc (constant S_ .f32 0x00000000#32)))
          (constantI S_ 1 1#1) rt0 hu ix0 = 1#1) (i : Fin 10000) :
    Cert.Spec.degRow (fun k => a (ix2 i k)) ≠ 0 :=
  rowsum_ne_zero a rt1 bc rt0 hu e i

/-- THE WEIGHT CONJUNCT: every row's total weight, the sum over k of exp (-d i k) · (1 + g i k) plus ε, is not zero. The
    weight array read at (i, k) is that product of the entries at (i, k). -/
theorem wsum_ne_zero (d g : FVec Ideal S10000x10000 .f32) (rt1 : S10000x10000.ReducesTo [1] S10000)
    (bc2 : S_.BroadcastsInDim S10000x10000 (![] : Fin 0 → Fin S10000x10000.rank))
    (bc : S_.BroadcastsInDim S10000 (![] : Fin 0 → Fin S10000.rank)) (rt0 : S10000.ReducesTo [0] S_) (hu : 0 < S_.numel)
    (e : Host.reduce IntOp.andi
          (cmpf .une (addf (Host.reduceAdd
                  (mulf (Host.exp (Host.negf d)) (addf (broadcastInDim S10000x10000 ![] bc2 (constant S_ .f32 0x3F800000#32)) g))
                  (constant S_ .f32 0x00000000#32) rt1 hu)
                (broadcastInDim S10000 ![] bc (constant S_ .f32 0x358637BD#32)))
            (broadcastInDim S10000 ![] bc (constant S_ .f32 0x00000000#32)))
          (constantI S_ 1 1#1) rt0 hu ix0 = 1#1) (i : Fin 10000) :
    Cert.Spec.wsumRow (fun k => d (ix2 i k)) (fun k => g (ix2 i k)) ≠ 0 :=
  rowsum_ne_zero (mulf (Host.exp (Host.negf d)) (addf (broadcastInDim S10000x10000 ![] bc2 (constant S_ .f32 0x3F800000#32)) g))
    rt1 bc rt0 hu e i

/-- A conjunction of two scalar predicates that is true has both members true. -/
theorem and_split (a b : IVec S_ 1) (h : andi a b ix0 = 1#1) : a ix0 = 1#1 ∧ b ix0 = 1#1 := IntOp.andi_eq_one.1 h

/-- THE PRECONDITION DECODED: every input entry is a real number, and no row's degree or total weight is zero. -/
theorem pre_facts [Cert.Pre_finite_inputs.Facts] (x0 : FVec Ideal Cert.Pre_finite_inputs.S10000x128 .f32)
    (x1 x2 x3 : FVec Ideal Cert.Pre_finite_inputs.S10000x10000 .f32) (x4 : FVec Ideal Cert.Pre_finite_inputs.S128x256 .f32)
    (x5 : FVec Ideal Cert.Pre_finite_inputs.S256 .f32) (x6 : FVec Ideal Cert.Pre_finite_inputs.S128x128 .f32)
    (x7 : FVec Ideal Cert.Pre_finite_inputs.S128 .f32) (x8 : FVec Ideal Cert.Pre_finite_inputs.S384x128 .f32)
    (x9 : FVec Ideal Cert.Pre_finite_inputs.S128 .f32)
    (h : Cert.Pre_finite_inputs.fn (F := Ideal) x0 x1 x2 x3 x4 x5 x6 x7 x8 x9 = fun _ => 1#1) :
    Cert.Spec.Fin2 (fun k q => x0 (ix2 k q)) ∧ Cert.Spec.Fin2 (fun i k => x1 (ix2 i k)) ∧ Cert.Spec.Fin2 (fun i k => x2 (ix2 i k))
      ∧ Cert.Spec.Fin2 (fun i k => x3 (ix2 i k)) ∧ Cert.Spec.Fin2 (fun q p => x4 (ix2 q p)) ∧ Cert.Spec.Fin1 (fun p => x5 (ix1 p))
      ∧ Cert.Spec.Fin2 (fun q p => x6 (ix2 q p)) ∧ Cert.Spec.Fin1 (fun p => x7 (ix1 p)) ∧ Cert.Spec.Fin2 (fun p l => x8 (ix2 p l))
      ∧ Cert.Spec.Fin1 (fun l => x9 (ix1 l))
      ∧ (∀ i : Fin 10000, Cert.Spec.degRow (fun k => x1 (ix2 i k)) ≠ 0)
      ∧ (∀ i : Fin 10000, Cert.Spec.wsumRow (fun k => x2 (ix2 i k)) (fun k => x3 (ix2 i k)) ≠ 0) := by
  have e := congrFun h ix0
  unfold Cert.Pre_finite_inputs.fn at e; dsimp only at e
  unfold Cert.Pre_finite_inputs.fn_part1 at e; dsimp only at e
  unfold Cert.Pre_finite_inputs.fn_part2 at e; dsimp only at e
  unfold Cert.Pre_finite_inputs.fn_part3 at e; dsimp only at e
  unfold Cert.Pre_finite_inputs.fn_part4 at e
  obtain ⟨e, hw⟩ := and_split _ _ e
  obtain ⟨e, hd⟩ := and_split _ _ e
  obtain ⟨e, h9⟩ := and_split _ _ e
  obtain ⟨e, h8⟩ := and_split _ _ e
  obtain ⟨e, h7⟩ := and_split _ _ e
  obtain ⟨e, h6⟩ := and_split _ _ e
  obtain ⟨e, h5⟩ := and_split _ _ e
  obtain ⟨e, h4⟩ := and_split _ _ e
  obtain ⟨e, h3⟩ := and_split _ _ e
  obtain ⟨e, h2⟩ := and_split _ _ e
  obtain ⟨h0, h1⟩ := and_split _ _ e
  exact ⟨fun k q => all_real x0 _ _ _ h0 (ix2 k q), fun i k => all_real x1 _ _ _ h1 (ix2 i k),
    fun i k => all_real x2 _ _ _ h2 (ix2 i k), fun i k => all_real x3 _ _ _ h3 (ix2 i k),
    fun q p => all_real x4 _ _ _ h4 (ix2 q p), fun p => all_real x5 _ _ _ h5 (ix1 p),
    fun q p => all_real x6 _ _ _ h6 (ix2 q p), fun p => all_real x7 _ _ _ h7 (ix1 p),
    fun p l => all_real x8 _ _ _ h8 (ix2 p l), fun l => all_real x9 _ _ _ h9 (ix1 l),
    fun i => deg_ne_zero x1 _ _ _ _ hd i, fun i => wsum_ne_zero x2 x3 _ _ _ _ _ hw i⟩

end Cert.PreDecode

end
-- ==== Proof.Ref.Value.lean ====
/-
  The reference program's result, read at an index, is the specification's `refOut`.

  The reference is read one stage at a time, each stage at an index given by its coordinates: the degree column
  (the adjacency row summed, plus ε), the degree-normalised aggregate through W1 and b1, the edge weights
  exp(-d)·(1 + g) and their total, the weight-normalised aggregate through Wa and ba, the 384 hidden columns (the
  256 convolution columns, then the 128 angle columns, joined along the column axis and clamped at zero), and last
  the second aggregate over the degree, through W2, plus b2.
-/
import proofs.«150123_g86629490360606_cont_9to1_m_121_2_alg».proof.Proof.Gen.ReferenceIdeal.Run
import proofs.«150123_g86629490360606_cont_9to1_m_121_2_alg».proof.Proof.Gen.ReferenceIdeal.Read
import proofs.«150123_g86629490360606_cont_9to1_m_121_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Cert.ReferenceIdeal.Read Idealize.ShloMosaic Idealize.ShloMosaic.ValueIdx

/-- Two rank-2 indices with the same two coordinates are equal. -/
local macro "idx2" : tactic =>
  `(tactic| exact funext fun a => Fin.ext (by match a with | ⟨0, _⟩ => rfl | ⟨1, _⟩ => rfl))
/-- Two rank-1 indices with the same coordinate are equal. -/
local macro "idx1" : tactic =>
  `(tactic| exact funext fun a => Fin.ext (by match a with | ⟨0, _⟩ => rfl))

variable (x0 : FVec Ideal S10000x128 .f32) (x1 x2 x3 : FVec Ideal S10000x10000 .f32) (x4 : FVec Ideal S128x256 .f32)
  (x5 : FVec Ideal S256 .f32) (x6 : FVec Ideal S128x128 .f32) (x7 : FVec Ideal S128 .f32)
  (x8 : FVec Ideal S384x128 .f32) (x9 : FVec Ideal S128 .f32)

/-! ## The degree column -/

/-- Row `i` of the first degree column: the adjacency row summed from the zero word, plus ε. -/
theorem deg_col (i : Fin 10000) (z : Fin 1) :
    val_main_v3 (F := Ideal) x1 (ix2 i z) = Cert.Spec.degRow (fun k => x1 (ix2 i k)) := by
  rw [val_main_v3_apply, val_main_v1_apply, val_main_v0_apply, val_main_cst_apply, val_main_v2_apply,
    val_main_cst_0_apply]
  simp only [Ideal.addf_def, Ideal.ofBits_def, Ideal.ofBits_zero_f32, zero_add]
  unfold Cert.Spec.degRow Cert.Spec.eps
  refine congrArg (· + _) (Finset.sum_congr rfl fun k _ => congrArg x1 ?_)
  idx2

/-- The same column as the second aggregate recomputes it. -/
theorem deg_col' (i : Fin 10000) (z : Fin 1) :
    val_main_v32 (F := Ideal) x1 (ix2 i z) = Cert.Spec.degRow (fun k => x1 (ix2 i k)) := by
  rw [val_main_v32_apply, val_main_v30_apply, val_main_v29_apply, val_main_cst_4_apply, val_main_v31_apply,
    val_main_cst_5_apply]
  simp only [Ideal.addf_def, Ideal.ofBits_def, Ideal.ofBits_zero_f32, zero_add]
  unfold Cert.Spec.degRow Cert.Spec.eps
  refine congrArg (· + _) (Finset.sum_congr rfl fun k _ => congrArg x1 ?_)
  idx2

/-! ## The convolution branch -/

/-- The first aggregate: the adjacency row against a feature column. -/
theorem agg_at (j : Fin 10000) (q : Fin 128) :
    val_main_v4 (F := Ideal) x0 x1 (ix2 j q) = ∑ k : Fin 10000, x1 (ix2 j k) * x0 (ix2 k q) := by
  rw [val_main_v4_apply]
  exact Finset.sum_congr rfl fun k _ => congrArg₂ (· * ·) (congrArg x1 (by idx2)) (congrArg x0 (by idx2))

/-- The degree column spread over the 128 feature columns. -/
theorem deg_bcast_at (j : Fin 10000) (q : Fin 128) :
    val_main_v5 (F := Ideal) x1 (ix2 j q) = Cert.Spec.degRow (fun k => x1 (ix2 j k)) := by
  rw [val_main_v5_apply, ← deg_col x1 j 0]
  exact congrArg _ (by idx2)

/-- The aggregate over the degree. -/
theorem agg_div_at (j : Fin 10000) (q : Fin 128) :
    val_main_v6 (F := Ideal) x0 x1 (ix2 j q)
      = Ideal.div (∑ k : Fin 10000, x1 (ix2 j k) * x0 (ix2 k q)) (Cert.Spec.degRow (fun k => x1 (ix2 j k))) := by
  rw [val_main_v6_apply, Ideal.hostDivf_def, agg_at, deg_bcast_at]

/-- The convolution branch of a hidden row, before the clamp. -/
theorem conv_at (j : Fin 10000) (p : Fin 256) :
    val_main_v10 (F := Ideal) x0 x1 x4 x5 (ix2 j p)
      = Cert.Spec.convRow (fun k q => x0 (ix2 k q)) (fun q p => x4 (ix2 q p)) (fun p => x5 (ix1 p))
          (fun k => x1 (ix2 j k)) p := by
  rw [val_main_v10_apply, val_main_v7_apply, val_main_v9_apply, val_main_v8_apply, Ideal.addf_def]
  unfold Cert.Spec.convRow
  refine congrArg₂ (· + ·) (Finset.sum_congr rfl fun q _ => ?_) (congrArg x5 (by idx1))
  rw [show lidx_main_v7 (ix2 j p) q = ix2 j q from (by idx2), agg_div_at]
  exact congrArg₂ (· * ·) rfl (congrArg x4 (by idx2))

/-! ## The angle branch -/

/-- An edge weight: exp(-d)·(1 + g). -/
theorem weight_at (j k : Fin 10000) :
    val_main_v15 (F := Ideal) x2 x3 (ix2 j k)
      = Cert.Spec.wRow (fun k => x2 (ix2 j k)) (fun k => x3 (ix2 j k)) k := by
  rw [val_main_v15_apply, val_main_v12_apply, val_main_v11_apply, val_main_v14_apply, val_main_v13_apply,
    val_main_cst_1_apply]
  simp only [Ideal.mulf_def, Ideal.hostUnary_exp_def, Ideal.hostNegf_def, Ideal.negf_def, Ideal.addf_def,
    Ideal.ofBits_def]
  rfl

/-- Row `j` of the total-weight column: the weights summed from the zero word, plus ε. -/
theorem wsum_col (j : Fin 10000) (z : Fin 1) :
    val_main_v19 (F := Ideal) x2 x3 (ix2 j z)
      = Cert.Spec.wsumRow (fun k => x2 (ix2 j k)) (fun k => x3 (ix2 j k)) := by
  rw [val_main_v19_apply, val_main_v17_apply, val_main_v16_apply, val_main_cst_2_apply, val_main_v18_apply,
    val_main_cst_3_apply]
  simp only [Ideal.addf_def, Ideal.ofBits_def, Ideal.ofBits_zero_f32, zero_add]
  unfold Cert.Spec.wsumRow Cert.Spec.eps
  refine congrArg (· + _) (Finset.sum_congr rfl fun k _ => ?_)
  rw [show idx_main_v16 (idx_main_v17 (ix2 j z)) k = ix2 j k from (by idx2), weight_at]

/-- A weight over its row's total. -/
theorem weight_div_at (j k : Fin 10000) :
    val_main_v21 (F := Ideal) x2 x3 (ix2 j k)
      = Ideal.div (Cert.Spec.wRow (fun k => x2 (ix2 j k)) (fun k => x3 (ix2 j k)) k)
          (Cert.Spec.wsumRow (fun k => x2 (ix2 j k)) (fun k => x3 (ix2 j k))) := by
  rw [val_main_v21_apply, Ideal.hostDivf_def, val_main_v20_apply,
    show idx_main_v20 (ix2 j k) = ix2 j (0 : Fin 1) from (by idx2), wsum_col, weight_at]

/-- The angle branch of a hidden row, before the clamp: every weight is divided by the total first. -/
theorem angle_at (j : Fin 10000) (p : Fin 128) :
    val_main_v26 (F := Ideal) x0 x2 x3 x6 x7 (ix2 j p)
      = Cert.Spec.angleRowR (fun k q => x0 (ix2 k q)) (fun q p => x6 (ix2 q p)) (fun p => x7 (ix1 p))
          (fun k => x2 (ix2 j k)) (fun k => x3 (ix2 j k)) p := by
  rw [val_main_v26_apply, val_main_v23_apply, val_main_v25_apply, val_main_v24_apply, Ideal.addf_def]
  unfold Cert.Spec.angleRowR
  refine congrArg₂ (· + ·) (Finset.sum_congr rfl fun q _ => ?_) (congrArg x7 (by idx1))
  rw [show lidx_main_v23 (ix2 j p) q = ix2 j q from (by idx2), val_main_v22_apply]
  refine congrArg₂ (· * ·) (Finset.sum_congr rfl fun k _ => ?_) (congrArg x6 (by idx2))
  rw [show lidx_main_v22 (ix2 j q) k = ix2 j k from (by idx2), weight_div_at]
  exact congrArg₂ (· * ·) rfl (congrArg x0 (by idx2))

/-! ## The hidden row: the two branches joined along the columns, clamped at zero -/

/-- The joined row at a column below 256 is the convolution branch there. -/
theorem joined_left (j : Fin 10000) (p : Fin 384) (h : p.val < 256) :
    val_main_v27 (F := Ideal) x0 x1 x2 x3 x4 x5 x6 x7 (ix2 j p)
      = val_main_v10 (F := Ideal) x0 x1 x4 x5 (ix2 j (⟨p.val, h⟩ : Fin 256)) := by
  unfold val_main_v27
  exact concatenate_pair_apply_left (t := S10000x384) (s₁ := S10000x256) (s₂ := S10000x128) (1 : Fin S10000x384.rank) _ _ _ (ix2 j p) rfl (ix2 j (⟨p.val, h⟩ : Fin 256))
    (fun b => by match b with | ⟨0, _⟩ => rfl | ⟨1, _⟩ => rfl)

/-- The joined row at a column from 256 on is the angle branch, 256 columns back. -/
theorem joined_right (j : Fin 10000) (p : Fin 384) (h : ¬ p.val < 256) :
    val_main_v27 (F := Ideal) x0 x1 x2 x3 x4 x5 x6 x7 (ix2 j p)
      = val_main_v26 (F := Ideal) x0 x2 x3 x6 x7 (ix2 j (⟨p.val - 256, by have := p.isLt; omega⟩ : Fin 128)) := by
  unfold val_main_v27
  exact concatenate_pair_apply_right (t := S10000x384) (s₁ := S10000x256) (s₂ := S10000x128) (1 : Fin S10000x384.rank) _ _ _ (ix2 j p) rfl rfl
    (ix2 j (⟨p.val - 256, by have := p.isLt; omega⟩ : Fin 128))
    (fun b hb => by
      match b with
      | ⟨0, _⟩ => rfl
      | ⟨1, _⟩ => exact absurd rfl hb)
    (by show p.val - 256 + 256 = p.val; omega)

/-- The hidden row of 384 entries. -/
theorem hidden_at (j : Fin 10000) (p : Fin 384) :
    val_main_v28 (F := Ideal) x0 x1 x2 x3 x4 x5 x6 x7 (ix2 j p)
      = Cert.Spec.xRowR (fun k q => x0 (ix2 k q)) (fun q p => x4 (ix2 q p)) (fun p => x5 (ix1 p))
          (fun q p => x6 (ix2 q p)) (fun p => x7 (ix1 p))
          (fun k => x1 (ix2 j k)) (fun k => x2 (ix2 j k)) (fun k => x3 (ix2 j k)) p := by
  rw [val_main_v28_apply, val_main_call0_v0_apply, val_main_call0_cst_apply, Ideal.maximumf_def, Ideal.ofBits_def]
  unfold Cert.Spec.xRowR Cert.Spec.zero32
  by_cases h : p.val < 256
  · rw [dif_pos h, joined_left _ _ _ _ _ _ _ _ j p h, conv_at]
  · rw [dif_neg h, joined_right _ _ _ _ _ _ _ _ j p h, angle_at]

/-! ## The result -/

/-- The reference's result at (i, l). -/
theorem ref_result (i : Fin 10000) (l : Fin 128) :
    val_main_v39 (F := Ideal) x0 x1 x2 x3 x4 x5 x6 x7 x8 x9 (ix2 i l)
      = Cert.Spec.refOut (fun k q => x0 (ix2 k q)) (fun i k => x1 (ix2 i k)) (fun i k => x2 (ix2 i k))
          (fun i k => x3 (ix2 i k)) (fun q p => x4 (ix2 q p)) (fun p => x5 (ix1 p)) (fun q p => x6 (ix2 q p))
          (fun p => x7 (ix1 p)) (fun p l => x8 (ix2 p l)) (fun l => x9 (ix1 l)) i l := by
  rw [val_main_v39_apply, val_main_v36_apply, val_main_v38_apply, val_main_v37_apply, Ideal.addf_def]
  unfold Cert.Spec.refOut Cert.Spec.outRowR
  refine congrArg₂ (· + ·) (Finset.sum_congr rfl fun p _ => ?_) (congrArg x9 (by idx1))
  rw [show lidx_main_v36 (ix2 i l) p = ix2 i p from (by idx2), val_main_v35_apply, Ideal.hostDivf_def,
    val_main_v33_apply, val_main_v34_apply, show idx_main_v34 (ix2 i p) = ix2 i (0 : Fin 1) from (by idx2), deg_col']
  refine congrArg₂ (· * ·) (congrArg (Ideal.div · _) (Finset.sum_congr rfl fun j _ => ?_)) (congrArg x8 (by idx2))
  rw [show ridx_main_v33 (ix2 i p) j = ix2 j p from (by idx2), hidden_at]
  exact congrArg₂ (· * ·) (congrArg x1 (by idx2)) rfl

/-- The same at any index of the result, through its two coordinates. -/
theorem ref_result_idx (idx : S10000x128.Idx) :
    val_main_v39 (F := Ideal) x0 x1 x2 x3 x4 x5 x6 x7 x8 x9 idx
      = Cert.Spec.refOut (fun k q => x0 (ix2 k q)) (fun i k => x1 (ix2 i k)) (fun i k => x2 (ix2 i k))
          (fun i k => x3 (ix2 i k)) (fun q p => x4 (ix2 q p)) (fun p => x5 (ix1 p)) (fun q p => x6 (ix2 q p))
          (fun p => x7 (ix1 p)) (fun p l => x8 (ix2 p l)) (fun l => x9 (ix1 l)) (idx 0) (idx 1) :=
  (congrArg (val_main_v39 (F := Ideal) x0 x1 x2 x3 x4 x5 x6 x7 x8 x9) (eq_ix2 idx)).trans
    (ref_result x0 x1 x2 x3 x4 x5 x6 x7 x8 x9 (idx 0) (idx 1))

end Cert.ReferenceIdeal.RefValue

end
-- ==== Proof.Assemble.lean ====
/-
  The claims about the idealized kernel and the idealized reference: both run and leave their arguments as they
  found them, and from memories that agree on the ten arguments they end with the same result array.

  The kernel's result array after its two calls, read at (i, l), is the adjacency row i against the intermediate
  rows y over the row's degree, plus b2; y and the degree column are what the first call left, read row by row
  as functions of the arguments (the two slices of W2 and the three bias rows are the arguments read at shifted
  or flattened indices). That is the specification's kernel-side result. Where every input is a real number and
  no degree or total weight vanishes, which the precondition says, it equals the reference-side result, and the
  reference's last stage read at (i, l) is that.
-/
import proofs.«150123_g86629490360606_cont_9to1_m_121_2_alg».proof.Defs
import proofs.«150123_g86629490360606_cont_9to1_m_121_2_alg».proof.Proof.Spec
import proofs.«150123_g86629490360606_cont_9to1_m_121_2_alg».proof.Proof.Bridge
import proofs.«150123_g86629490360606_cont_9to1_m_121_2_alg».proof.Proof.KI.Data
import proofs.«150123_g86629490360606_cont_9to1_m_121_2_alg».proof.Proof.KI.HostVals
import proofs.«150123_g86629490360606_cont_9to1_m_121_2_alg».proof.Proof.KI.Run
import proofs.«150123_g86629490360606_cont_9to1_m_121_2_alg».proof.Proof.KI.Body0
import proofs.«150123_g86629490360606_cont_9to1_m_121_2_alg».proof.Proof.KI.Body1
import proofs.«150123_g86629490360606_cont_9to1_m_121_2_alg».proof.Proof.KI.Value
import proofs.«150123_g86629490360606_cont_9to1_m_121_2_alg».proof.Proof.Pre.Decode
import proofs.«150123_g86629490360606_cont_9to1_m_121_2_alg».proof.Proof.Ref.Value
import proofs.«150123_g86629490360606_cont_9to1_m_121_2_alg».proof.Proof.Gen.ReferenceIdeal.Run
import proofs.«150123_g86629490360606_cont_9to1_m_121_2_alg».proof.Proof.Gen.ReferenceIdeal.Read
import proofs.«150123_g86629490360606_cont_9to1_m_121_2_alg».proof.Proof.Gen.Pre_finite_inputs
import Idealize.ShloMosaic.Lib.ValueIdx

noncomputable section

namespace Cert.Proof.Parts

open Idealize.ShloMosaic Idealize.ShloMosaic.TcCoe Idealize.SL.Sem Idealize.ShloMosaic.ValueIdx
open Cert.KernelIdeal Cert.KernelIdeal.Gen Cert.KernelIdeal.H

section Kernel

variable (m : (ℓ : Loc nD τ sig) → Buf (Elt Ideal) ℓ) (ρ : Dev nD → PrngReg) (c : Dev nD)

/-! ## The ten argument arrays of a core at launch -/

abbrev A0 : FVec Ideal S10000x128 .f32 := m ((c.tc : Thread nD τ).loc main_arg0)
abbrev A1 : FVec Ideal S10000x10000 .f32 := m ((c.tc : Thread nD τ).loc main_arg1)
abbrev A2 : FVec Ideal S10000x10000 .f32 := m ((c.tc : Thread nD τ).loc main_arg2)
abbrev A3 : FVec Ideal S10000x10000 .f32 := m ((c.tc : Thread nD τ).loc main_arg3)
abbrev A4 : FVec Ideal S128x256 .f32 := m ((c.tc : Thread nD τ).loc main_arg4)
abbrev A5 : FVec Ideal S256 .f32 := m ((c.tc : Thread nD τ).loc main_arg5)
abbrev A6 : FVec Ideal S128x128 .f32 := m ((c.tc : Thread nD τ).loc main_arg6)
abbrev A7 : FVec Ideal S128 .f32 := m ((c.tc : Thread nD τ).loc main_arg7)
abbrev A8 : FVec Ideal S384x128 .f32 := m ((c.tc : Thread nD τ).loc main_arg8)
abbrev A9 : FVec Ideal S128 .f32 := m ((c.tc : Thread nD τ).loc main_arg9)

/-! ## What the first call is entered from, in terms of the arguments -/

/-- An argument array is untouched by the host operations ahead of the first call. -/
theorem V1_arg (b : Ref sig .tc) (h0 : b ≠ main_v0) (h1 : b ≠ main_v1) (h2 : b ≠ main_v2) (h3 : b ≠ main_v3)
    (h4 : b ≠ main_v4) : V1 m ρ c b = m ((c.tc : Thread nD τ).loc b) :=
  W1_of_ne m ρ c b h0 h1 h2 h3 h4

/-- The first 256 rows of W2. -/
theorem V1_v0 : (fun (p : Fin 256) (l : Fin 128) => V1 m ρ c main_v0 (ix2 p l))
    = fun p l => A8 m c (ix2 ⟨p.val, by have := p.isLt; omega⟩ l) :=
  funext fun p => funext fun l => after_main_v0 (W0 m ρ c) p l
/-- The last 128 rows of W2. -/
theorem V1_v1 : (fun (p : Fin 128) (l : Fin 128) => V1 m ρ c main_v1 (ix2 p l))
    = fun p l => A8 m c (ix2 ⟨256 + p.val, by have := p.isLt; omega⟩ l) :=
  funext fun p => funext fun l => after_main_v1 (W0 m ρ c) p l
/-- b1 as a row. -/
theorem V1_v2 : (fun (p : Fin 256) => V1 m ρ c main_v2 (ix2 (0 : Fin 1) p)) = fun p => A5 m c (ix1 p) :=
  funext fun p => after_main_v2 (W0 m ρ c) p
/-- ba as a row. -/
theorem V1_v3 : (fun (p : Fin 128) => V1 m ρ c main_v3 (ix2 (0 : Fin 1) p)) = fun p => A7 m c (ix1 p) :=
  funext fun p => after_main_v3 (W0 m ρ c) p
/-- b2 as a row. -/
theorem V1_v4 : (fun (p : Fin 128) => V1 m ρ c main_v4 (ix2 (0 : Fin 1) p)) = fun p => A9 m c (ix1 p) :=
  funext fun p => after_main_v4 (W0 m ρ c) p

/-! ## What the first call leaves -/

/-- Row j of the intermediate array y. -/
theorem y_at (j : Fin 10000) (l : Fin 128) :
    V2 m ρ c main_v5_0 (ix2 j l)
      = Cert.Spec.yRow (fun k q => A0 m c (ix2 k q)) (fun q p => A4 m c (ix2 q p)) (fun p => A5 m c (ix1 p))
          (fun q p => A6 m c (ix2 q p)) (fun p => A7 m c (ix1 p))
          (fun (p : Fin 256) l => A8 m c (ix2 ⟨p.val, by have := p.isLt; omega⟩ l))
          (fun (p : Fin 128) l => A8 m c (ix2 ⟨256 + p.val, by have := p.isLt; omega⟩ l))
          (fun k => A1 m c (ix2 j k)) (fun k => A2 m c (ix2 j k)) (fun k => A3 m c (ix2 j k)) l := by
  refine (congrFun (V2_main_v5_0 m ρ c) (ix2 j l)).trans ((y_final (V1 m ρ) c j l).trans ?_)
  rw [V1_v0, V1_v1, V1_v2, V1_v3,
    V1_arg m ρ c main_arg0 (by decide) (by decide) (by decide) (by decide) (by decide),
    V1_arg m ρ c main_arg1 (by decide) (by decide) (by decide) (by decide) (by decide),
    V1_arg m ρ c main_arg2 (by decide) (by decide) (by decide) (by decide) (by decide),
    V1_arg m ρ c main_arg3 (by decide) (by decide) (by decide) (by decide) (by decide),
    V1_arg m ρ c main_arg4 (by decide) (by decide) (by decide) (by decide) (by decide),
    V1_arg m ρ c main_arg6 (by decide) (by decide) (by decide) (by decide) (by decide)]

/-- Row i of the degree column. -/
theorem deg_at (i : Fin 10000) :
    V2 m ρ c main_v5_1 (ix2 i (0 : Fin 1)) = Cert.Spec.degRow (fun k => A1 m c (ix2 i k)) := by
  refine (congrFun (V2_main_v5_1 m ρ c) (ix2 i (0 : Fin 1))).trans ((deg_final (V1 m ρ) c i).trans ?_)
  rw [V1_arg m ρ c main_arg1 (by decide) (by decide) (by decide) (by decide) (by decide)]

/-! ## The result array -/

/-- The kernel's result at (i, l) is the specification's kernel-side result of the arguments. -/
theorem kernel_at (i : Fin 10000) (l : Fin 128) :
    W4 m ρ c (Proc.devRef .tc main_v6) (ix2 i l)
      = Cert.Spec.kerOut (fun k q => A0 m c (ix2 k q)) (fun i k => A1 m c (ix2 i k)) (fun i k => A2 m c (ix2 i k))
          (fun i k => A3 m c (ix2 i k)) (fun q p => A4 m c (ix2 q p)) (fun p => A5 m c (ix1 p))
          (fun q p => A6 m c (ix2 q p)) (fun p => A7 m c (ix1 p)) (fun p l => A8 m c (ix2 p l))
          (fun l => A9 m c (ix1 l)) i l := by
  refine (congrFun (W4_main_v6 m ρ c) (ix2 i l)).trans ((out_final (V2 m ρ) c i l).trans ?_)
  have hy := funext fun j => funext fun l => y_at m ρ c j l
  have hb : (fun (l : Fin 128) => V2 m ρ c main_v4 (ix2 (0 : Fin 1) l)) = fun l => A9 m c (ix1 l) := by
    rw [V2_of_input m ρ c main_v4 (by decide) (by decide)]; exact V1_v4 m ρ c
  have ha : V2 m ρ c main_arg1 = A1 m c :=
    (V2_of_input m ρ c main_arg1 (by decide) (by decide)).trans
      (V1_arg m ρ c main_arg1 (by decide) (by decide) (by decide) (by decide) (by decide))
  rw [hy, hb, ha, deg_at]
  rfl

/-- The whole result array is the reference's last stage of the arguments, under the precondition. -/
theorem kernel_result [Cert.Pre_finite_inputs.Facts]
    (hpre : Cert.Pre_finite_inputs.fn (F := Ideal) (A0 m c) (A1 m c) (A2 m c) (A3 m c) (A4 m c) (A5 m c) (A6 m c)
      (A7 m c) (A8 m c) (A9 m c) = fun _ => 1#1) :
    W4 m ρ c (Proc.devRef .tc main_v6)
      = Cert.ReferenceIdeal.Read.val_main_v39 (F := Ideal) (A0 m c) (A1 m c) (A2 m c) (A3 m c) (A4 m c) (A5 m c)
          (A6 m c) (A7 m c) (A8 m c) (A9 m c) := by
  obtain ⟨hf, ha, hd, hg, hW1, hb1, hWa, hba, hW2, hb2, hdeg, hws⟩ :=
    Cert.PreDecode.pre_facts (A0 m c) (A1 m c) (A2 m c) (A3 m c) (A4 m c) (A5 m c) (A6 m c) (A7 m c) (A8 m c)
      (A9 m c) hpre
  funext idx
  obtain ⟨i, l, rfl⟩ : ∃ (i : Fin 10000) (l : Fin 128), idx = ix2 i l := ⟨idx 0, idx 1, eq_ix2 idx⟩
  exact (kernel_at m ρ c i l).trans
    ((Cert.Spec.kerOut_eq_refOut _ _ _ _ _ _ _ _ _ _ hf ha hd hg hW1 hb1 hWa hba hW2 hb2 hdeg hws i l).trans
      (Cert.ReferenceIdeal.RefValue.ref_result (A0 m c) (A1 m c) (A2 m c) (A3 m c) (A4 m c) (A5 m c) (A6 m c)
        (A7 m c) (A8 m c) (A9 m c) i l).symm)

end Kernel

/-! ## The claims -/

/-- The idealized kernel runs and leaves its ten arguments as it found them. -/
theorem frame_pi_at : Cert.frame_KernelIdeal := fun m ρ _ =>
  (θ_run Cert.KernelIdeal.defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩)
    (H.run (F := Ideal) m ρ body_obligation0 body_obligation1)

/-- The idealized reference runs and leaves its ten arguments as it found them. -/
theorem frame_ri_at : Cert.frame_ReferenceIdeal := fun m ρ _ =>
  (θ_run Cert.ReferenceIdeal.defs _ _).mono (fun _ h c => (h c).2) (Cert.ReferenceIdeal.Value.run (F := Ideal) m ρ)

/-- From memories that agree on the arguments, both programs end with one result array. -/
theorem algebraic_at : Cert.algebraic_KernelIdeal_ReferenceIdeal := by
  intro m ρ m' ρ' hpre hagree
  refine ⟨fun c => Cert.ReferenceIdeal.Read.val_main_v39 (F := Ideal) (A0 m c) (A1 m c) (A2 m c) (A3 m c) (A4 m c)
    (A5 m c) (A6 m c) (A7 m c) (A8 m c) (A9 m c), ?_, ?_⟩
  · exact (θ_run Cert.KernelIdeal.defs _ _).mono (fun r h c =>
      ⟨(h c _ (mem_uc main_v6 (by decide))).trans (kernel_result m ρ c (hpre c)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)
      (H.run (F := Ideal) m ρ body_obligation0 body_obligation1)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [e0, e1, e2, e3, e4, e5, e6, e7, e8, e9]
    exact Cert.ReferenceIdeal.Read.val_main_v39_eq (F := Ideal) (A0 m c) (A1 m c) (A2 m c) (A3 m c) (A4 m c) (A5 m c)
      (A6 m c) (A7 m c) (A8 m c) (A9 m c)

/-! ## The same three claims under any witnesses of the programs' side conditions

The side conditions are propositions, so any two witnesses of one are the same proof. -/

theorem frame_pi [hKernelIdeal : Cert.KernelIdeal.Facts] [hPre_finite_inputs : Cert.Pre_finite_inputs.Facts] :
    Cert.frame_KernelIdeal := frame_pi_at
theorem frame_ri [hReferenceIdeal : Cert.ReferenceIdeal.Facts] [hPre_finite_inputs : Cert.Pre_finite_inputs.Facts] :
    Cert.frame_ReferenceIdeal := frame_ri_at
theorem algebraic [hKernelIdeal : Cert.KernelIdeal.Facts] [hReferenceIdeal : Cert.ReferenceIdeal.Facts]
    [hPre_finite_inputs : Cert.Pre_finite_inputs.Facts] : Cert.algebraic_KernelIdeal_ReferenceIdeal := algebraic_at

end Cert.Proof.Parts

end
-- ==== Proof.lean ====
/-
  Kernel (two pallas_calls over 10000 graph rows: degrees and the folded hidden layer, then the degree-normalised
  aggregation) against the jnp reference, over the extended reals, for inputs that are finite and whose row degrees
  `∑ₖ adj i k + ε` and row weight totals `∑ₖ exp (-dist i k) · (1 + cos i k) + ε` are not zero (where one is zero the
  reference itself divides by zero).

  The three programs run, fault nowhere and leave their arguments unchanged; the ideal pass rewrote nothing; and the
  idealized kernel and the idealized reference end with equal results: the kernel divides the weighted aggregate after
  summing and applies W2 before the second aggregation, the reference divides each weight first and applies W2 last,
  and on real numbers with non-zero divisors the two are one value by linearity of the sums (Bridge.lean).
  The word-level frame is K/Frame.lean; the idealized kernel's run and values are KI/*.lean; the reference's values
  Ref/Value.lean; the precondition read as facts Pre/Decode.lean; the conjuncts are put together in Assemble.lean.
-/
import proofs.«150123_g86629490360606_cont_9to1_m_121_2_alg».proof.Defs
import proofs.«150123_g86629490360606_cont_9to1_m_121_2_alg».proof.Proof.Gen.Kernel
import proofs.«150123_g86629490360606_cont_9to1_m_121_2_alg».proof.Proof.Gen.Kernel.Skeleton
import proofs.«150123_g86629490360606_cont_9to1_m_121_2_alg».proof.Proof.Gen.Kernel.Launch
import proofs.«150123_g86629490360606_cont_9to1_m_121_2_alg».proof.Proof.Gen.Kernel.Regions
import proofs.«150123_g86629490360606_cont_9to1_m_121_2_alg».proof.Proof.Gen.Kernel.Points
import proofs.«150123_g86629490360606_cont_9to1_m_121_2_alg».proof.Proof.Gen.KernelIdeal
import proofs.«150123_g86629490360606_cont_9to1_m_121_2_alg».proof.Proof.Gen.KernelIdeal.Skeleton
import proofs.«150123_g86629490360606_cont_9to1_m_121_2_alg».proof.Proof.Gen.KernelIdeal.Launch
import proofs.«150123_g86629490360606_cont_9to1_m_121_2_alg».proof.Proof.Gen.KernelIdeal.Regions
import proofs.«150123_g86629490360606_cont_9to1_m_121_2_alg».proof.Proof.Gen.KernelIdeal.Points
import proofs.«150123_g86629490360606_cont_9to1_m_121_2_alg».proof.Proof.Gen.ReferenceIdeal
import proofs.«150123_g86629490360606_cont_9to1_m_121_2_alg».proof.Proof.Gen.Pre_finite_inputs
import proofs.«150123_g86629490360606_cont_9to1_m_121_2_alg».proof.Proof.Gen.ReferenceIdeal.Run
import proofs.«150123_g86629490360606_cont_9to1_m_121_2_alg».proof.Proof.Gen.ReferenceIdeal.Read
import proofs.«150123_g86629490360606_cont_9to1_m_121_2_alg».proof.Proof.K.Body
import proofs.«150123_g86629490360606_cont_9to1_m_121_2_alg».proof.Proof.K.Frame
import proofs.«150123_g86629490360606_cont_9to1_m_121_2_alg».proof.Proof.Assemble
import Idealize.ShloMosaic.Adequacy
import Idealize.ShloMosaic.Init

noncomputable section

namespace Cert.Proof

open Idealize.ShloMosaic Idealize.SL.Sem Cert.Kernel

/-- The word-level kernel's frame: the run of K/Frame.lean at the bit patterns, its two bodies' runs from K/Body.lean. -/
theorem frame_p [hKernel : Cert.Kernel.Facts] [hPre_finite_inputs : Cert.Pre_finite_inputs.Facts] : Cert.frame_Kernel :=
  fun m ρ _ => Cert.Kernel.HF.frame (F := Bits) m ρ (fun c V => Cert.Kernel.HF.body0 c V) (fun c V => Cert.Kernel.HF.body1 c V)

theorem claim : Cert.Claim := ⟨Cert.Kernel.Gen.facts, Cert.KernelIdeal.Gen.facts, Cert.ReferenceIdeal.Gen.facts, Cert.Pre_finite_inputs.Gen.facts,
  frame_p, Cert.Proof.Parts.frame_pi, Cert.Proof.Parts.frame_ri, trivial, Cert.Proof.Parts.algebraic⟩

end Cert.Proof

end
